-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S64x1024 : Shape := ⟨2, ![64, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_

variable [Facts]

def fn {F : FTy → Type} [FloatOps F] (main_arg0 : FVec F S4x2048x1024 .f32) (main_arg1 : FVec F S64x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  main_v8
-- ==== Kernel.lean ====
abbrev S4x2048x1024 : Shape := ⟨3, ![4, 2048, 1024]⟩
abbrev S64x1024 : Shape := ⟨2, ![64, 1024]⟩
abbrev S8192x1024 : Shape := ⟨2, ![8192, 1024]⟩
abbrev S1024x64 : Shape := ⟨2, ![1024, 64]⟩
abbrev S8192x64 : Shape := ⟨2, ![8192, 64]⟩
abbrev S512x1024 : Shape := ⟨2, ![512, 1024]⟩
abbrev S512x64 : Shape := ⟨2, ![512, 64]⟩
abbrev S4x2048x64 : Shape := ⟨3, ![4, 2048, 64]⟩
abbrev S1x256x64 : Shape := ⟨3, ![1, 256, 64]⟩
abbrev S256x1 : Shape := ⟨2, ![256, 1]⟩
abbrev S256x64 : Shape := ⟨2, ![256, 64]⟩
abbrev S256x256 : Shape := ⟨2, ![256, 256]⟩
abbrev S256 : Shape := ⟨1, ![256]⟩

abbrev nBuf : Space → Nat
  | .hbm => 7
  | .vmem => 14
  | .smem => 0
  | _ => 0

abbrev bufTy : (tb : Table) → Fin (tcTables nBuf tb) → BufTy
  | .hbm, ⟨0, _⟩ => ⟨S4x2048x1024, .f32⟩
  | .hbm, ⟨1, _⟩ => ⟨S64x1024, .f32⟩
  | .hbm, ⟨2, _⟩ => ⟨S8192x1024, .f32⟩
  | .hbm, ⟨3, _⟩ => ⟨S1024x64, .f32⟩
  | .hbm, ⟨4, _⟩ => ⟨S8192x64, .f32⟩
  | .hbm, ⟨5, _⟩ => ⟨S4x2048x64, .f32⟩
  | .hbm, ⟨6, _⟩ => ⟨S4x2048x64, .f32⟩
  | .local _ .vmem, ⟨0, _⟩ => ⟨S512x1024, .f32⟩
  | .local _ .vmem, ⟨1, _⟩ => ⟨S512x1024, .f32⟩
  | .local _ .vmem, ⟨2, _⟩ => ⟨S1024x64, .f32⟩
  | .local _ .vmem, ⟨3, _⟩ => ⟨S512x64, .f32⟩
  | .local _ .vmem, ⟨4, _⟩ => ⟨S512x64, .f32⟩
  | .local _ .vmem, ⟨5, _⟩ => ⟨S1x256x64, .f32⟩
  | .local _ .vmem, ⟨6, _⟩ => ⟨S1x256x64, .f32⟩
  | .local _ .vmem, ⟨7, _⟩ => ⟨S1x256x64, .f32⟩
  | .local _ .vmem, ⟨8, _⟩ => ⟨S1x256x64, .f32⟩
  | .local _ .vmem, ⟨9, _⟩ => ⟨S1x256x64, .f32⟩
  | .local _ .vmem, ⟨10, _⟩ => ⟨S1x256x64, .f32⟩
  | .local _ .vmem, ⟨11, _⟩ => ⟨S256x1, .f32⟩
  | .local _ .vmem, ⟨12, _⟩ => ⟨S256x1, .f32⟩
  | .local _ .vmem, ⟨13, _⟩ => ⟨S256x64, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc1_scratch1 : Ref sig .tc := ⟨.vmem, 12, rfl⟩
abbrev cc1_scratch2 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![4, 8, 8], ![false, false, false]⟩

def k1_cond3 (i : grid1.Coords) : BitVec 1 :=
  let arg2 : BitVec 32 := BitVec.ofNat 32 (i 2).val
  let c7_i32 : BitVec 32 := 7#32
  let v6 : BitVec 1 := Scalar.cmpi .eq arg2 c7_i32
  let v7 : BitVec 32 := Scalar.extui v6
  let c0_i32_2 : BitVec 32 := 0#32
  let v8 : BitVec 1 := Scalar.cmpi .ne v7 c0_i32_2
  v8

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x256x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x256x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x256x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  shapeCasts_S4x2048x1024_S8192x1024 : S4x2048x1024.ShapeCasts S8192x1024
  transposes_S64x1024_S1024x64_1_0 : S64x1024.Transposes [1, 0] S1024x64
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S512x64_S512x64_0_0 : ∀ a, (![0, 0] : Fin 2 → Nat) a + S512x64.size a ≤ S512x64.size a
  h_S512x64 : 0 < S512x64.numel
  shapeCasts_S8192x64_S4x2048x64 : S8192x64.ShapeCasts S4x2048x64
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  iota_S256x256_d0_w32 : S256x256.Iotas .tc 32 [0]
  iota_S256x256_d1_w32 : S256x256.Iotas .tc 32 [1]
  reduces_S256x256_S256 : S256x256.Reduces [1] S256
  shapeCasts_S256_S256x1 : S256.ShapeCasts S256x1
  broadcasts_S256x1_S256x256 : S256x1.Broadcasts S256x256
  broadcasts_S256x1_S256x64 : S256x1.Broadcasts S256x64
  shapeCasts_S256x64_S1x256x64 : S256x64.ShapeCasts S1x256x64
  dot_S512x1024_S1024x64_S512x64_1_0_0_1_n_n_wf : DotDims.WF S512x1024 S1024x64 S512x64 [1] [0] [0] [1] [] []
  dot_S256x64_S256x64_S256x256_1_1_0_0_n_n_wf : DotDims.WF S256x64 S256x64 S256x256 [1] [1] [0] [0] [] []
  dot_S256x256_S256x64_S256x64_1_0_0_1_n_n_wf : DotDims.WF S256x256 S256x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S8192x64.size a
  hwx0_2 : ∀ i : grid0.Coords, EltTy.bits .f32 = 32 ∨ (Rect.block (s := S8192x64) S512x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x64.size a ≤ S4x2048x64.size a
  hwx1_0 : ∀ i : grid1.Coords, EltTy.bits .f32 = 32 ∨ (Rect.block (s := S4x2048x64) S1x256x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x64.size a ≤ S4x2048x64.size a
  hwx1_1 : ∀ i : grid1.Coords, EltTy.bits .f32 = 32 ∨ (Rect.block (s := S4x2048x64) S1x256x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x64.size a ≤ S4x2048x64.size a
  hwx1_2 : ∀ i : grid1.Coords, EltTy.bits .f32 = 32 ∨ (Rect.block (s := S4x2048x64) S1x256x64.size (cc1_transform_2 i) (hinb1_2 i)).WholeWords (EltTy.packing .f32)

variable [Facts₀]

def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf
def dot_S256x64_S256x64_S256x256_1_1_0_0_n_n : DotDims S256x64 S256x64 S256x256 where
  lhsContracting := [1]
  rhsContracting := [1]
  lhsNonContracting := [0]
  rhsNonContracting := [0]
  lhsBatch := []
  rhsBatch := []
  wf := dot_S256x64_S256x64_S256x256_1_1_0_0_n_n_wf
def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S1x256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x256x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x256x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond3 i == 1#1) | ⟨_ + 3, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S64x1024 : Shape := ⟨2, ![64, 1024]⟩
abbrev S4x2048x64 : Shape := ⟨3, ![4, 2048, 64]⟩
abbrev S4x2048x2048 : Shape := ⟨3, ![4, 2048, 2048]⟩
abbrev S_ : Shape := ⟨0, ![]⟩
abbrev S2048x2048 : Shape := ⟨2, ![2048, 2048]⟩
abbrev S4x2048 : Shape := ⟨2, ![4, 2048]⟩
abbrev S4x2048x1 : Shape := ⟨3, ![4, 2048, 1]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S64x1024, .f32⟩
  | .hbm, ⟨2, _⟩ => ⟨S4x2048x64, .f32⟩
  | .hbm, ⟨3, _⟩ => ⟨S4x2048x2048, .f32⟩
  | .hbm, ⟨4, _⟩ => ⟨S_, .f32⟩
  | .hbm, ⟨5, _⟩ => ⟨S_, .f32⟩
  | .hbm, ⟨6, _⟩ => ⟨S4x2048x2048, .f32⟩
  | .hbm, ⟨7, _⟩ => ⟨S4x2048x2048, .f32⟩
  | .hbm, ⟨8, _⟩ => ⟨S_, .i1⟩
  | .hbm, ⟨9, _⟩ => ⟨S2048x2048, .i1⟩
  | .hbm, ⟨10, _⟩ => ⟨S2048x2048, .i32⟩
  | .hbm, ⟨11, _⟩ => ⟨S_, .i32⟩
  | .hbm, ⟨12, _⟩ => ⟨S2048x2048, .i32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S_, .i1⟩
  | .hbm, ⟨17, _⟩ => ⟨S2048x2048, .i1⟩
  | .hbm, ⟨18, _⟩ => ⟨S2048x2048, .i1⟩
  | .hbm, ⟨19, _⟩ => ⟨S_, .f32⟩
  | .hbm, ⟨20, _⟩ => ⟨S_, .f32⟩
  | .hbm, ⟨21, _⟩ => ⟨S4x2048x2048, .i1⟩
  | .hbm, ⟨22, _⟩ => ⟨S4x2048x2048, .f32⟩
  | .hbm, ⟨23, _⟩ => ⟨S4x2048x2048, .f32⟩
  | .hbm, ⟨24, _⟩ => ⟨S_, .f32⟩
  | .hbm, ⟨25, _⟩ => ⟨S4x2048, .f32⟩
  | .hbm, ⟨26, _⟩ => ⟨S_, .f32⟩
  | .hbm, ⟨27, _⟩ => ⟨S4x2048, .f32⟩
  | .hbm, ⟨28, _⟩ => ⟨S4x2048, .f32⟩
  | .hbm, ⟨29, _⟩ => ⟨S4x2048x1, .f32⟩
  | .hbm, ⟨30, _⟩ => ⟨S4x2048x2048, .f32⟩
  | .hbm, ⟨31, _⟩ => ⟨S4x2048x2048, .f32⟩
  | .hbm, ⟨32, _⟩ => ⟨S4x2048x2048, .f32⟩
  | .hbm, ⟨33, _⟩ => ⟨S_, .f32⟩
  | .hbm, ⟨34, _⟩ => ⟨S4x2048, .f32⟩
  | .hbm, ⟨35, _⟩ => ⟨S4x2048x1, .f32⟩
  | .hbm, ⟨36, _⟩ => ⟨S4x2048x2048, .f32⟩
  | .hbm, ⟨37, _⟩ => ⟨S4x2048x2048, .f32⟩
  | .hbm, ⟨38, _⟩ => ⟨S4x2048x64, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_0 : Ref sig .tc := ⟨.hbm, 16, rfl⟩
abbrev main_call0_v5 : Ref sig .tc := ⟨.hbm, 17, rfl⟩
abbrev main_v6 : Ref sig .tc := ⟨.hbm, 18, rfl⟩
abbrev main_cst_0 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_cst_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  bcast_S_S2048x2048 : S_.BroadcastsInDim S2048x2048 (![] : Fin 0 → Fin S2048x2048.rank)
  bcast_S2048x2048_S4x2048x2048_1_2 : S2048x2048.BroadcastsInDim S4x2048x2048 (![1, 2] : Fin 2 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S64x1024_S4x2048x64_2_1_01_0_n_n_wf : DotDims.WF S4x2048x1024 S64x1024 S4x2048x64 [2] [1] [0, 1] [0] [] []
  dot_S4x2048x64_S4x2048x64_S4x2048x2048_2_2_1_1_0_0_wf : DotDims.WF S4x2048x64 S4x2048x64 S4x2048x2048 [2] [2] [1] [1] [0] [0]
  dot_S4x2048x2048_S4x2048x64_S4x2048x64_2_1_1_2_0_0_wf : DotDims.WF S4x2048x2048 S4x2048x64 S4x2048x64 [2] [1] [1] [2] [0] [0]

variable [Facts₀]

def dot_S4x2048x1024_S64x1024_S4x2048x64_2_1_01_0_n_n : DotDims S4x2048x1024 S64x1024 S4x2048x64 where
  lhsContracting := [2]
  rhsContracting := [1]
  lhsNonContracting := [0, 1]
  rhsNonContracting := [0]
  lhsBatch := []
  rhsBatch := []
  wf := dot_S4x2048x1024_S64x1024_S4x2048x64_2_1_01_0_n_n_wf
def dot_S4x2048x64_S4x2048x64_S4x2048x2048_2_2_1_1_0_0 : DotDims S4x2048x64 S4x2048x64 S4x2048x2048 where
  lhsContracting := [2]
  rhsContracting := [2]
  lhsNonContracting := [1]
  rhsNonContracting := [1]
  lhsBatch := [0]
  rhsBatch := [0]
  wf := dot_S4x2048x64_S4x2048x64_S4x2048x2048_2_2_1_1_0_0_wf
def dot_S4x2048x2048_S4x2048x64_S4x2048x64_2_1_1_2_0_0 : DotDims S4x2048x2048 S4x2048x64 S4x2048x64 where
  lhsContracting := [2]
  rhsContracting := [1]
  lhsNonContracting := [1]
  rhsNonContracting := [2]
  lhsBatch := [0]
  rhsBatch := [0]
  wf := dot_S4x2048x2048_S4x2048x64_S4x2048x64_2_1_1_2_0_0_wf

class Facts : Prop extends Facts₀ where

variable [Facts]
-- ==== Proof.K.State.lean ====
/-
  The attention kernel's scratch state and what one grid point does to it, as pure functions
  of the blocks it loads: the running maximum m, the running sum of exponentials l and the
  running weighted sum a of one query tile (256 rows), over the kernel function's named stored
  values. A point (b, qi, ki) resets the state when ki = 0, folds key/value tile ki into it when
  ki ≤ qi, and when ki = 7 stores a * (1 / l) into the output block.
-/
import proofs.«418124_j83743272337485_3_alg».proof.Proof.Gen.Kernel.Skeleton

noncomputable section

namespace Cert.Kernel.Hand

open Idealize.ShloMosaic Idealize.SL.Sem Cert.Kernel Cert.Kernel.Gen

variable {F : FTy → Type} [FloatOps F]

/-- The three scratch buffers' contents: running maximum, running sum, running weighted sum. -/
structure St (F : FTy → Type) [FloatOps F] where
  m : Vec F S256x1 .f32
  l : Vec F S256x1 .f32
  a : Vec F S256x64 .f32

/-- The reset state: maximum -inf, sums zero. -/
def stInit : St F := ⟨k1_pay1, k1_pay2, k1_pay3⟩

/-- Folding key/value tile `kv` (tile index the word `a2`) into the state of query tile `q` (tile index the word `a1`). -/
def stStep (a1 a2 : BitVec 32) (q kv : Vec F S1x256x64 .f32) (s : St F) : St F :=
  ⟨k1_pay5 (k1_pay9 a1 a2 q kv s.m),
   k1_pay12 a1 a2 q kv s.m s.l,
   k1_pay4 (k1_pay7 kv) (k1_pay10 a1 a2 q kv s.m) (k1_pay11 a1 a2 q kv s.m) s.a⟩

/-- The output block: the weighted sum times the reciprocal of the sum. -/
def stOut (s : St F) : Vec F S1x256x64 .f32 := k1_pay6 s.a s.l

/-- The reset's condition at a grid point: the key/value tile index is 0. -/
abbrev c1 (i : grid1.Coords) : Prop :=
  (Scalar.cmpi .ne (Scalar.extui (Scalar.cmpi .eq (BitVec.ofNat 32 (i 2).val) 0#32)) 0#32) = 1#1
/-- The fold's condition: the key/value tile is not above the diagonal. -/
abbrev c2 (i : grid1.Coords) : Prop :=
  (Scalar.cmpi .ne (Scalar.extui (Scalar.cmpi .sle (BitVec.ofNat 32 (i 2).val) (BitVec.ofNat 32 (i 1).val))) 0#32) = 1#1
/-- The output store's condition: the last key/value tile. -/
abbrev c3 (i : grid1.Coords) : Prop := k1_cond3 i = 1#1

instance (i : grid1.Coords) : Decidable (c1 i) := by unfold c1; infer_instance
instance (i : grid1.Coords) : Decidable (c2 i) := by unfold c2; infer_instance
instance (i : grid1.Coords) : Decidable (c3 i) := by unfold c3; infer_instance

/-- The state after the reset, if the point resets. -/
def stA (i : grid1.Coords) (s : St F) : St F := if c1 i then stInit else s

/-- The state a point leaves, from the state it finds and the blocks it loads. -/
def stNext (i : grid1.Coords) (q kv : Vec F S1x256x64 .f32) (s : St F) : St F :=
  if c2 i then stStep (BitVec.ofNat 32 (i 1).val) (BitVec.ofNat 32 (i 2).val) q kv (stA i s) else stA i s

/-- A point that resets leaves a state that does not depend on the one it found. -/
theorem stNext_of_c1 (i : grid1.Coords) (h : c1 i) (q kv : Vec F S1x256x64 .f32) (s s' : St F) :
    stNext i q kv s = stNext i q kv s' := by
  unfold stNext stA; rw [if_pos h, if_pos h]

end Cert.Kernel.Hand

end
-- ==== Proof.K.Data.lean ====
/-
  The two kernel regions' proof data: per window, what its staging buffer holds after the body at each grid
  point, and what the body keeps between points.

  Projection (16 points): point i reads rows 512 i … 512 i + 511 of the reshaped input and the whole transposed
  weight, and leaves their product in the output buffer; nothing is kept between points.

  Attention (256 points (b, qi, ki)): the query window reads tile qi and the key/value window tile min ki qi of
  one array; the three scratch buffers carry the recurrence's state from point to point (`sAt`: the fold of the
  points so far; the first point of every (b, qi) resets it, so the state before the first point is immaterial);
  the output buffer is stored at ki = 7 only and is idle elsewhere. The two input windows hold their array at
  half the share each.
-/
import proofs.«418124_j83743272337485_3_alg».proof.Proof.K.State
import proofs.«418124_j83743272337485_3_alg».proof.Proof.Gen.Kernel.Launch
import proofs.«418124_j83743272337485_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The attention kernel's three scratch operands, as the pipeline passes them. -/
abbrev sM : Memref sig .tc .vmem S256x1 .f32 := Memref.whole cc1_scratch0
abbrev sL : Memref sig .tc .vmem S256x1 .f32 := Memref.whole cc1_scratch1
abbrev sA : Memref sig .tc .vmem S256x64 .f32 := Memref.whole cc1_scratch2

section Regions

/-! The projection region, at the contents `V` the core's buffers hold when it is entered: each grid point
    i multiplies rows 512 i … 512 i + 511 of the reshaped input by the whole transposed weight. -/

variable (V : (c : Dev nD) → (b : Ref sig .tc) → Buf (Elt F) ((c : Thread nD τ).loc b))

/-- Window `w`'s block at point `t`, read off its array. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The region's proof data: the two inputs stay at their blocks, the output's buffer holds the product of the blocks. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => k0_pay1 (blk0 V c 0 t) (blk0 V c 1 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = k0_pay1 (blk0 V c 0 t) (blk0 V c 1 t) := by dsimp only [dat0]

/-- An input's staging buffer holds the window's block at every point, fetched there or not. -/
theorem dat0_before0 (c : Dev nD) (t : Fin cfg0.N) (d) : (dat0 V c).before 0 t d = blk0 V c 0 t :=
  ((dat0 V c).before_in_eq_fetched 0 rfl (fun _ => rfl) (fun _ _ _ => rfl)
      (fun t => by rw [dat0_after0]; unfold Dat.blockOf blk0; rw [dat0_A]; try rfl) t d).trans
    (by unfold Dat.fetched Dat.blockOf blk0; rw [dat0_A]; try rfl)
theorem dat0_before1 (c : Dev nD) (t : Fin cfg0.N) (d) : (dat0 V c).before 1 t d = blk0 V c 1 t :=
  ((dat0 V c).before_in_eq_fetched 1 rfl (fun _ => rfl) (fun _ _ _ => rfl)
      (fun t => by rw [dat0_after1]; unfold Dat.blockOf blk0; rw [dat0_A]; try rfl) t d).trans
    (by unfold Dat.fetched Dat.blockOf blk0; rw [dat0_A]; try rfl)

end Regions

section Attention

/-! The attention region, at the contents `V` the core's buffers hold when it is entered. Grid point
    (b, qi, ki) finds query tile qi and key/value tile min ki qi of batch b in its two input buffers (both windows
    read the same array), the scratch as the point before left it, and leaves the scratch folded once more; the
    output block is stored at ki = 7 only. -/

variable (V : (c : Dev nD) → (b : Ref sig .tc) → Buf (Elt F) ((c : Thread nD τ).loc b))

/-- Window `w`'s block at point `t`, read off its array. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch state after the body at position `n`: the fold of the points so far (the first point resets, so
    the state it starts from is immaterial). -/
def sAt (c : Dev nD) : (n : ℕ) → n < cfg1.N → St F
  | 0, hn => stNext (grid1.coords ⟨0, hn⟩) (blk1 V c 0 ⟨0, hn⟩) (blk1 V c 1 ⟨0, hn⟩) stInit
  | n + 1, hn => stNext (grid1.coords ⟨n + 1, hn⟩) (blk1 V c 0 ⟨n + 1, hn⟩) (blk1 V c 1 ⟨n + 1, hn⟩) (sAt c n (Nat.lt_of_succ_lt hn))

theorem sAt_pos (c : Dev nD) (t : Fin cfg1.N) (ht : t.val ≠ 0) :
    sAt V c t.val t.isLt = stNext (grid1.coords t) (blk1 V c 0 t) (blk1 V c 1 t)
      (sAt V c (t.val - 1) (Nat.lt_of_le_of_lt (Nat.sub_le _ _) t.isLt)) := by
  obtain ⟨n, hn⟩ := t
  cases n with
  | zero => exact absurd rfl ht
  | succ n => rfl

/-- The conditions in closed form over the grid's 256 points: position t is (b, qi, ki) = (t / 64, t / 8 % 8, t % 8). -/
theorem hc1 : ∀ t : Fin cfg1.N, c1 (grid1.coords t) ↔ t.val % 8 = 0 :=
  (by decide +kernel : ∀ t : Fin grid1.N, c1 (grid1.coords t) ↔ t.val % 8 = 0)
theorem hc3 : ∀ t : Fin cfg1.N, c3 (grid1.coords t) ↔ t.val % 8 = 7 :=
  (by decide +kernel : ∀ t : Fin grid1.N, c3 (grid1.coords t) ↔ t.val % 8 = 7)
/-- The output window is live exactly where the body stores into it, and idle and not written back elsewhere. -/
theorem live2 : ∀ t : Fin cfg1.N, c3 (grid1.coords t) → cfg1.idle 2 (grid1.coords t) = false := by decide +kernel
theorem idle2 : ∀ t : Fin cfg1.N, ¬c3 (grid1.coords t) → cfg1.idle 2 (grid1.coords t) = true := by decide +kernel
theorem noflush2 : ∀ t : Fin cfg1.N, ¬c3 (grid1.coords t) → (cfg1.win 2).flush t = false := by decide +kernel

/-- The region's invariant with the three scratch buffers at given assertions: beside them the other region's
    scoped buffers, which this one never names, and the generator register. -/
def inv1 (c : Dev nD) (PM PL PA : sProp 𝕄) : sProp 𝕄 :=
  iprop(((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ PM ∗ PL ∗ PA) ∗ (∃ r, prngReg c r))

/-- What the region hands the body besides the windows: the scratch buffers at some contents. -/
theorem PhiA1_eq (c : Dev nD) :
    (Pipeline.ΦA spec1 c : sProp 𝕄)
      = inv1 c (iprop(∃ d, owns (c : Thread nD τ) sM fullShare d)) (iprop(∃ d, owns (c : Thread nD τ) sL fullShare d))
          (iprop(∃ d, owns (c : Thread nD τ) sA fullShare d)) := by
  unfold Pipeline.ΦA inv1; rw [scopedRest1_eq]; simp only [sM, sL, sA, owns_whole]; try rfl

/-- The invariant before position `n`: before the first point the scratch holds anything; afterwards what the
    point before left. -/
def Phi1 (c : Dev nD) : (n : ℕ) → n ≤ cfg1.N → sProp 𝕄
  | 0, _ => Pipeline.ΦA spec1 c
  | n + 1, hn => inv1 c (owns (c : Thread nD τ) sM fullShare (sAt V c n hn).m) (owns (c : Thread nD τ) sL fullShare (sAt V c n hn).l)
      (owns (c : Thread nD τ) sA fullShare (sAt V c n hn).a)

theorem Phi1_pos (c : Dev nD) (n : ℕ) (h : n ≤ cfg1.N) (hz : n ≠ 0) :
    Phi1 V c n h = inv1 c (owns (c : Thread nD τ) sM fullShare (sAt V c (n - 1) (by omega)).m)
      (owns (c : Thread nD τ) sL fullShare (sAt V c (n - 1) (by omega)).l)
      (owns (c : Thread nD τ) sA fullShare (sAt V c (n - 1) (by omega)).a) := by
  cases n with
  | zero => exact absurd rfl hz
  | succ n => rfl

/-- The region's proof data. The two input windows read one array, each at half the share. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => stOut (sAt V c t.val t.isLt)
  Φ t := Phi1 V c t.val (Nat.le_of_lt_succ t.isLt)
  q w := match w with
    | ⟨0, _⟩ => fullShare.left
    | ⟨1, _⟩ => fullShare.right
    | ⟨2, _⟩ => fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = stOut (sAt V c t.val t.isLt) := by dsimp only [dat1]
theorem dat1_Phi_castSucc (c : Dev nD) (t : Fin cfg1.N) : (dat1 V c).Φ t.castSucc = Phi1 V c t.val (Nat.le_of_lt t.isLt) := by
  dsimp only [dat1]; simp only [Fin.coe_castSucc]

theorem dat1_before0 (c : Dev nD) (t : Fin cfg1.N) (d) : (dat1 V c).before 0 t d = blk1 V c 0 t :=
  ((dat1 V c).before_in_eq_fetched 0 rfl (fun _ => rfl) (fun _ _ _ => rfl)
      (fun t => by rw [dat1_after0]; unfold Dat.blockOf blk1; rw [dat1_A]; try rfl) t d).trans
    (by unfold Dat.fetched Dat.blockOf blk1; rw [dat1_A]; try rfl)
theorem dat1_before1 (c : Dev nD) (t : Fin cfg1.N) (d) : (dat1 V c).before 1 t d = blk1 V c 1 t :=
  ((dat1 V c).before_in_eq_fetched 1 rfl (fun _ => rfl) (fun _ _ _ => rfl)
      (fun t => by rw [dat1_after1]; unfold Dat.blockOf blk1; rw [dat1_A]; try rfl) t d).trans
    (by unfold Dat.fetched Dat.blockOf blk1; rw [dat1_A]; try rfl)

end Attention

end Cert.Kernel.Hand

end
-- ==== Proof.K.Body.lean ====
/-
  The two kernel bodies as separation-logic triples, for any float instance: each kernel function,
  run on whole staging memrefs (and, for the attention kernel, its three scratch buffers) holding
  given contents, reaches its continuation with the memrefs holding the contents the pure payload
  functions name. The projection body loads its two operand blocks and stores their product. The
  attention body resets the running state when the key/value tile index is 0, folds the key/value
  tile into the state when it is not above the diagonal, and stores the normalised weighted sum
  into the output block at the last key/value tile: the three conditions are decided from the grid
  point, and in each of the eight cases the body's loads read what the earlier stores of the same
  run left.
-/
import proofs.«418124_j83743272337485_3_alg».proof.Proof.K.State
import proofs.«418124_j83743272337485_3_alg».proof.Proof.Gen.Kernel.Launch
import proofs.«418124_j83743272337485_3_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Hand

variable {F : FTy → Type} [FloatOps F]

local notation "𝕄" => MT nD τ sig Unit (Elt F) ℕ (UR sig nD τ) ℕ

/-- The offsets of a whole-buffer access are all zero (rank 2, rank 3). -/
theorem body_hz2 : (![0, 0] : Fin 2 → Nat) = fun _ => 0 := funext fun a => by fin_cases a <;> rfl
theorem body_hz3 : (![0, 0, 0] : Fin 3 → Nat) = fun _ => 0 := funext fun a => by fin_cases a <;> rfl

section Whole

variable {Val : EltTy → Type} {S : Shape} {e : EltTy}

/-- What a buffer reads after a list of stores the last of which is through the whole-shape
    rectangle at zero offsets: that store's payload, whatever the buffer held and whatever the
    earlier stores were. -/
theorem body_read_writes_cons_unit_zero [∀ e, Nonempty (Val e)] {sig : RefSig} {κ : Kind} {sp : Space}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons.mpr (Or.inl rfl), View.mem_set_unit_zero h inb y⟩),
    View.canon_cons_unit_zero h]

/-- A load through that rectangle after such a list of stores reads the last store's payload. -/
theorem body_readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons.mpr (Or.inl rfl), View.mem_set_unit_zero h inb y⟩),
    View.canon_cons_unit_zero h, View.ld_unit_zero h]

end Whole

set_option maxHeartbeats 1000000 in
/-- The projection body: it loads the two operand blocks whole and stores their product, as the
    payload names it, over the whole output block. -/
theorem proj_body (c : Dev nD) (E : Set ℕ) (i : grid0.Coords)
    (arg1 : Memref sig .tc .vmem S512x1024 .f32) (harg1 : arg1.IsWhole) (arg2 : Memref sig .tc .vmem S1024x64 .f32) (harg2 : arg2.IsWhole)
    (arg3 : Memref sig .tc .vmem S512x64 .f32) (harg3 : arg3.IsWhole)
    (x : Vec F S512x1024 .f32) (w : Vec F S1024x64 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (k0_pay1 x w)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f1, %hf1, H1⟩, ⟨%f2, %hf2, H2⟩, ⟨%d3, %f3, -, H3⟩, Hk⟩
  obtain rfl := harg1.eq_unread hf1; obtain rfl := harg2.eq_unread hf2
  sl_exec
  sl_step
  iapply Hk
  isplitl [H1]
  · iexists _; isplitr; · ipureintro; exact harg1.read_unread _
    iexact H1
  isplitl [H2]
  · iexists _; isplitr; · ipureintro; exact harg2.read_unread _
    iexact H2
  iexists _; isplitr
  swap; · iexact H3
  ipureintro
  simp only [body_read_writes_cons_unit_zero (S := S512x64) _ _ body_hz2, View.readAt_eq_ld, Memref.IsWhole.read_unread,
    View.ld_unit_zero (S := S512x1024) body_hz2, View.ld_unit_zero (S := S1024x64) body_hz2]

/-- Reading back what a run of whole-buffer loads and stores left: the stored payloads, over the
    contents the loads read. -/
macro "body_close_read" : tactic => `(tactic| first
  | exact Memref.IsWhole.read_unread _ _
  | (try sl_unfold_words
     simp only [body_read_writes_cons_unit_zero (S := S256x1) _ _ body_hz2, body_read_writes_cons_unit_zero (S := S256x64) _ _ body_hz2,
      body_read_writes_cons_unit_zero (S := S1x256x64) _ _ body_hz3,
      body_readCov_cons_unit_zero (S := S256x1) _ body_hz2, body_readCov_cons_unit_zero (S := S256x64) _ body_hz2,
      body_readCov_cons_unit_zero (S := S1x256x64) _ body_hz3,
      View.readAt_eq_ld, Memref.IsWhole.read_unread,
      View.ld_unit_zero (S := S256x1) body_hz2, View.ld_unit_zero (S := S256x64) body_hz2, View.ld_unit_zero (S := S1x256x64) body_hz3]))

set_option maxHeartbeats 4000000 in
/-- The attention body at a grid point that resets the state, folds its key/value tile into it and stores the output block. -/
theorem attn_ttt (c : Dev nD) (E : Set ℕ) (i : grid1.Coords) (h1 : c1 i) (h2 : c2 i) (h3 : c3 i)
    (arg3 : Memref sig .tc .vmem S1x256x64 .f32) (harg3 : arg3.IsWhole) (arg4 : Memref sig .tc .vmem S1x256x64 .f32) (harg4 : arg4.IsWhole)
    (arg5 : Memref sig .tc .vmem S1x256x64 .f32) (harg5 : arg5.IsWhole)
    (arg6 : Memref sig .tc .vmem S256x1 .f32) (harg6 : arg6.IsWhole) (arg7 : Memref sig .tc .vmem S256x1 .f32) (harg7 : arg7.IsWhole)
    (arg8 : Memref sig .tc .vmem S256x64 .f32) (harg8 : arg8.IsWhole)
    (q kv o : Vec F S1x256x64 .f32) (m0 l0 : Vec F S256x1 .f32) (a0 : Vec F S256x64 .f32) (K : PUnit → sProp 𝕄) :
    iprop(owns (c : Thread nD τ) arg3 fullShare q ∗ owns (c : Thread nD τ) arg4 fullShare kv ∗ owns (c : Thread nD τ) arg5 fullShare o
        ∗ owns (c : Thread nD τ) arg6 fullShare m0 ∗ owns (c : Thread nD τ) arg7 fullShare l0 ∗ owns (c : Thread nD τ) arg8 fullShare a0
        ∗ (iprop(owns (c : Thread nD τ) arg3 fullShare q ∗ owns (c : Thread nD τ) arg4 fullShare kv
              ∗ owns (c : Thread nD τ) arg5 fullShare (k1_pay6 (k1_pay4 (k1_pay7 kv) (k1_pay10 (BitVec.ofNat 32 (i 1).val) (BitVec.ofNat 32 (i 2).val) q kv (k1_pay1 (F := F))) (k1_pay11 (BitVec.ofNat 32 (i 1).val) (BitVec.ofNat 32 (i 2).val) q kv (k1_pay1 (F := F))) (k1_pay3 (F := F))) (k1_pay12 (BitVec.ofNat 32 (i 1).val) (BitVec.ofNat 32 (i 2).val) q kv (k1_pay1 (F := F)) (k1_pay2 (F := F))))
              ∗ owns (c : Thread nD τ) arg6 fullShare (k1_pay5 (k1_pay9 (BitVec.ofNat 32 (i 1).val) (BitVec.ofNat 32 (i 2).val) q kv (k1_pay1 (F := F)))) ∗ owns (c : Thread nD τ) arg7 fullShare (k1_pay12 (BitVec.ofNat 32 (i 1).val) (BitVec.ofNat 32 (i 2).val) q kv (k1_pay1 (F := F)) (k1_pay2 (F := F)))
              ∗ owns (c : Thread nD τ) arg8 fullShare (k1_pay4 (k1_pay7 kv) (k1_pay10 (BitVec.ofNat 32 (i 1).val) (BitVec.ofNat 32 (i 2).val) q kv (k1_pay1 (F := F))) (k1_pay11 (BitVec.ofNat 32 (i 1).val) (BitVec.ofNat 32 (i 2).val) q kv (k1_pay1 (F := F))) (k1_pay3 (F := F)))) -∗ K ⟨⟩))
      ⊢ wp frame (wpE (defs₀ (F := F)) Variants.none c none) E
          (cc1_attn_kernel i arg3 harg3 arg4 harg4 arg5 harg5 arg6 harg6 arg7 harg7 arg8 harg8) K := by
  simp only [cc1_attn_kernel_eq_skeleton]; unfold cc1_attn_kernel_skel
  unfold owns
  iintro ⟨⟨%f3, %hf3, H3⟩, ⟨%f4, %hf4, H4⟩, ⟨%f5, %hf5, H5⟩, ⟨%fm, %hfm, HM⟩, ⟨%fl, %hfl, HL⟩, ⟨%fa, %hfa, HA⟩, Hk⟩
  obtain rfl := harg3.eq_unread hf3; obtain rfl := harg4.eq_unread hf4; obtain rfl := harg5.eq_unread hf5
  obtain rfl := harg6.eq_unread hfm; obtain rfl := harg7.eq_unread hfl; obtain rfl := harg8.eq_unread hfa
  sl_exec (disch := first | exact h1 | exact h2 | exact h3)
  sl_step
  iapply Hk
  isplitl [H3]
  · iexists _; isplitr
    swap; · iexact H3
    ipureintro; body_close_read
  isplitl [H4]
  · iexists _; isplitr
    swap; · iexact H4
    ipureintro; body_close_read
  isplitl [H5]
  · iexists _; isplitr
    swap; · iexact H5
    ipureintro; body_close_read
  isplitl [HM]
  · iexists _; isplitr
    swap; · iexact HM
    ipureintro; body_close_read
  isplitl [HL]
  · iexists _; isplitr
    swap; · iexact HL
    ipureintro; body_close_read
  iexists _; isplitr
  swap; · iexact HA
  ipureintro; body_close_read

set_option maxHeartbeats 4000000 in
/-- The attention body at a grid point that resets the state, folds its key/value tile into it and does not store the output block. -/
theorem attn_ttf (c : Dev nD) (E : Set ℕ) (i : grid1.Coords) (h1 : c1 i) (h2 : c2 i) (h3 : ¬ c3 i)
    (arg3 : Memref sig .tc .vmem S1x256x64 .f32) (harg3 : arg3.IsWhole) (arg4 : Memref sig .tc .vmem S1x256x64 .f32) (harg4 : arg4.IsWhole)
    (arg5 : Memref sig .tc .vmem S1x256x64 .f32) (harg5 : arg5.IsWhole)
    (arg6 : Memref sig .tc .vmem S256x1 .f32) (harg6 : arg6.IsWhole) (arg7 : Memref sig .tc .vmem S256x1 .f32) (harg7 : arg7.IsWhole)
    (arg8 : Memref sig .tc .vmem S256x64 .f32) (harg8 : arg8.IsWhole)
    (q kv o : Vec F S1x256x64 .f32) (m0 l0 : Vec F S256x1 .f32) (a0 : Vec F S256x64 .f32) (K : PUnit → sProp 𝕄) :
    iprop(owns (c : Thread nD τ) arg3 fullShare q ∗ owns (c : Thread nD τ) arg4 fullShare kv ∗ owns (c : Thread nD τ) arg5 fullShare o
        ∗ owns (c : Thread nD τ) arg6 fullShare m0 ∗ owns (c : Thread nD τ) arg7 fullShare l0 ∗ owns (c : Thread nD τ) arg8 fullShare a0
        ∗ (iprop(owns (c : Thread nD τ) arg3 fullShare q ∗ owns (c : Thread nD τ) arg4 fullShare kv
              ∗ owns (c : Thread nD τ) arg5 fullShare (o)
              ∗ owns (c : Thread nD τ) arg6 fullShare (k1_pay5 (k1_pay9 (BitVec.ofNat 32 (i 1).val) (BitVec.ofNat 32 (i 2).val) q kv (k1_pay1 (F := F)))) ∗ owns (c : Thread nD τ) arg7 fullShare (k1_pay12 (BitVec.ofNat 32 (i 1).val) (BitVec.ofNat 32 (i 2).val) q kv (k1_pay1 (F := F)) (k1_pay2 (F := F)))
              ∗ owns (c : Thread nD τ) arg8 fullShare (k1_pay4 (k1_pay7 kv) (k1_pay10 (BitVec.ofNat 32 (i 1).val) (BitVec.ofNat 32 (i 2).val) q kv (k1_pay1 (F := F))) (k1_pay11 (BitVec.ofNat 32 (i 1).val) (BitVec.ofNat 32 (i 2).val) q kv (k1_pay1 (F := F))) (k1_pay3 (F := F)))) -∗ K ⟨⟩))
      ⊢ wp frame (wpE (defs₀ (F := F)) Variants.none c none) E
          (cc1_attn_kernel i arg3 harg3 arg4 harg4 arg5 harg5 arg6 harg6 arg7 harg7 arg8 harg8) K := by
  simp only [cc1_attn_kernel_eq_skeleton]; unfold cc1_attn_kernel_skel
  unfold owns
  iintro ⟨⟨%f3, %hf3, H3⟩, ⟨%f4, %hf4, H4⟩, ⟨%f5, %hf5, H5⟩, ⟨%fm, %hfm, HM⟩, ⟨%fl, %hfl, HL⟩, ⟨%fa, %hfa, HA⟩, Hk⟩
  obtain rfl := harg3.eq_unread hf3; obtain rfl := harg4.eq_unread hf4; obtain rfl := harg5.eq_unread hf5
  obtain rfl := harg6.eq_unread hfm; obtain rfl := harg7.eq_unread hfl; obtain rfl := harg8.eq_unread hfa
  sl_exec (disch := first | exact h1 | exact h2 | exact h3)
  sl_step
  iapply Hk
  isplitl [H3]
  · iexists _; isplitr
    swap; · iexact H3
    ipureintro; body_close_read
  isplitl [H4]
  · iexists _; isplitr
    swap; · iexact H4
    ipureintro; body_close_read
  isplitl [H5]
  · iexists _; isplitr
    swap; · iexact H5
    ipureintro; body_close_read
  isplitl [HM]
  · iexists _; isplitr
    swap; · iexact HM
    ipureintro; body_close_read
  isplitl [HL]
  · iexists _; isplitr
    swap; · iexact HL
    ipureintro; body_close_read
  iexists _; isplitr
  swap; · iexact HA
  ipureintro; body_close_read

set_option maxHeartbeats 4000000 in
/-- The attention body at a grid point that resets the state, does not fold its key/value tile into it and stores the output block. -/
theorem attn_tft (c : Dev nD) (E : Set ℕ) (i : grid1.Coords) (h1 : c1 i) (h2 : ¬ c2 i) (h3 : c3 i)
    (arg3 : Memref sig .tc .vmem S1x256x64 .f32) (harg3 : arg3.IsWhole) (arg4 : Memref sig .tc .vmem S1x256x64 .f32) (harg4 : arg4.IsWhole)
    (arg5 : Memref sig .tc .vmem S1x256x64 .f32) (harg5 : arg5.IsWhole)
    (arg6 : Memref sig .tc .vmem S256x1 .f32) (harg6 : arg6.IsWhole) (arg7 : Memref sig .tc .vmem S256x1 .f32) (harg7 : arg7.IsWhole)
    (arg8 : Memref sig .tc .vmem S256x64 .f32) (harg8 : arg8.IsWhole)
    (q kv o : Vec F S1x256x64 .f32) (m0 l0 : Vec F S256x1 .f32) (a0 : Vec F S256x64 .f32) (K : PUnit → sProp 𝕄) :
    iprop(owns (c : Thread nD τ) arg3 fullShare q ∗ owns (c : Thread nD τ) arg4 fullShare kv ∗ owns (c : Thread nD τ) arg5 fullShare o
        ∗ owns (c : Thread nD τ) arg6 fullShare m0 ∗ owns (c : Thread nD τ) arg7 fullShare l0 ∗ owns (c : Thread nD τ) arg8 fullShare a0
        ∗ (iprop(owns (c : Thread nD τ) arg3 fullShare q ∗ owns (c : Thread nD τ) arg4 fullShare kv
              ∗ owns (c : Thread nD τ) arg5 fullShare (k1_pay6 (k1_pay3 (F := F)) (k1_pay2 (F := F)))
              ∗ owns (c : Thread nD τ) arg6 fullShare (k1_pay1 (F := F)) ∗ owns (c : Thread nD τ) arg7 fullShare (k1_pay2 (F := F))
              ∗ owns (c : Thread nD τ) arg8 fullShare (k1_pay3 (F := F))) -∗ K ⟨⟩))
      ⊢ wp frame (wpE (defs₀ (F := F)) Variants.none c none) E
          (cc1_attn_kernel i arg3 harg3 arg4 harg4 arg5 harg5 arg6 harg6 arg7 harg7 arg8 harg8) K := by
  simp only [cc1_attn_kernel_eq_skeleton]; unfold cc1_attn_kernel_skel
  unfold owns
  iintro ⟨⟨%f3, %hf3, H3⟩, ⟨%f4, %hf4, H4⟩, ⟨%f5, %hf5, H5⟩, ⟨%fm, %hfm, HM⟩, ⟨%fl, %hfl, HL⟩, ⟨%fa, %hfa, HA⟩, Hk⟩
  obtain rfl := harg3.eq_unread hf3; obtain rfl := harg4.eq_unread hf4; obtain rfl := harg5.eq_unread hf5
  obtain rfl := harg6.eq_unread hfm; obtain rfl := harg7.eq_unread hfl; obtain rfl := harg8.eq_unread hfa
  sl_exec (disch := first | exact h1 | exact h2 | exact h3)
  sl_step
  iapply Hk
  isplitl [H3]
  · iexists _; isplitr
    swap; · iexact H3
    ipureintro; body_close_read
  isplitl [H4]
  · iexists _; isplitr
    swap; · iexact H4
    ipureintro; body_close_read
  isplitl [H5]
  · iexists _; isplitr
    swap; · iexact H5
    ipureintro; body_close_read
  isplitl [HM]
  · iexists _; isplitr
    swap; · iexact HM
    ipureintro; body_close_read
  isplitl [HL]
  · iexists _; isplitr
    swap; · iexact HL
    ipureintro; body_close_read
  iexists _; isplitr
  swap; · iexact HA
  ipureintro; body_close_read

set_option maxHeartbeats 4000000 in
/-- The attention body at a grid point that resets the state, does not fold its key/value tile into it and does not store the output block. -/
theorem attn_tff (c : Dev nD) (E : Set ℕ) (i : grid1.Coords) (h1 : c1 i) (h2 : ¬ c2 i) (h3 : ¬ c3 i)
    (arg3 : Memref sig .tc .vmem S1x256x64 .f32) (harg3 : arg3.IsWhole) (arg4 : Memref sig .tc .vmem S1x256x64 .f32) (harg4 : arg4.IsWhole)
    (arg5 : Memref sig .tc .vmem S1x256x64 .f32) (harg5 : arg5.IsWhole)
    (arg6 : Memref sig .tc .vmem S256x1 .f32) (harg6 : arg6.IsWhole) (arg7 : Memref sig .tc .vmem S256x1 .f32) (harg7 : arg7.IsWhole)
    (arg8 : Memref sig .tc .vmem S256x64 .f32) (harg8 : arg8.IsWhole)
    (q kv o : Vec F S1x256x64 .f32) (m0 l0 : Vec F S256x1 .f32) (a0 : Vec F S256x64 .f32) (K : PUnit → sProp 𝕄) :
    iprop(owns (c : Thread nD τ) arg3 fullShare q ∗ owns (c : Thread nD τ) arg4 fullShare kv ∗ owns (c : Thread nD τ) arg5 fullShare o
        ∗ owns (c : Thread nD τ) arg6 fullShare m0 ∗ owns (c : Thread nD τ) arg7 fullShare l0 ∗ owns (c : Thread nD τ) arg8 fullShare a0
        ∗ (iprop(owns (c : Thread nD τ) arg3 fullShare q ∗ owns (c : Thread nD τ) arg4 fullShare kv
              ∗ owns (c : Thread nD τ) arg5 fullShare (o)
              ∗ owns (c : Thread nD τ) arg6 fullShare (k1_pay1 (F := F)) ∗ owns (c : Thread nD τ) arg7 fullShare (k1_pay2 (F := F))
              ∗ owns (c : Thread nD τ) arg8 fullShare (k1_pay3 (F := F))) -∗ K ⟨⟩))
      ⊢ wp frame (wpE (defs₀ (F := F)) Variants.none c none) E
          (cc1_attn_kernel i arg3 harg3 arg4 harg4 arg5 harg5 arg6 harg6 arg7 harg7 arg8 harg8) K := by
  simp only [cc1_attn_kernel_eq_skeleton]; unfold cc1_attn_kernel_skel
  unfold owns
  iintro ⟨⟨%f3, %hf3, H3⟩, ⟨%f4, %hf4, H4⟩, ⟨%f5, %hf5, H5⟩, ⟨%fm, %hfm, HM⟩, ⟨%fl, %hfl, HL⟩, ⟨%fa, %hfa, HA⟩, Hk⟩
  obtain rfl := harg3.eq_unread hf3; obtain rfl := harg4.eq_unread hf4; obtain rfl := harg5.eq_unread hf5
  obtain rfl := harg6.eq_unread hfm; obtain rfl := harg7.eq_unread hfl; obtain rfl := harg8.eq_unread hfa
  sl_exec (disch := first | exact h1 | exact h2 | exact h3)
  sl_step
  iapply Hk
  isplitl [H3]
  · iexists _; isplitr
    swap; · iexact H3
    ipureintro; body_close_read
  isplitl [H4]
  · iexists _; isplitr
    swap; · iexact H4
    ipureintro; body_close_read
  isplitl [H5]
  · iexists _; isplitr
    swap; · iexact H5
    ipureintro; body_close_read
  isplitl [HM]
  · iexists _; isplitr
    swap; · iexact HM
    ipureintro; body_close_read
  isplitl [HL]
  · iexists _; isplitr
    swap; · iexact HL
    ipureintro; body_close_read
  iexists _; isplitr
  swap; · iexact HA
  ipureintro; body_close_read

set_option maxHeartbeats 4000000 in
/-- The attention body at a grid point that does not reset the state, folds its key/value tile into it and stores the output block. -/
theorem attn_ftt (c : Dev nD) (E : Set ℕ) (i : grid1.Coords) (h1 : ¬ c1 i) (h2 : c2 i) (h3 : c3 i)
    (arg3 : Memref sig .tc .vmem S1x256x64 .f32) (harg3 : arg3.IsWhole) (arg4 : Memref sig .tc .vmem S1x256x64 .f32) (harg4 : arg4.IsWhole)
    (arg5 : Memref sig .tc .vmem S1x256x64 .f32) (harg5 : arg5.IsWhole)
    (arg6 : Memref sig .tc .vmem S256x1 .f32) (harg6 : arg6.IsWhole) (arg7 : Memref sig .tc .vmem S256x1 .f32) (harg7 : arg7.IsWhole)
    (arg8 : Memref sig .tc .vmem S256x64 .f32) (harg8 : arg8.IsWhole)
    (q kv o : Vec F S1x256x64 .f32) (m0 l0 : Vec F S256x1 .f32) (a0 : Vec F S256x64 .f32) (K : PUnit → sProp 𝕄) :
    iprop(owns (c : Thread nD τ) arg3 fullShare q ∗ owns (c : Thread nD τ) arg4 fullShare kv ∗ owns (c : Thread nD τ) arg5 fullShare o
        ∗ owns (c : Thread nD τ) arg6 fullShare m0 ∗ owns (c : Thread nD τ) arg7 fullShare l0 ∗ owns (c : Thread nD τ) arg8 fullShare a0
        ∗ (iprop(owns (c : Thread nD τ) arg3 fullShare q ∗ owns (c : Thread nD τ) arg4 fullShare kv
              ∗ owns (c : Thread nD τ) arg5 fullShare (k1_pay6 (k1_pay4 (k1_pay7 kv) (k1_pay10 (BitVec.ofNat 32 (i 1).val) (BitVec.ofNat 32 (i 2).val) q kv (m0)) (k1_pay11 (BitVec.ofNat 32 (i 1).val) (BitVec.ofNat 32 (i 2).val) q kv (m0)) (a0)) (k1_pay12 (BitVec.ofNat 32 (i 1).val) (BitVec.ofNat 32 (i 2).val) q kv (m0) (l0)))
              ∗ owns (c : Thread nD τ) arg6 fullShare (k1_pay5 (k1_pay9 (BitVec.ofNat 32 (i 1).val) (BitVec.ofNat 32 (i 2).val) q kv (m0))) ∗ owns (c : Thread nD τ) arg7 fullShare (k1_pay12 (BitVec.ofNat 32 (i 1).val) (BitVec.ofNat 32 (i 2).val) q kv (m0) (l0))
              ∗ owns (c : Thread nD τ) arg8 fullShare (k1_pay4 (k1_pay7 kv) (k1_pay10 (BitVec.ofNat 32 (i 1).val) (BitVec.ofNat 32 (i 2).val) q kv (m0)) (k1_pay11 (BitVec.ofNat 32 (i 1).val) (BitVec.ofNat 32 (i 2).val) q kv (m0)) (a0))) -∗ K ⟨⟩))
      ⊢ wp frame (wpE (defs₀ (F := F)) Variants.none c none) E
          (cc1_attn_kernel i arg3 harg3 arg4 harg4 arg5 harg5 arg6 harg6 arg7 harg7 arg8 harg8) K := by
  simp only [cc1_attn_kernel_eq_skeleton]; unfold cc1_attn_kernel_skel
  unfold owns
  iintro ⟨⟨%f3, %hf3, H3⟩, ⟨%f4, %hf4, H4⟩, ⟨%f5, %hf5, H5⟩, ⟨%fm, %hfm, HM⟩, ⟨%fl, %hfl, HL⟩, ⟨%fa, %hfa, HA⟩, Hk⟩
  obtain rfl := harg3.eq_unread hf3; obtain rfl := harg4.eq_unread hf4; obtain rfl := harg5.eq_unread hf5
  obtain rfl := harg6.eq_unread hfm; obtain rfl := harg7.eq_unread hfl; obtain rfl := harg8.eq_unread hfa
  sl_exec (disch := first | exact h1 | exact h2 | exact h3)
  sl_step
  iapply Hk
  isplitl [H3]
  · iexists _; isplitr
    swap; · iexact H3
    ipureintro; body_close_read
  isplitl [H4]
  · iexists _; isplitr
    swap; · iexact H4
    ipureintro; body_close_read
  isplitl [H5]
  · iexists _; isplitr
    swap; · iexact H5
    ipureintro; body_close_read
  isplitl [HM]
  · iexists _; isplitr
    swap; · iexact HM
    ipureintro; body_close_read
  isplitl [HL]
  · iexists _; isplitr
    swap; · iexact HL
    ipureintro; body_close_read
  iexists _; isplitr
  swap; · iexact HA
  ipureintro; body_close_read

set_option maxHeartbeats 4000000 in
/-- The attention body at a grid point that does not reset the state, folds its key/value tile into it and does not store the output block. -/
theorem attn_ftf (c : Dev nD) (E : Set ℕ) (i : grid1.Coords) (h1 : ¬ c1 i) (h2 : c2 i) (h3 : ¬ c3 i)
    (arg3 : Memref sig .tc .vmem S1x256x64 .f32) (harg3 : arg3.IsWhole) (arg4 : Memref sig .tc .vmem S1x256x64 .f32) (harg4 : arg4.IsWhole)
    (arg5 : Memref sig .tc .vmem S1x256x64 .f32) (harg5 : arg5.IsWhole)
    (arg6 : Memref sig .tc .vmem S256x1 .f32) (harg6 : arg6.IsWhole) (arg7 : Memref sig .tc .vmem S256x1 .f32) (harg7 : arg7.IsWhole)
    (arg8 : Memref sig .tc .vmem S256x64 .f32) (harg8 : arg8.IsWhole)
    (q kv o : Vec F S1x256x64 .f32) (m0 l0 : Vec F S256x1 .f32) (a0 : Vec F S256x64 .f32) (K : PUnit → sProp 𝕄) :
    iprop(owns (c : Thread nD τ) arg3 fullShare q ∗ owns (c : Thread nD τ) arg4 fullShare kv ∗ owns (c : Thread nD τ) arg5 fullShare o
        ∗ owns (c : Thread nD τ) arg6 fullShare m0 ∗ owns (c : Thread nD τ) arg7 fullShare l0 ∗ owns (c : Thread nD τ) arg8 fullShare a0
        ∗ (iprop(owns (c : Thread nD τ) arg3 fullShare q ∗ owns (c : Thread nD τ) arg4 fullShare kv
              ∗ owns (c : Thread nD τ) arg5 fullShare (o)
              ∗ owns (c : Thread nD τ) arg6 fullShare (k1_pay5 (k1_pay9 (BitVec.ofNat 32 (i 1).val) (BitVec.ofNat 32 (i 2).val) q kv (m0))) ∗ owns (c : Thread nD τ) arg7 fullShare (k1_pay12 (BitVec.ofNat 32 (i 1).val) (BitVec.ofNat 32 (i 2).val) q kv (m0) (l0))
              ∗ owns (c : Thread nD τ) arg8 fullShare (k1_pay4 (k1_pay7 kv) (k1_pay10 (BitVec.ofNat 32 (i 1).val) (BitVec.ofNat 32 (i 2).val) q kv (m0)) (k1_pay11 (BitVec.ofNat 32 (i 1).val) (BitVec.ofNat 32 (i 2).val) q kv (m0)) (a0))) -∗ K ⟨⟩))
      ⊢ wp frame (wpE (defs₀ (F := F)) Variants.none c none) E
          (cc1_attn_kernel i arg3 harg3 arg4 harg4 arg5 harg5 arg6 harg6 arg7 harg7 arg8 harg8) K := by
  simp only [cc1_attn_kernel_eq_skeleton]; unfold cc1_attn_kernel_skel
  unfold owns
  iintro ⟨⟨%f3, %hf3, H3⟩, ⟨%f4, %hf4, H4⟩, ⟨%f5, %hf5, H5⟩, ⟨%fm, %hfm, HM⟩, ⟨%fl, %hfl, HL⟩, ⟨%fa, %hfa, HA⟩, Hk⟩
  obtain rfl := harg3.eq_unread hf3; obtain rfl := harg4.eq_unread hf4; obtain rfl := harg5.eq_unread hf5
  obtain rfl := harg6.eq_unread hfm; obtain rfl := harg7.eq_unread hfl; obtain rfl := harg8.eq_unread hfa
  sl_exec (disch := first | exact h1 | exact h2 | exact h3)
  sl_step
  iapply Hk
  isplitl [H3]
  · iexists _; isplitr
    swap; · iexact H3
    ipureintro; body_close_read
  isplitl [H4]
  · iexists _; isplitr
    swap; · iexact H4
    ipureintro; body_close_read
  isplitl [H5]
  · iexists _; isplitr
    swap; · iexact H5
    ipureintro; body_close_read
  isplitl [HM]
  · iexists _; isplitr
    swap; · iexact HM
    ipureintro; body_close_read
  isplitl [HL]
  · iexists _; isplitr
    swap; · iexact HL
    ipureintro; body_close_read
  iexists _; isplitr
  swap; · iexact HA
  ipureintro; body_close_read

set_option maxHeartbeats 4000000 in
/-- The attention body at a grid point that does not reset the state, does not fold its key/value tile into it and stores the output block. -/
theorem attn_fft (c : Dev nD) (E : Set ℕ) (i : grid1.Coords) (h1 : ¬ c1 i) (h2 : ¬ c2 i) (h3 : c3 i)
    (arg3 : Memref sig .tc .vmem S1x256x64 .f32) (harg3 : arg3.IsWhole) (arg4 : Memref sig .tc .vmem S1x256x64 .f32) (harg4 : arg4.IsWhole)
    (arg5 : Memref sig .tc .vmem S1x256x64 .f32) (harg5 : arg5.IsWhole)
    (arg6 : Memref sig .tc .vmem S256x1 .f32) (harg6 : arg6.IsWhole) (arg7 : Memref sig .tc .vmem S256x1 .f32) (harg7 : arg7.IsWhole)
    (arg8 : Memref sig .tc .vmem S256x64 .f32) (harg8 : arg8.IsWhole)
    (q kv o : Vec F S1x256x64 .f32) (m0 l0 : Vec F S256x1 .f32) (a0 : Vec F S256x64 .f32) (K : PUnit → sProp 𝕄) :
    iprop(owns (c : Thread nD τ) arg3 fullShare q ∗ owns (c : Thread nD τ) arg4 fullShare kv ∗ owns (c : Thread nD τ) arg5 fullShare o
        ∗ owns (c : Thread nD τ) arg6 fullShare m0 ∗ owns (c : Thread nD τ) arg7 fullShare l0 ∗ owns (c : Thread nD τ) arg8 fullShare a0
        ∗ (iprop(owns (c : Thread nD τ) arg3 fullShare q ∗ owns (c : Thread nD τ) arg4 fullShare kv
              ∗ owns (c : Thread nD τ) arg5 fullShare (k1_pay6 (a0) (l0))
              ∗ owns (c : Thread nD τ) arg6 fullShare (m0) ∗ owns (c : Thread nD τ) arg7 fullShare (l0)
              ∗ owns (c : Thread nD τ) arg8 fullShare (a0)) -∗ K ⟨⟩))
      ⊢ wp frame (wpE (defs₀ (F := F)) Variants.none c none) E
          (cc1_attn_kernel i arg3 harg3 arg4 harg4 arg5 harg5 arg6 harg6 arg7 harg7 arg8 harg8) K := by
  simp only [cc1_attn_kernel_eq_skeleton]; unfold cc1_attn_kernel_skel
  unfold owns
  iintro ⟨⟨%f3, %hf3, H3⟩, ⟨%f4, %hf4, H4⟩, ⟨%f5, %hf5, H5⟩, ⟨%fm, %hfm, HM⟩, ⟨%fl, %hfl, HL⟩, ⟨%fa, %hfa, HA⟩, Hk⟩
  obtain rfl := harg3.eq_unread hf3; obtain rfl := harg4.eq_unread hf4; obtain rfl := harg5.eq_unread hf5
  obtain rfl := harg6.eq_unread hfm; obtain rfl := harg7.eq_unread hfl; obtain rfl := harg8.eq_unread hfa
  sl_exec (disch := first | exact h1 | exact h2 | exact h3)
  sl_step
  iapply Hk
  isplitl [H3]
  · iexists _; isplitr
    swap; · iexact H3
    ipureintro; body_close_read
  isplitl [H4]
  · iexists _; isplitr
    swap; · iexact H4
    ipureintro; body_close_read
  isplitl [H5]
  · iexists _; isplitr
    swap; · iexact H5
    ipureintro; body_close_read
  isplitl [HM]
  · iexists _; isplitr
    swap; · iexact HM
    ipureintro; body_close_read
  isplitl [HL]
  · iexists _; isplitr
    swap; · iexact HL
    ipureintro; body_close_read
  iexists _; isplitr
  swap; · iexact HA
  ipureintro; body_close_read

set_option maxHeartbeats 4000000 in
/-- The attention body at a grid point that does not reset the state, does not fold its key/value tile into it and does not store the output block. -/
theorem attn_fff (c : Dev nD) (E : Set ℕ) (i : grid1.Coords) (h1 : ¬ c1 i) (h2 : ¬ c2 i) (h3 : ¬ c3 i)
    (arg3 : Memref sig .tc .vmem S1x256x64 .f32) (harg3 : arg3.IsWhole) (arg4 : Memref sig .tc .vmem S1x256x64 .f32) (harg4 : arg4.IsWhole)
    (arg5 : Memref sig .tc .vmem S1x256x64 .f32) (harg5 : arg5.IsWhole)
    (arg6 : Memref sig .tc .vmem S256x1 .f32) (harg6 : arg6.IsWhole) (arg7 : Memref sig .tc .vmem S256x1 .f32) (harg7 : arg7.IsWhole)
    (arg8 : Memref sig .tc .vmem S256x64 .f32) (harg8 : arg8.IsWhole)
    (q kv o : Vec F S1x256x64 .f32) (m0 l0 : Vec F S256x1 .f32) (a0 : Vec F S256x64 .f32) (K : PUnit → sProp 𝕄) :
    iprop(owns (c : Thread nD τ) arg3 fullShare q ∗ owns (c : Thread nD τ) arg4 fullShare kv ∗ owns (c : Thread nD τ) arg5 fullShare o
        ∗ owns (c : Thread nD τ) arg6 fullShare m0 ∗ owns (c : Thread nD τ) arg7 fullShare l0 ∗ owns (c : Thread nD τ) arg8 fullShare a0
        ∗ (iprop(owns (c : Thread nD τ) arg3 fullShare q ∗ owns (c : Thread nD τ) arg4 fullShare kv
              ∗ owns (c : Thread nD τ) arg5 fullShare (o)
              ∗ owns (c : Thread nD τ) arg6 fullShare (m0) ∗ owns (c : Thread nD τ) arg7 fullShare (l0)
              ∗ owns (c : Thread nD τ) arg8 fullShare (a0)) -∗ K ⟨⟩))
      ⊢ wp frame (wpE (defs₀ (F := F)) Variants.none c none) E
          (cc1_attn_kernel i arg3 harg3 arg4 harg4 arg5 harg5 arg6 harg6 arg7 harg7 arg8 harg8) K := by
  simp only [cc1_attn_kernel_eq_skeleton]; unfold cc1_attn_kernel_skel
  unfold owns
  iintro ⟨⟨%f3, %hf3, H3⟩, ⟨%f4, %hf4, H4⟩, ⟨%f5, %hf5, H5⟩, ⟨%fm, %hfm, HM⟩, ⟨%fl, %hfl, HL⟩, ⟨%fa, %hfa, HA⟩, Hk⟩
  obtain rfl := harg3.eq_unread hf3; obtain rfl := harg4.eq_unread hf4; obtain rfl := harg5.eq_unread hf5
  obtain rfl := harg6.eq_unread hfm; obtain rfl := harg7.eq_unread hfl; obtain rfl := harg8.eq_unread hfa
  sl_exec (disch := first | exact h1 | exact h2 | exact h3)
  sl_step
  iapply Hk
  isplitl [H3]
  · iexists _; isplitr
    swap; · iexact H3
    ipureintro; body_close_read
  isplitl [H4]
  · iexists _; isplitr
    swap; · iexact H4
    ipureintro; body_close_read
  isplitl [H5]
  · iexists _; isplitr
    swap; · iexact H5
    ipureintro; body_close_read
  isplitl [HM]
  · iexists _; isplitr
    swap; · iexact HM
    ipureintro; body_close_read
  isplitl [HL]
  · iexists _; isplitr
    swap; · iexact HL
    ipureintro; body_close_read
  iexists _; isplitr
  swap; · iexact HA
  ipureintro; body_close_read

/-- The attention kernel's three scratch operands, as the pipeline passes them. -/
abbrev scM : Memref sig .tc .vmem S256x1 .f32 := Memref.whole cc1_scratch0
abbrev scL : Memref sig .tc .vmem S256x1 .f32 := Memref.whole cc1_scratch1
abbrev scA : Memref sig .tc .vmem S256x64 .f32 := Memref.whole cc1_scratch2

set_option maxHeartbeats 1000000 in
/-- The attention body at any grid point: the three conditions decided either way, the state the
    point leaves and the output block are the pure state functions' values. -/
theorem attn_body (c : Dev nD) (E : Set ℕ) (i : grid1.Coords)
    (arg3 : Memref sig .tc .vmem S1x256x64 .f32) (harg3 : arg3.IsWhole) (arg4 : Memref sig .tc .vmem S1x256x64 .f32) (harg4 : arg4.IsWhole)
    (arg5 : Memref sig .tc .vmem S1x256x64 .f32) (harg5 : arg5.IsWhole)
    (q kv o : Vec F S1x256x64 .f32) (s : St F) (K : PUnit → sProp 𝕄) :
    iprop(owns (c : Thread nD τ) arg3 fullShare q ∗ owns (c : Thread nD τ) arg4 fullShare kv ∗ owns (c : Thread nD τ) arg5 fullShare o
        ∗ owns (c : Thread nD τ) scM fullShare s.m ∗ owns (c : Thread nD τ) scL fullShare s.l ∗ owns (c : Thread nD τ) scA fullShare s.a
        ∗ (iprop(owns (c : Thread nD τ) arg3 fullShare q ∗ owns (c : Thread nD τ) arg4 fullShare kv
              ∗ owns (c : Thread nD τ) arg5 fullShare (if c3 i then stOut (stNext i q kv s) else o)
              ∗ owns (c : Thread nD τ) scM fullShare (stNext i q kv s).m ∗ owns (c : Thread nD τ) scL fullShare (stNext i q kv s).l
              ∗ owns (c : Thread nD τ) scA fullShare (stNext i q kv s).a) -∗ K ⟨⟩))
      ⊢ wp frame (wpE (defs₀ (F := F)) Variants.none c none) E
          (cc1_attn_kernel i arg3 harg3 arg4 harg4 arg5 harg5 scM (Memref.isWhole_whole _) scL (Memref.isWhole_whole _) scA (Memref.isWhole_whole _)) K := by
  by_cases h1 : c1 i <;> by_cases h2 : c2 i <;> by_cases h3 : c3 i
  · simp only [stNext, stA, stStep, stOut, stInit, if_pos h1, if_pos h2, if_pos h3]
    exact attn_ttt c E i h1 h2 h3 arg3 harg3 arg4 harg4 arg5 harg5 scM (Memref.isWhole_whole _) scL (Memref.isWhole_whole _) scA (Memref.isWhole_whole _) q kv o s.m s.l s.a K
  · simp only [stNext, stA, stStep, stOut, stInit, if_pos h1, if_pos h2, if_neg h3]
    exact attn_ttf c E i h1 h2 h3 arg3 harg3 arg4 harg4 arg5 harg5 scM (Memref.isWhole_whole _) scL (Memref.isWhole_whole _) scA (Memref.isWhole_whole _) q kv o s.m s.l s.a K
  · simp only [stNext, stA, stStep, stOut, stInit, if_pos h1, if_neg h2, if_pos h3]
    exact attn_tft c E i h1 h2 h3 arg3 harg3 arg4 harg4 arg5 harg5 scM (Memref.isWhole_whole _) scL (Memref.isWhole_whole _) scA (Memref.isWhole_whole _) q kv o s.m s.l s.a K
  · simp only [stNext, stA, stStep, stOut, stInit, if_pos h1, if_neg h2, if_neg h3]
    exact attn_tff c E i h1 h2 h3 arg3 harg3 arg4 harg4 arg5 harg5 scM (Memref.isWhole_whole _) scL (Memref.isWhole_whole _) scA (Memref.isWhole_whole _) q kv o s.m s.l s.a K
  · simp only [stNext, stA, stStep, stOut, stInit, if_neg h1, if_pos h2, if_pos h3]
    exact attn_ftt c E i h1 h2 h3 arg3 harg3 arg4 harg4 arg5 harg5 scM (Memref.isWhole_whole _) scL (Memref.isWhole_whole _) scA (Memref.isWhole_whole _) q kv o s.m s.l s.a K
  · simp only [stNext, stA, stStep, stOut, stInit, if_neg h1, if_pos h2, if_neg h3]
    exact attn_ftf c E i h1 h2 h3 arg3 harg3 arg4 harg4 arg5 harg5 scM (Memref.isWhole_whole _) scL (Memref.isWhole_whole _) scA (Memref.isWhole_whole _) q kv o s.m s.l s.a K
  · simp only [stNext, stA, stStep, stOut, stInit, if_neg h1, if_neg h2, if_pos h3]
    exact attn_fft c E i h1 h2 h3 arg3 harg3 arg4 harg4 arg5 harg5 scM (Memref.isWhole_whole _) scL (Memref.isWhole_whole _) scA (Memref.isWhole_whole _) q kv o s.m s.l s.a K
  · simp only [stNext, stA, stStep, stOut, stInit, if_neg h1, if_neg h2, if_neg h3]
    exact attn_fff c E i h1 h2 h3 arg3 harg3 arg4 harg4 arg5 harg5 scM (Memref.isWhole_whole _) scL (Memref.isWhole_whole _) scA (Memref.isWhole_whole _) q kv o s.m s.l s.a K

end Cert.Kernel.Hand

end
-- ==== Proof.K.Oblig.lean ====
/-
  The two kernel bodies meet the pipeline's obligation at every grid point: handed the windows' current buffers at
  their blocks and the invariant of the point, the body returns the buffers and the invariant of the next point.
  For the attention body the cases are the first point (scratch at anything, reset by the body) against a later
  one (scratch at what the point before left), and a point that stores the output block against one that
  leaves the output buffer as it found it.
-/
import proofs.«418124_j83743272337485_3_alg».proof.Proof.K.Data
import proofs.«418124_j83743272337485_3_alg».proof.Proof.K.Body

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Projection
variable (V : (c : Dev nD) → (b : Ref sig .tc) → Buf (Elt F) ((c : Thread nD τ).loc b))
/-- The body at any point: the inputs' buffers hold their blocks, so the body's triple applies; the invariant and
    what the core owes pass through untouched. -/
theorem sound_body0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d)))
      ⊢ wp frame (wpE (defs₀ (F := F)) Variants.none c none) Set.univ (bodyAt0 t) (fun _ =>
          iprop((dat0 V c).Φ t.succ ∗ (dat0 V c).owesAt () t.succ
            ∗ owns (c : Thread nD τ) (st0_0 t) fullShare ((dat0 V c).after 0 t)
            ∗ owns (c : Thread nD τ) (st0_1 t) fullShare ((dat0 V c).after 1 t)
            ∗ owns (c : Thread nD τ) (st0_2 t) fullShare ((dat0 V c).after 2 t))) := by
  unfold bodyAt0
  simp only [dat0_before0, dat0_before1]
  rw [show (dat0 V c).Φ t.succ = (dat0 V c).Φ t.castSucc from rfl,
    show (dat0 V c).owesAt () t.succ = (dat0 V c).owesAt () t.castSucc from rfl,
    dat0_after0, dat0_after1, dat0_after2]
  iintro ⟨HΦ, Ho, ⟨%d0, H0⟩, ⟨%d1, H1⟩, ⟨%d2, H2⟩⟩
  iapply (proj_body c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body0 (c : Dev nD) : BodyObligation (dat0 (F := F) V c) (defs₀ (F := F)) Variants.none () Set.univ := fun t => by
  rw [bigSep_W0, bigSep_W0]
  exact sound_body0 V c t

end Projection

section AttentionBody

variable (V : (c : Dev nD) → (b : Ref sig .tc) → Buf (Elt F) ((c : Thread nD τ).loc b))

/-- The body's triple at a point that stores the output block, and at one that does not. -/
theorem attn_body_store (c : Dev nD) (E : Set ℕ) (i : grid1.Coords) (h3 : c3 i)
    (arg3 : Memref sig .tc .vmem S1x256x64 .f32) (harg3 : arg3.IsWhole) (arg4 : Memref sig .tc .vmem S1x256x64 .f32) (harg4 : arg4.IsWhole)
    (arg5 : Memref sig .tc .vmem S1x256x64 .f32) (harg5 : arg5.IsWhole)
    (q kv o : Vec F S1x256x64 .f32) (s : St F) (K : PUnit → sProp 𝕄) :
    iprop(owns (c : Thread nD τ) arg3 fullShare q ∗ owns (c : Thread nD τ) arg4 fullShare kv ∗ owns (c : Thread nD τ) arg5 fullShare o
        ∗ owns (c : Thread nD τ) scM fullShare s.m ∗ owns (c : Thread nD τ) scL fullShare s.l ∗ owns (c : Thread nD τ) scA fullShare s.a
        ∗ (iprop(owns (c : Thread nD τ) arg3 fullShare q ∗ owns (c : Thread nD τ) arg4 fullShare kv
              ∗ owns (c : Thread nD τ) arg5 fullShare (stOut (stNext i q kv s))
              ∗ owns (c : Thread nD τ) scM fullShare (stNext i q kv s).m ∗ owns (c : Thread nD τ) scL fullShare (stNext i q kv s).l
              ∗ owns (c : Thread nD τ) scA fullShare (stNext i q kv s).a) -∗ K ⟨⟩))
      ⊢ wp frame (wpE (defs₀ (F := F)) Variants.none c none) E
          (cc1_attn_kernel i arg3 harg3 arg4 harg4 arg5 harg5 scM (Memref.isWhole_whole _) scL (Memref.isWhole_whole _) scA (Memref.isWhole_whole _)) K := by
  have h := attn_body c E i arg3 harg3 arg4 harg4 arg5 harg5 q kv o s K
  rwa [if_pos h3] at h

theorem attn_body_idle (c : Dev nD) (E : Set ℕ) (i : grid1.Coords) (h3 : ¬c3 i)
    (arg3 : Memref sig .tc .vmem S1x256x64 .f32) (harg3 : arg3.IsWhole) (arg4 : Memref sig .tc .vmem S1x256x64 .f32) (harg4 : arg4.IsWhole)
    (arg5 : Memref sig .tc .vmem S1x256x64 .f32) (harg5 : arg5.IsWhole)
    (q kv o : Vec F S1x256x64 .f32) (s : St F) (K : PUnit → sProp 𝕄) :
    iprop(owns (c : Thread nD τ) arg3 fullShare q ∗ owns (c : Thread nD τ) arg4 fullShare kv ∗ owns (c : Thread nD τ) arg5 fullShare o
        ∗ owns (c : Thread nD τ) scM fullShare s.m ∗ owns (c : Thread nD τ) scL fullShare s.l ∗ owns (c : Thread nD τ) scA fullShare s.a
        ∗ (iprop(owns (c : Thread nD τ) arg3 fullShare q ∗ owns (c : Thread nD τ) arg4 fullShare kv
              ∗ owns (c : Thread nD τ) arg5 fullShare o
              ∗ owns (c : Thread nD τ) scM fullShare (stNext i q kv s).m ∗ owns (c : Thread nD τ) scL fullShare (stNext i q kv s).l
              ∗ owns (c : Thread nD τ) scA fullShare (stNext i q kv s).a) -∗ K ⟨⟩))
      ⊢ wp frame (wpE (defs₀ (F := F)) Variants.none c none) E
          (cc1_attn_kernel i arg3 harg3 arg4 harg4 arg5 harg5 scM (Memref.isWhole_whole _) scL (Memref.isWhole_whole _) scA (Memref.isWhole_whole _)) K := by
  have h := attn_body c E i arg3 harg3 arg4 harg4 arg5 harg5 q kv o s K
  rwa [if_neg h3] at h

theorem sAt_zero (c : Dev nD) (t : Fin cfg1.N) (hz : t.val = 0) (s : St F) :
    sAt V c t.val t.isLt = stNext (grid1.coords t) (blk1 V c 0 t) (blk1 V c 1 t) s := by
  have h1 : c1 (grid1.coords t) := (hc1 t).mpr (by omega)
  obtain ⟨n, hn⟩ := t
  cases n with
  | zero => exact stNext_of_c1 _ h1 _ _ _ _
  | succ n => exact absurd hz (Nat.succ_ne_zero n)

theorem Phi1_succ (c : Dev nD) (n : ℕ) (hn : n < cfg1.N) :
    Phi1 V c (n + 1) hn = inv1 c (owns (c : Thread nD τ) sM fullShare (sAt V c n hn).m) (owns (c : Thread nD τ) sL fullShare (sAt V c n hn).l)
      (owns (c : Thread nD τ) sA fullShare (sAt V c n hn).a) := rfl

set_option maxHeartbeats 1600000 in
/-- The body at any point: the inputs' buffers hold their blocks; the scratch holds what the point before left
    (anything at the first point, which resets it); the output buffer is stored exactly where the window is live. -/
theorem sound_body1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d)))
      ⊢ wp frame (wpE (defs₀ (F := F)) Variants.none c none) Set.univ (bodyAt1 t) (fun _ =>
          iprop((dat1 V c).Φ t.succ ∗ (dat1 V c).owesAt () t.succ
            ∗ (dat1 V c).leavesExact 0 t ∗ (dat1 V c).leavesExact 1 t ∗ (dat1 V c).leavesExact 2 t)) := by
  unfold bodyAt1
  simp only [dat1_before0, dat1_before1]
  rw [show (dat1 V c).owesAt () t.succ = (dat1 V c).owesAt () t.castSucc from rfl,
    show (dat1 V c).Φ t.succ = Phi1 V c (t.val + 1) t.isLt from rfl, Phi1_succ,
    show (dat1 V c).leavesExact 0 t = owns (c : Thread nD τ) (st1_0 t) fullShare ((dat1 V c).after 0 t) from rfl,
    show (dat1 V c).leavesExact 1 t = owns (c : Thread nD τ) (st1_1 t) fullShare ((dat1 V c).after 1 t) from rfl,
    dat1_after0, dat1_after1, dat1_Phi_castSucc]
  by_cases h3 : c3 (grid1.coords t)
  · rw [show (dat1 V c).leavesExact 2 t = owns (c : Thread nD τ) (st1_2 t) fullShare ((dat1 V c).after 2 t) from by
      unfold Dat.leavesExact; rw [live2 t h3], dat1_after2]
    have hz : t.val ≠ 0 := fun hz => by have := (hc3 t).mp h3; omega
    rw [Phi1_pos V c _ _ hz, sAt_pos V c t hz]
    unfold inv1
    iintro ⟨⟨⟨R1, R2, R3, R4, R5, HM, HL, HA⟩, Hg⟩, Ho, ⟨%d0, H0⟩, ⟨%d1, H1⟩, ⟨%d2, H2⟩⟩
    iapply (attn_body_store c Set.univ (grid1.coords t) h3 _ _ _ _ _ _ (blk1 V c 0 t) (blk1 V c 1 t) ((dat1 V c).before 2 t d2)
      (sAt V c (t.val - 1) (Nat.lt_of_le_of_lt (Nat.sub_le _ _) t.isLt)) _)
    isplitl [H0]; · iexact H0
    isplitl [H1]; · iexact H1
    isplitl [H2]; · iexact H2
    isplitl [HM]; · iexact HM
    isplitl [HL]; · iexact HL
    isplitl [HA]; · iexact HA
    iintro ⟨H0, H1, H2, HM, HL, HA⟩
    isplitl [R1 R2 R3 R4 R5 HM HL HA Hg]
    · isplitr [Hg]
      · isplitl [R1]; · iexact R1
        isplitl [R2]; · iexact R2
        isplitl [R3]; · iexact R3
        isplitl [R4]; · iexact R4
        isplitl [R5]; · iexact R5
        isplitl [HM]; · iexact HM
        isplitl [HL]; · iexact HL
        iexact HA
      · iexact Hg
    isplitl [Ho]; · iexact Ho
    isplitl [H0]; · iexact H0
    isplitl [H1]; · iexact H1
    iexact H2
  · rw [Dat.leavesExact_idle (dat1 V c) 2 t (idle2 t h3) (noflush2 t h3)]
    by_cases hz : t.val = 0
    · rw [show Phi1 V c t.val (Nat.le_of_lt t.isLt) = Pipeline.ΦA spec1 c from by
        obtain ⟨n, hn⟩ := t; cases n with
        | zero => rfl
        | succ n => exact absurd hz (Nat.succ_ne_zero n), PhiA1_eq]
      unfold inv1
      iintro ⟨⟨⟨R1, R2, R3, R4, R5, ⟨%dm, HM⟩, ⟨%dl, HL⟩, ⟨%da, HA⟩⟩, Hg⟩, Ho, ⟨%d0, H0⟩, ⟨%d1, H1⟩, ⟨%d2, H2⟩⟩
      rw [sAt_zero V c t hz ⟨dm, dl, da⟩]
      iapply (attn_body_idle c Set.univ (grid1.coords t) h3 _ _ _ _ _ _ (blk1 V c 0 t) (blk1 V c 1 t) ((dat1 V c).before 2 t d2)
        ⟨dm, dl, da⟩ _)
      isplitl [H0]; · iexact H0
      isplitl [H1]; · iexact H1
      isplitl [H2]; · iexact H2
      isplitl [HM]; · iexact HM
      isplitl [HL]; · iexact HL
      isplitl [HA]; · iexact HA
      iintro ⟨H0, H1, H2, HM, HL, HA⟩
      isplitl [R1 R2 R3 R4 R5 HM HL HA Hg]
      · isplitr [Hg]
        · isplitl [R1]; · iexact R1
          isplitl [R2]; · iexact R2
          isplitl [R3]; · iexact R3
          isplitl [R4]; · iexact R4
          isplitl [R5]; · iexact R5
          isplitl [HM]; · iexact HM
          isplitl [HL]; · iexact HL
          iexact HA
        · iexact Hg
      isplitl [Ho]; · iexact Ho
      isplitl [H0]; · iexact H0
      isplitl [H1]; · iexact H1
      iexists _; iexact H2
    · rw [Phi1_pos V c _ _ hz, sAt_pos V c t hz]
      unfold inv1
      iintro ⟨⟨⟨R1, R2, R3, R4, R5, HM, HL, HA⟩, Hg⟩, Ho, ⟨%d0, H0⟩, ⟨%d1, H1⟩, ⟨%d2, H2⟩⟩
      iapply (attn_body_idle c Set.univ (grid1.coords t) h3 _ _ _ _ _ _ (blk1 V c 0 t) (blk1 V c 1 t) ((dat1 V c).before 2 t d2)
        (sAt V c (t.val - 1) (Nat.lt_of_le_of_lt (Nat.sub_le _ _) t.isLt)) _)
      isplitl [H0]; · iexact H0
      isplitl [H1]; · iexact H1
      isplitl [H2]; · iexact H2
      isplitl [HM]; · iexact HM
      isplitl [HL]; · iexact HL
      isplitl [HA]; · iexact HA
      iintro ⟨H0, H1, H2, HM, HL, HA⟩
      isplitl [R1 R2 R3 R4 R5 HM HL HA Hg]
      · isplitr [Hg]
        · isplitl [R1]; · iexact R1
          isplitl [R2]; · iexact R2
          isplitl [R3]; · iexact R3
          isplitl [R4]; · iexact R4
          isplitl [R5]; · iexact R5
          isplitl [HM]; · iexact HM
          isplitl [HL]; · iexact HL
          iexact HA
        · iexact Hg
      isplitl [Ho]; · iexact Ho
      isplitl [H0]; · iexact H0
      isplitl [H1]; · iexact H1
      iexists _; iexact H2

theorem body1 (c : Dev nD) : BodyObligation (dat1 (F := F) V c) (defs₀ (F := F)) Variants.none () Set.univ := fun t => by
  rw [bigSep_W1, bigSep_W1]
  exact sound_body1 V c t

end AttentionBody

end Cert.Kernel.Hand

end
-- ==== Proof.K.Run.lean ====
/-
  The run of @main over its four items — reshape and transpose, the projection region, reshape, the attention
  region — from the launch memory: every weakly fair execution terminates, the result array ends at what the
  attention region's write-backs leave, the arguments as launched.
-/
import proofs.«418124_j83743272337485_3_alg».proof.Proof.K.Oblig
import proofs.«418124_j83743272337485_3_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! The run of @main: two host stretches (a reshape and a transpose; a reshape) and the two kernel regions, in order.
    Between two items a core holds every unscoped buffer at a known valuation, its generator register at some state and
    owes nothing. The valuations fold through @main from the launch memory: a host stretch applies its operations, the
    projection region replaces `main_v2` by what its write-backs leave, the attention region `main_v4`. -/

variable (m : (ℓ : Loc nD τ sig) → Buf (Elt F) ℓ)

/-- The projection region's entry contents, read at the TensorCore's references. -/
abbrev E1 (c : Dev nD) (b : Ref sig .tc) : Buf (Elt F) ((c : Thread nD τ).loc b) := Gen.V1 m c b

/-- After the projection region: its arrays at what the pipeline leaves, every other buffer as entered. -/
def X2 (c : Dev nD) : Valuation τ sig (Elt F) :=
  Pipeline.withArrays spec0 c (Gen.V1 m c) fun w => (dat0 (E1 m) c).arrAt w cfg0.N
theorem X2_arr (c : Dev nD) (w : Fin cfg0.W) :
    X2 m c (Proc.devRef .tc (Pipeline.arrRef spec0 w)) = (dat0 (E1 m) c).arrAt w cfg0.N := by
  unfold X2; exact Pipeline.withArrays_arr spec0 launch0.win.arr_inj c _ _ w
theorem X2_of_ne (c : Dev nD) (b : Ref sig .tc) (hb : ∀ w, Pipeline.arrRef spec0 w ≠ b) :
    X2 m c (Proc.devRef .tc b) = Gen.V1 m c (Proc.devRef .tc b) := by
  unfold X2; exact Pipeline.withArrays_of_ne spec0 c _ _ b hb
abbrev E2 (c : Dev nD) (b : Ref sig .tc) : Buf (Elt F) ((c : Thread nD τ).loc b) := X2 m c b

/-- After the second host stretch: the attention region's entry contents. -/
abbrev X3 (c : Dev nD) : Valuation τ sig (Elt F) := StableHlo.after hostOps1 (X2 m c)
abbrev E3 (c : Dev nD) (b : Ref sig .tc) : Buf (Elt F) ((c : Thread nD τ).loc b) := X3 m c b

/-- What the attention region leaves in its output array. -/
abbrev out4 (c : Dev nD) : Buf (Elt F) ((c : Thread nD τ).loc main_v4) := (dat1 (E3 m) c).arrAt 2 cfg1.N

/-- After the attention region: `main_v4` at what its write-backs leave, every other buffer as entered. -/
def E4 (c : Dev nD) (b : Ref sig .tc) : Buf (Elt F) ((c : Thread nD τ).loc b) :=
  if h : b = main_v4 then h ▸ out4 m c else E3 m c b
theorem E4_v4 (c : Dev nD) : E4 m c main_v4 = out4 m c := by unfold E4; rw [dif_pos rfl]
theorem E4_of_ne (c : Dev nD) (b : Ref sig .tc) (h : b ≠ main_v4) : E4 m c b = E3 m c b := by unfold E4; rw [dif_neg h]

/-! ## The proof data family and the thread state -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (E1 m) c
  | ⟨1, _⟩ => fun c => dat1 (E3 m) c

/-- No core owes another anything: no level is assigned. -/
abbrev L0 : GSem nD τ sig → Finset Unit := fun _ => ∅
abbrev lv0 : GSem nD τ sig → Unit → ℕ := fun _ _ => 0

/-- What rides beside the buffers through every item: the generator register at some state, nothing owed. -/
abbrev R (c : Dev nD) : sProp 𝕄 := iprop((∃ r, prngReg c r) ∗ ∃ W, owes (c : Thread nD τ) (0 : CellTallies nD τ sig Unit) W)

/-- A host stretch as a segment over every unscoped buffer. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L0 lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hF0 (c : Dev nD) (w : Fin cfg0.W) : (dat0 (E1 m) c).arrAt w cfg0.N = E2 m c (Pipeline.arrRef spec0 w) :=
  (X2_arr m c w).symm
theorem hrest0 (c : Dev nD) : ∀ b, b ∉ Finset.univ.image (Pipeline.arrRef spec0) → E2 m c b = E1 m c b :=
  fun b hb => X2_of_ne m c b fun w e => hb (Finset.mem_image.mpr ⟨w, Finset.mem_univ _, e⟩)

set_option backward.isDefEq.respectTransparency.types false in
/-- The projection region: entered from every unscoped buffer at the first stretch's result, left with `main_v2` at
    what the write-backs leave. Its arrays are split out of the unscoped buffers and put back; the generator
    register passes through the invariant. -/
def reg0 : Pipeline.RegionSeg (pcfgs (F := F)) Gen.adm (pdats m) () defs₀ Variants.none L0 lv0 0 where
  win := launch0.win.to₀
  block_pos := launch0.block_pos
  stage_whole := launch0.stage_whole
  K := PEmpty
  osem k := k.elim
  ho := Pipeline.OwnSemFacts.none _
  hbody c := (body0 (E1 m) c).loose
  hwaits := Pipeline.hwaits_of_owed_zero _ _ _ _ L0 lv0 0 fun _ _ => rfl
  pre c := iprop(StableHlo.held (c : Thread nD τ) (Pipeline.ucRefs τ sig) (Gen.V1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The attention region's arrays: one buffer behind two input windows

The query and key/value windows both read `main_v3`: the region holds that buffer once, at the full share, and the
pipeline's two windows each at one half of it. -/

theorem img1 : Finset.univ.image (Pipeline.arrRef spec1) = ({main_v3, main_v4} : Finset (Ref sig .tc)) := by decide

section Shared

variable (Vv : (c : Dev nD) → (b : Ref sig .tc) → Buf (Elt F) ((c : Thread nD τ).loc b))

/-- The buffers behind the windows' arrays, each whole, are the pipeline's arrays: `main_v3` split in halves. -/
theorem arrays1_split (c : Dev nD) (G : (w : Fin cfg1.W) → Buf (Elt F) ((cfg1.win w).arr.view.loc (c : Thread nD τ)))
    (Ve : (b : Ref sig .tc) → Buf (Elt F) ((c : Thread nD τ).loc b))
    (h0 : G 0 = Ve main_v3) (h1 : G 1 = Ve main_v3) (h2 : G 2 = Ve main_v4) :
    (Pipeline.arrBufs spec1 c Ve : sProp 𝕄) ⊢ (dat1 Vv c).arrays G := by
  unfold Pipeline.arrBufs Dat.arrays
  rw [img1, bigSep_insert (by decide), bigSep_singleton, bigSep_W1, h0, h1, h2]
  rw [(arr_whole1 0).set_eq_univ, (arr_whole1 2).set_eq_univ,
    show (dat1 Vv c).share 0 = fullShare.left from rfl, show (dat1 Vv c).share 1 = fullShare.right from rfl,
    show (dat1 Vv c).share 2 = fullShare from rfl]
  show (iprop((((c : Thread nD τ).loc main_v3) ↦{fullShare} Ve main_v3) ∗ (((c : Thread nD τ).loc main_v4) ↦{fullShare} Ve main_v4)) : sProp 𝕄) ⊢ _
  iintro ⟨H3, H4⟩
  ihave H := (pointsTo_share (PosShare.mem_left_op_right fullShare)).1 $$ H3
  icases H with ⟨Hl, Hr⟩
  isplitl [Hl]; · iexact Hl
  isplitl [Hr]; · iexact Hr
  iexact H4

/-- And back: the halves rejoin. -/
theorem arrays1_join (c : Dev nD) (G : (w : Fin cfg1.W) → Buf (Elt F) ((cfg1.win w).arr.view.loc (c : Thread nD τ)))
    (Ve : (b : Ref sig .tc) → Buf (Elt F) ((c : Thread nD τ).loc b))
    (h0 : G 0 = Ve main_v3) (h1 : G 1 = Ve main_v3) (h2 : G 2 = Ve main_v4) :
    (dat1 Vv c).arrays G ⊢ (Pipeline.arrBufs spec1 c Ve : sProp 𝕄) := by
  unfold Pipeline.arrBufs Dat.arrays
  rw [img1, bigSep_insert (by decide), bigSep_singleton, bigSep_W1, h0, h1, h2]
  rw [(arr_whole1 0).set_eq_univ, (arr_whole1 2).set_eq_univ,
    show (dat1 Vv c).share 0 = fullShare.left from rfl, show (dat1 Vv c).share 1 = fullShare.right from rfl,
    show (dat1 Vv c).share 2 = fullShare from rfl]
  show _ ⊢ (iprop((((c : Thread nD τ).loc main_v3) ↦{fullShare} Ve main_v3) ∗ (((c : Thread nD τ).loc main_v4) ↦{fullShare} Ve main_v4)) : sProp 𝕄)
  iintro ⟨Hl, Hr, H4⟩
  isplitl [Hl Hr]
  · iapply (pointsTo_share (PosShare.mem_left_op_right fullShare)).2
    isplitl [Hl]; · iexact Hl
    iexact Hr
  iexact H4

end Shared

/-- A core's unscoped buffers are the buffers behind the attention region's arrays and the rest. -/
theorem ubufs1 (c : Dev nD) (Ve : (b : Ref sig .tc) → Buf (Elt F) ((c : Thread nD τ).loc b)) :
    (unscopedBufs c Ve : sProp 𝕄) = iprop(Pipeline.arrBufs spec1 c Ve ∗ Pipeline.unscopedRest spec1 c Ve) :=
  Pipeline.unscopedBufs_split₀ cfgs 1 winFacts₀1.arr_unscoped c Ve

/-- Off `main_v4` the attention region changes no unscoped buffer. -/
theorem rest1_E4 (c : Dev nD) :
    (Pipeline.unscopedRest spec1 c (E4 m c) : sProp 𝕄) = Pipeline.unscopedRest spec1 c (E3 m c) := by
  unfold Pipeline.unscopedRest
  refine bigSep_congr fun b hb => ?_
  rw [E4_of_ne m c b fun e => (Finset.mem_sdiff.mp hb).2 (by rw [img1, e]; decide)]

/-- The last thread state, the core's `owes` apart: every unscoped buffer at the final contents, the generator register. -/
abbrev Tn (c : Dev nD) : sProp 𝕄 := iprop(unscopedBufs c (E4 m c) ∗ ∃ r, prngReg c r)

/-- What the attention region hands back after its last point: the scratch contents are forgotten. -/
theorem Phi1_out (c : Dev nD) (Vv : (c : Dev nD) → (b : Ref sig .tc) → Buf (Elt F) ((c : Thread nD τ).loc b)) (n : ℕ) (h : n ≤ cfg1.N) (hz : n ≠ 0) :
    Phi1 Vv c n h ⊢ (Pipeline.ΦA spec1 c : sProp 𝕄) := by
  rw [Phi1_pos Vv c n h hz, PhiA1_eq]; unfold inv1
  iintro ⟨⟨R1, R2, R3, R4, R5, HM, HL, HA⟩, Hg⟩
  isplitr [Hg]
  · isplitl [R1]; · iexact R1
    isplitl [R2]; · iexact R2
    isplitl [R3]; · iexact R3
    isplitl [R4]; · iexact R4
    isplitl [R5]; · iexact R5
    isplitl [HM]; · iexists _; iexact HM
    isplitl [HL]; · iexists _; iexact HL
    iexists _; iexact HA
  · iexact Hg

set_option backward.isDefEq.respectTransparency.types false in
/-- The attention region: entered from every unscoped buffer at the second stretch's result, left with `main_v4` at
    what the write-backs leave. `main_v3` enters the pipeline in two halves and comes back whole. -/
def reg1 : Pipeline.RegionSeg (pcfgs (F := F)) Gen.adm (pdats m) () defs₀ Variants.none L0 lv0 1 where
  win := winFacts₀1
  block_pos := block_pos1
  stage_whole := stage_whole1
  K := PEmpty
  osem k := k.elim
  ho := Pipeline.OwnSemFacts.none _
  hbody c := (body1 (E3 m) c).loose
  hwaits := Pipeline.hwaits_of_owed_zero _ _ _ _ L0 lv0 1 fun _ _ => rfl
  pre c := iprop(StableHlo.held (c : Thread nD τ) (Pipeline.ucRefs τ sig) (X3 m c) ∗ R c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none, ← Pipeline.unscopedBufs_held c (X3 m c), ubufs1 c (E3 m c)]
    iintro ⟨⟨⟨Hab, Hrest⟩, Hp, HO⟩, -, -⟩
    ihave Ha := (arrays1_split (E3 m) c ((pdats m 1 c).arrAt · 0) (E3 m c) rfl rfl rfl) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Phi1 (E3 m) c cfg1.N (le_refl _) from rfl]
    refine (Phi1_out c (E3 m) cfg1.N (le_refl _) (by have : cfg1.N = 256 := N_1; omega)).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · rw [ubufs1 c (E4 m c), rest1_E4]
        isplitl [Ha]
        · iapply (arrays1_join (E3 m) c ((pdats m 1 c).arrAt · cfg1.N) (E4 m c)
            (((pdats m 1 c).arrAt_in 0 rfl _).trans (E4_of_ne m c main_v3 (by decide)).symm)
            (((pdats m 1 c).arrAt_in 1 rfl _).trans (E4_of_ne m c main_v3 (by decide)).symm)
            (E4_v4 m c).symm)
          iexact Ha
        iexact Hrest
      iexact HY
    unfold Pipeline.Dat.owesAt Pipeline.owesWithin
    icases HO with ⟨%W, -, HO⟩; iexists W; iexact HO

/-! ## @main as its items, and the launch -/

/-- @main's four items in order. -/
abbrev items : List (Pipeline.Seg (pcfgs (F := F)) Gen.adm (pdats m) () defs₀ Variants.none L0 lv0) :=
  [ .host (hseg hostOps0 hostOps0_sub hostOps0_fresh (Gen.V0 m)),
    .region (reg0 m),
    .host (hseg hostOps1 hostOps1_sub hostOps1_fresh (X2 m)),
    .region (reg1 m) ]

theorem main_run (c : Dev nD) : main (F := F) c = Pipeline.Seg.run (items m) := (main_chain c).trans (by chain_rfl)

/-- The arguments reach the end as launched: no host operation writes one and no region's output is one. -/
theorem E4_arg0 (c : Dev nD) : E4 m c main_arg0 = m ((c : Thread nD τ).loc main_arg0) :=
  (E4_of_ne m c main_arg0 (by decide)).trans <|
    (StableHlo.after_of_writes_sub hostOps1 _ hostOps1_writes (by decide : main_arg0 ∉ hostOps1_W)).trans <|
      (X2_of_ne m c main_arg0 (by decide)).trans <| (Gen.V1_of m c main_arg0 (by decide)).trans rfl
theorem E4_arg1 (c : Dev nD) : E4 m c main_arg1 = m ((c : Thread nD τ).loc main_arg1) :=
  (E4_of_ne m c main_arg1 (by decide)).trans <|
    (StableHlo.after_of_writes_sub hostOps1 _ hostOps1_writes (by decide : main_arg1 ∉ hostOps1_W)).trans <|
      (X2_of_ne m c main_arg1 (by decide)).trans <| (Gen.V1_of m c main_arg1 (by decide)).trans rfl

set_option backward.isDefEq.respectTransparency.types false in
/-- THE RUN. From any memory with zero counters every weakly fair execution of @main terminates, nothing faulting, and
    every final state has the result array at what the attention region's write-backs leave and the arguments as launched. -/
theorem run_main (ρ : Dev nD → PrngReg) :
    θ_run defs (onTc (τ := τ) (main (F := F))) ⟨m, fun _ => 0, ρ⟩ (fun r => ∀ c : Dev nD,
      r.2.mem ((c.tc : Thread nD τ).loc main_v4) = out4 m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) Gen.adm (pdats m) () cellOf_inj emb₁ defs₀ Variants.none L0 lv0 m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tn m)
    (hch := ⟨fun _ => .rfl, fun _ => .rfl, fun _ => .rfl, fun _ => .rfl, fun _ => .rfl⟩)
    (hinit := by
      refine Pipeline.initEach L0 lv0 fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ (Finset.univ.filter fun b : Ref sig .tc => ¬ b.isScoped), s.mem ((c : Thread nD τ).loc b) = E4 m c b)
    (hfin := fun c s' => by
      iintro ⟨⟨Hh, -⟩, HSI⟩
      unfold unscopedBufs
      imodintro
      iapply (pointsTo_read_all (Finset.univ.filter fun b : Ref sig .tc => ¬ b.isScoped) (fun b => (c : Thread nD τ).loc b) (E4 m c) s')
      isplitl [Hh] <;> iassumption)
    (hQ := fun s h c =>
      ⟨(h c main_v4 (by decide)).trans (E4_v4 m c), (h c main_arg0 (by decide)).trans (E4_arg0 m c),
        (h c main_arg1 (by decide)).trans (E4_arg1 m c)⟩)

end Cert.Kernel.Hand

end
-- ==== Proof.KI.State.lean ====
/-
  The attention kernel's scratch state and what one grid point does to it, as pure functions
  of the blocks it loads: the running maximum m, the running sum of exponentials l and the
  running weighted sum a of one query tile (256 rows), over the kernel function's named stored
  values. A point (b, qi, ki) resets the state when ki = 0, folds key/value tile ki into it when
  ki ≤ qi, and when ki = 7 stores a * (1 / l) into the output block.
-/
import proofs.«418124_j83743272337485_3_alg».proof.Proof.Gen.KernelIdeal.Skeleton

noncomputable section

namespace Cert.KernelIdeal.Hand

open Idealize.ShloMosaic Idealize.SL.Sem Cert.KernelIdeal Cert.KernelIdeal.Gen

variable {F : FTy → Type} [FloatOps F] [Named F]

/-- The three scratch buffers' contents: running maximum, running sum, running weighted sum. -/
structure St (F : FTy → Type) [FloatOps F] where
  m : Vec F S256x1 .f32
  l : Vec F S256x1 .f32
  a : Vec F S256x64 .f32

/-- The reset state: maximum -inf, sums zero. -/
def stInit : St F := ⟨k1_pay1, k1_pay2, k1_pay3⟩

/-- Folding key/value tile `kv` (tile index the word `a2`) into the state of query tile `q` (tile index the word `a1`). -/
def stStep (a1 a2 : BitVec 32) (q kv : Vec F S1x256x64 .f32) (s : St F) : St F :=
  ⟨k1_pay5 (k1_pay9 a1 a2 q kv s.m),
   k1_pay12 a1 a2 q kv s.m s.l,
   k1_pay4 (k1_pay7 kv) (k1_pay10 a1 a2 q kv s.m) (k1_pay11 a1 a2 q kv s.m) s.a⟩

/-- The output block: the weighted sum times the reciprocal of the sum. -/
def stOut (s : St F) : Vec F S1x256x64 .f32 := k1_pay6 s.a s.l

/-- The reset's condition at a grid point: the key/value tile index is 0. -/
abbrev c1 (i : grid1.Coords) : Prop :=
  (Scalar.cmpi .ne (Scalar.extui (Scalar.cmpi .eq (BitVec.ofNat 32 (i 2).val) 0#32)) 0#32) = 1#1
/-- The fold's condition: the key/value tile is not above the diagonal. -/
abbrev c2 (i : grid1.Coords) : Prop :=
  (Scalar.cmpi .ne (Scalar.extui (Scalar.cmpi .sle (BitVec.ofNat 32 (i 2).val) (BitVec.ofNat 32 (i 1).val))) 0#32) = 1#1
/-- The output store's condition: the last key/value tile. -/
abbrev c3 (i : grid1.Coords) : Prop := k1_cond3 i = 1#1

instance (i : grid1.Coords) : Decidable (c1 i) := by unfold c1; infer_instance
instance (i : grid1.Coords) : Decidable (c2 i) := by unfold c2; infer_instance
instance (i : grid1.Coords) : Decidable (c3 i) := by unfold c3; infer_instance

/-- The state after the reset, if the point resets. -/
def stA (i : grid1.Coords) (s : St F) : St F := if c1 i then stInit else s

/-- The state a point leaves, from the state it finds and the blocks it loads. -/
def stNext (i : grid1.Coords) (q kv : Vec F S1x256x64 .f32) (s : St F) : St F :=
  if c2 i then stStep (BitVec.ofNat 32 (i 1).val) (BitVec.ofNat 32 (i 2).val) q kv (stA i s) else stA i s

/-- A point that resets leaves a state that does not depend on the one it found. -/
theorem stNext_of_c1 (i : grid1.Coords) (h : c1 i) (q kv : Vec F S1x256x64 .f32) (s s' : St F) :
    stNext i q kv s = stNext i q kv s' := by
  unfold stNext stA; rw [if_pos h, if_pos h]

end Cert.KernelIdeal.Hand

end
-- ==== Proof.KI.Data.lean ====
/-
  The two kernel regions' proof data: per window, what its staging buffer holds after the body at each grid
  point, and what the body keeps between points.

  Projection (16 points): point i reads rows 512 i … 512 i + 511 of the reshaped input and the whole transposed
  weight, and leaves their product in the output buffer; nothing is kept between points.

  Attention (256 points (b, qi, ki)): the query window reads tile qi and the key/value window tile min ki qi of
  one array; the three scratch buffers carry the recurrence's state from point to point (`sAt`: the fold of the
  points so far; the first point of every (b, qi) resets it, so the state before the first point is immaterial);
  the output buffer is stored at ki = 7 only and is idle elsewhere. The two input windows hold their array at
  half the share each.
-/
import proofs.«418124_j83743272337485_3_alg».proof.Proof.KI.State
import proofs.«418124_j83743272337485_3_alg».proof.Proof.Gen.KernelIdeal.Launch
import proofs.«418124_j83743272337485_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The attention kernel's three scratch operands, as the pipeline passes them. -/
abbrev sM : Memref sig .tc .vmem S256x1 .f32 := Memref.whole cc1_scratch0
abbrev sL : Memref sig .tc .vmem S256x1 .f32 := Memref.whole cc1_scratch1
abbrev sA : Memref sig .tc .vmem S256x64 .f32 := Memref.whole cc1_scratch2

section Regions

/-! The projection region, at the contents `V` the core's buffers hold when it is entered: each grid point
    i multiplies rows 512 i … 512 i + 511 of the reshaped input by the whole transposed weight. -/

variable (V : (c : Dev nD) → (b : Ref sig .tc) → Buf (Elt F) ((c : Thread nD τ).loc b))

/-- Window `w`'s block at point `t`, read off its array. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The region's proof data: the two inputs stay at their blocks, the output's buffer holds the product of the blocks. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => k0_pay1 (blk0 V c 0 t) (blk0 V c 1 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = k0_pay1 (blk0 V c 0 t) (blk0 V c 1 t) := by dsimp only [dat0]

/-- An input's staging buffer holds the window's block at every point, fetched there or not. -/
theorem dat0_before0 (c : Dev nD) (t : Fin cfg0.N) (d) : (dat0 V c).before 0 t d = blk0 V c 0 t :=
  ((dat0 V c).before_in_eq_fetched 0 rfl (fun _ => rfl) (fun _ _ _ => rfl)
      (fun t => by rw [dat0_after0]; unfold Dat.blockOf blk0; rw [dat0_A]; try rfl) t d).trans
    (by unfold Dat.fetched Dat.blockOf blk0; rw [dat0_A]; try rfl)
theorem dat0_before1 (c : Dev nD) (t : Fin cfg0.N) (d) : (dat0 V c).before 1 t d = blk0 V c 1 t :=
  ((dat0 V c).before_in_eq_fetched 1 rfl (fun _ => rfl) (fun _ _ _ => rfl)
      (fun t => by rw [dat0_after1]; unfold Dat.blockOf blk0; rw [dat0_A]; try rfl) t d).trans
    (by unfold Dat.fetched Dat.blockOf blk0; rw [dat0_A]; try rfl)

end Regions

section Attention

/-! The attention region, at the contents `V` the core's buffers hold when it is entered. Grid point
    (b, qi, ki) finds query tile qi and key/value tile min ki qi of batch b in its two input buffers (both windows
    read the same array), the scratch as the point before left it, and leaves the scratch folded once more; the
    output block is stored at ki = 7 only. -/

variable (V : (c : Dev nD) → (b : Ref sig .tc) → Buf (Elt F) ((c : Thread nD τ).loc b))

/-- Window `w`'s block at point `t`, read off its array. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch state after the body at position `n`: the fold of the points so far (the first point resets, so
    the state it starts from is immaterial). -/
def sAt (c : Dev nD) : (n : ℕ) → n < cfg1.N → St F
  | 0, hn => stNext (grid1.coords ⟨0, hn⟩) (blk1 V c 0 ⟨0, hn⟩) (blk1 V c 1 ⟨0, hn⟩) stInit
  | n + 1, hn => stNext (grid1.coords ⟨n + 1, hn⟩) (blk1 V c 0 ⟨n + 1, hn⟩) (blk1 V c 1 ⟨n + 1, hn⟩) (sAt c n (Nat.lt_of_succ_lt hn))

theorem sAt_pos (c : Dev nD) (t : Fin cfg1.N) (ht : t.val ≠ 0) :
    sAt V c t.val t.isLt = stNext (grid1.coords t) (blk1 V c 0 t) (blk1 V c 1 t)
      (sAt V c (t.val - 1) (Nat.lt_of_le_of_lt (Nat.sub_le _ _) t.isLt)) := by
  obtain ⟨n, hn⟩ := t
  cases n with
  | zero => exact absurd rfl ht
  | succ n => rfl

/-- The conditions in closed form over the grid's 256 points: position t is (b, qi, ki) = (t / 64, t / 8 % 8, t % 8). -/
theorem hc1 : ∀ t : Fin cfg1.N, c1 (grid1.coords t) ↔ t.val % 8 = 0 :=
  (by decide +kernel : ∀ t : Fin grid1.N, c1 (grid1.coords t) ↔ t.val % 8 = 0)
theorem hc3 : ∀ t : Fin cfg1.N, c3 (grid1.coords t) ↔ t.val % 8 = 7 :=
  (by decide +kernel : ∀ t : Fin grid1.N, c3 (grid1.coords t) ↔ t.val % 8 = 7)
/-- The output window is live exactly where the body stores into it, and idle and not written back elsewhere. -/
theorem live2 : ∀ t : Fin cfg1.N, c3 (grid1.coords t) → cfg1.idle 2 (grid1.coords t) = false := by decide +kernel
theorem idle2 : ∀ t : Fin cfg1.N, ¬c3 (grid1.coords t) → cfg1.idle 2 (grid1.coords t) = true := by decide +kernel
theorem noflush2 : ∀ t : Fin cfg1.N, ¬c3 (grid1.coords t) → (cfg1.win 2).flush t = false := by decide +kernel

/-- The region's invariant with the three scratch buffers at given assertions: beside them the other region's
    scoped buffers, which this one never names, and the generator register. -/
def inv1 (c : Dev nD) (PM PL PA : sProp 𝕄) : sProp 𝕄 :=
  iprop(((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ PM ∗ PL ∗ PA) ∗ (∃ r, prngReg c r))

/-- What the region hands the body besides the windows: the scratch buffers at some contents. -/
theorem PhiA1_eq (c : Dev nD) :
    (Pipeline.ΦA spec1 c : sProp 𝕄)
      = inv1 c (iprop(∃ d, owns (c : Thread nD τ) sM fullShare d)) (iprop(∃ d, owns (c : Thread nD τ) sL fullShare d))
          (iprop(∃ d, owns (c : Thread nD τ) sA fullShare d)) := by
  unfold Pipeline.ΦA inv1; rw [scopedRest1_eq]; simp only [sM, sL, sA, owns_whole]; try rfl

/-- The invariant before position `n`: before the first point the scratch holds anything; afterwards what the
    point before left. -/
def Phi1 (c : Dev nD) : (n : ℕ) → n ≤ cfg1.N → sProp 𝕄
  | 0, _ => Pipeline.ΦA spec1 c
  | n + 1, hn => inv1 c (owns (c : Thread nD τ) sM fullShare (sAt V c n hn).m) (owns (c : Thread nD τ) sL fullShare (sAt V c n hn).l)
      (owns (c : Thread nD τ) sA fullShare (sAt V c n hn).a)

theorem Phi1_pos (c : Dev nD) (n : ℕ) (h : n ≤ cfg1.N) (hz : n ≠ 0) :
    Phi1 V c n h = inv1 c (owns (c : Thread nD τ) sM fullShare (sAt V c (n - 1) (by omega)).m)
      (owns (c : Thread nD τ) sL fullShare (sAt V c (n - 1) (by omega)).l)
      (owns (c : Thread nD τ) sA fullShare (sAt V c (n - 1) (by omega)).a) := by
  cases n with
  | zero => exact absurd rfl hz
  | succ n => rfl

/-- The region's proof data. The two input windows read one array, each at half the share. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => stOut (sAt V c t.val t.isLt)
  Φ t := Phi1 V c t.val (Nat.le_of_lt_succ t.isLt)
  q w := match w with
    | ⟨0, _⟩ => fullShare.left
    | ⟨1, _⟩ => fullShare.right
    | ⟨2, _⟩ => fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = stOut (sAt V c t.val t.isLt) := by dsimp only [dat1]
theorem dat1_Phi_castSucc (c : Dev nD) (t : Fin cfg1.N) : (dat1 V c).Φ t.castSucc = Phi1 V c t.val (Nat.le_of_lt t.isLt) := by
  dsimp only [dat1]; simp only [Fin.coe_castSucc]

theorem dat1_before0 (c : Dev nD) (t : Fin cfg1.N) (d) : (dat1 V c).before 0 t d = blk1 V c 0 t :=
  ((dat1 V c).before_in_eq_fetched 0 rfl (fun _ => rfl) (fun _ _ _ => rfl)
      (fun t => by rw [dat1_after0]; unfold Dat.blockOf blk1; rw [dat1_A]; try rfl) t d).trans
    (by unfold Dat.fetched Dat.blockOf blk1; rw [dat1_A]; try rfl)
theorem dat1_before1 (c : Dev nD) (t : Fin cfg1.N) (d) : (dat1 V c).before 1 t d = blk1 V c 1 t :=
  ((dat1 V c).before_in_eq_fetched 1 rfl (fun _ => rfl) (fun _ _ _ => rfl)
      (fun t => by rw [dat1_after1]; unfold Dat.blockOf blk1; rw [dat1_A]; try rfl) t d).trans
    (by unfold Dat.fetched Dat.blockOf blk1; rw [dat1_A]; try rfl)

end Attention

end Cert.KernelIdeal.Hand

end
-- ==== Proof.KI.Body.lean ====
/-
  The two kernel bodies as separation-logic triples, for any float instance: each kernel function,
  run on whole staging memrefs (and, for the attention kernel, its three scratch buffers) holding
  given contents, reaches its continuation with the memrefs holding the contents the pure payload
  functions name. The projection body loads its two operand blocks and stores their product. The
  attention body resets the running state when the key/value tile index is 0, folds the key/value
  tile into the state when it is not above the diagonal, and stores the normalised weighted sum
  into the output block at the last key/value tile: the three conditions are decided from the grid
  point, and in each of the eight cases the body's loads read what the earlier stores of the same
  run left.
-/
import proofs.«418124_j83743272337485_3_alg».proof.Proof.KI.State
import proofs.«418124_j83743272337485_3_alg».proof.Proof.Gen.KernelIdeal.Launch
import proofs.«418124_j83743272337485_3_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Hand

variable {F : FTy → Type} [FloatOps F] [Named F]

local notation "𝕄" => MT nD τ sig Unit (Elt F) ℕ (UR sig nD τ) ℕ

/-- The offsets of a whole-buffer access are all zero (rank 2, rank 3). -/
theorem body_hz2 : (![0, 0] : Fin 2 → Nat) = fun _ => 0 := funext fun a => by fin_cases a <;> rfl
theorem body_hz3 : (![0, 0, 0] : Fin 3 → Nat) = fun _ => 0 := funext fun a => by fin_cases a <;> rfl

section Whole

variable {Val : EltTy → Type} {S : Shape} {e : EltTy}

/-- What a buffer reads after a list of stores the last of which is through the whole-shape
    rectangle at zero offsets: that store's payload, whatever the buffer held and whatever the
    earlier stores were. -/
theorem body_read_writes_cons_unit_zero [∀ e, Nonempty (Val e)] {sig : RefSig} {κ : Kind} {sp : Space}
    (v : View sig κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons.mpr (Or.inl rfl), View.mem_set_unit_zero h inb y⟩),
    View.canon_cons_unit_zero h]

/-- A load through that rectangle after such a list of stores reads the last store's payload. -/
theorem body_readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons.mpr (Or.inl rfl), View.mem_set_unit_zero h inb y⟩),
    View.canon_cons_unit_zero h, View.ld_unit_zero h]

end Whole

set_option maxHeartbeats 1000000 in
/-- The projection body: it loads the two operand blocks whole and stores their product, as the
    payload names it, over the whole output block. -/
theorem proj_body (c : Dev nD) (E : Set ℕ) (i : grid0.Coords)
    (arg1 : Memref sig .tc .vmem S512x1024 .f32) (harg1 : arg1.IsWhole) (arg2 : Memref sig .tc .vmem S1024x64 .f32) (harg2 : arg2.IsWhole)
    (arg3 : Memref sig .tc .vmem S512x64 .f32) (harg3 : arg3.IsWhole)
    (x : Vec F S512x1024 .f32) (w : Vec F S1024x64 .f32) (K : PUnit → sProp 𝕄) :
    iprop(owns (c : Thread nD τ) arg1 fullShare x ∗ owns (c : Thread nD τ) arg2 fullShare w ∗ (∃ d, owns (c : Thread nD τ) arg3 fullShare d)
        ∗ (iprop(owns (c : Thread nD τ) arg1 fullShare x ∗ owns (c : Thread nD τ) arg2 fullShare w ∗ owns (c : Thread nD τ) arg3 fullShare (k0_pay1 x w)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f1, %hf1, H1⟩, ⟨%f2, %hf2, H2⟩, ⟨%d3, %f3, -, H3⟩, Hk⟩
  obtain rfl := harg1.eq_unread hf1; obtain rfl := harg2.eq_unread hf2
  sl_exec
  sl_step
  iapply Hk
  isplitl [H1]
  · iexists _; isplitr; · ipureintro; exact harg1.read_unread _
    iexact H1
  isplitl [H2]
  · iexists _; isplitr; · ipureintro; exact harg2.read_unread _
    iexact H2
  iexists _; isplitr
  swap; · iexact H3
  ipureintro
  simp only [body_read_writes_cons_unit_zero (S := S512x64) _ _ body_hz2, View.readAt_eq_ld, Memref.IsWhole.read_unread,
    View.ld_unit_zero (S := S512x1024) body_hz2, View.ld_unit_zero (S := S1024x64) body_hz2]

/-- Reading back what a run of whole-buffer loads and stores left: the stored payloads, over the
    contents the loads read. -/
macro "body_close_read" : tactic => `(tactic| first
  | exact Memref.IsWhole.read_unread _ _
  | (try sl_unfold_words
     simp only [body_read_writes_cons_unit_zero (S := S256x1) _ _ body_hz2, body_read_writes_cons_unit_zero (S := S256x64) _ _ body_hz2,
      body_read_writes_cons_unit_zero (S := S1x256x64) _ _ body_hz3,
      body_readCov_cons_unit_zero (S := S256x1) _ body_hz2, body_readCov_cons_unit_zero (S := S256x64) _ body_hz2,
      body_readCov_cons_unit_zero (S := S1x256x64) _ body_hz3,
      View.readAt_eq_ld, Memref.IsWhole.read_unread,
      View.ld_unit_zero (S := S256x1) body_hz2, View.ld_unit_zero (S := S256x64) body_hz2, View.ld_unit_zero (S := S1x256x64) body_hz3]))

set_option maxHeartbeats 4000000 in
/-- The attention body at a grid point that resets the state, folds its key/value tile into it and stores the output block. -/
theorem attn_ttt (c : Dev nD) (E : Set ℕ) (i : grid1.Coords) (h1 : c1 i) (h2 : c2 i) (h3 : c3 i)
    (arg3 : Memref sig .tc .vmem S1x256x64 .f32) (harg3 : arg3.IsWhole) (arg4 : Memref sig .tc .vmem S1x256x64 .f32) (harg4 : arg4.IsWhole)
    (arg5 : Memref sig .tc .vmem S1x256x64 .f32) (harg5 : arg5.IsWhole)
    (arg6 : Memref sig .tc .vmem S256x1 .f32) (harg6 : arg6.IsWhole) (arg7 : Memref sig .tc .vmem S256x1 .f32) (harg7 : arg7.IsWhole)
    (arg8 : Memref sig .tc .vmem S256x64 .f32) (harg8 : arg8.IsWhole)
    (q kv o : Vec F S1x256x64 .f32) (m0 l0 : Vec F S256x1 .f32) (a0 : Vec F S256x64 .f32) (K : PUnit → sProp 𝕄) :
    iprop(owns (c : Thread nD τ) arg3 fullShare q ∗ owns (c : Thread nD τ) arg4 fullShare kv ∗ owns (c : Thread nD τ) arg5 fullShare o
        ∗ owns (c : Thread nD τ) arg6 fullShare m0 ∗ owns (c : Thread nD τ) arg7 fullShare l0 ∗ owns (c : Thread nD τ) arg8 fullShare a0
        ∗ (iprop(owns (c : Thread nD τ) arg3 fullShare q ∗ owns (c : Thread nD τ) arg4 fullShare kv
              ∗ owns (c : Thread nD τ) arg5 fullShare (k1_pay6 (k1_pay4 (k1_pay7 kv) (k1_pay10 (BitVec.ofNat 32 (i 1).val) (BitVec.ofNat 32 (i 2).val) q kv (k1_pay1 (F := F))) (k1_pay11 (BitVec.ofNat 32 (i 1).val) (BitVec.ofNat 32 (i 2).val) q kv (k1_pay1 (F := F))) (k1_pay3 (F := F))) (k1_pay12 (BitVec.ofNat 32 (i 1).val) (BitVec.ofNat 32 (i 2).val) q kv (k1_pay1 (F := F)) (k1_pay2 (F := F))))
              ∗ owns (c : Thread nD τ) arg6 fullShare (k1_pay5 (k1_pay9 (BitVec.ofNat 32 (i 1).val) (BitVec.ofNat 32 (i 2).val) q kv (k1_pay1 (F := F)))) ∗ owns (c : Thread nD τ) arg7 fullShare (k1_pay12 (BitVec.ofNat 32 (i 1).val) (BitVec.ofNat 32 (i 2).val) q kv (k1_pay1 (F := F)) (k1_pay2 (F := F)))
              ∗ owns (c : Thread nD τ) arg8 fullShare (k1_pay4 (k1_pay7 kv) (k1_pay10 (BitVec.ofNat 32 (i 1).val) (BitVec.ofNat 32 (i 2).val) q kv (k1_pay1 (F := F))) (k1_pay11 (BitVec.ofNat 32 (i 1).val) (BitVec.ofNat 32 (i 2).val) q kv (k1_pay1 (F := F))) (k1_pay3 (F := F)))) -∗ K ⟨⟩))
      ⊢ wp frame (wpE (defs₀ (F := F)) Variants.none c none) E
          (cc1_attn_kernel i arg3 harg3 arg4 harg4 arg5 harg5 arg6 harg6 arg7 harg7 arg8 harg8) K := by
  simp only [cc1_attn_kernel_eq_skeleton]; unfold cc1_attn_kernel_skel
  unfold owns
  iintro ⟨⟨%f3, %hf3, H3⟩, ⟨%f4, %hf4, H4⟩, ⟨%f5, %hf5, H5⟩, ⟨%fm, %hfm, HM⟩, ⟨%fl, %hfl, HL⟩, ⟨%fa, %hfa, HA⟩, Hk⟩
  obtain rfl := harg3.eq_unread hf3; obtain rfl := harg4.eq_unread hf4; obtain rfl := harg5.eq_unread hf5
  obtain rfl := harg6.eq_unread hfm; obtain rfl := harg7.eq_unread hfl; obtain rfl := harg8.eq_unread hfa
  sl_exec (disch := first | exact h1 | exact h2 | exact h3)
  sl_step
  iapply Hk
  isplitl [H3]
  · iexists _; isplitr
    swap; · iexact H3
    ipureintro; body_close_read
  isplitl [H4]
  · iexists _; isplitr
    swap; · iexact H4
    ipureintro; body_close_read
  isplitl [H5]
  · iexists _; isplitr
    swap; · iexact H5
    ipureintro; body_close_read
  isplitl [HM]
  · iexists _; isplitr
    swap; · iexact HM
    ipureintro; body_close_read
  isplitl [HL]
  · iexists _; isplitr
    swap; · iexact HL
    ipureintro; body_close_read
  iexists _; isplitr
  swap; · iexact HA
  ipureintro; body_close_read

set_option maxHeartbeats 4000000 in
/-- The attention body at a grid point that resets the state, folds its key/value tile into it and does not store the output block. -/
theorem attn_ttf (c : Dev nD) (E : Set ℕ) (i : grid1.Coords) (h1 : c1 i) (h2 : c2 i) (h3 : ¬ c3 i)
    (arg3 : Memref sig .tc .vmem S1x256x64 .f32) (harg3 : arg3.IsWhole) (arg4 : Memref sig .tc .vmem S1x256x64 .f32) (harg4 : arg4.IsWhole)
    (arg5 : Memref sig .tc .vmem S1x256x64 .f32) (harg5 : arg5.IsWhole)
    (arg6 : Memref sig .tc .vmem S256x1 .f32) (harg6 : arg6.IsWhole) (arg7 : Memref sig .tc .vmem S256x1 .f32) (harg7 : arg7.IsWhole)
    (arg8 : Memref sig .tc .vmem S256x64 .f32) (harg8 : arg8.IsWhole)
    (q kv o : Vec F S1x256x64 .f32) (m0 l0 : Vec F S256x1 .f32) (a0 : Vec F S256x64 .f32) (K : PUnit → sProp 𝕄) :
    iprop(owns (c : Thread nD τ) arg3 fullShare q ∗ owns (c : Thread nD τ) arg4 fullShare kv ∗ owns (c : Thread nD τ) arg5 fullShare o
        ∗ owns (c : Thread nD τ) arg6 fullShare m0 ∗ owns (c : Thread nD τ) arg7 fullShare l0 ∗ owns (c : Thread nD τ) arg8 fullShare a0
        ∗ (iprop(owns (c : Thread nD τ) arg3 fullShare q ∗ owns (c : Thread nD τ) arg4 fullShare kv
              ∗ owns (c : Thread nD τ) arg5 fullShare (o)
              ∗ owns (c : Thread nD τ) arg6 fullShare (k1_pay5 (k1_pay9 (BitVec.ofNat 32 (i 1).val) (BitVec.ofNat 32 (i 2).val) q kv (k1_pay1 (F := F)))) ∗ owns (c : Thread nD τ) arg7 fullShare (k1_pay12 (BitVec.ofNat 32 (i 1).val) (BitVec.ofNat 32 (i 2).val) q kv (k1_pay1 (F := F)) (k1_pay2 (F := F)))
              ∗ owns (c : Thread nD τ) arg8 fullShare (k1_pay4 (k1_pay7 kv) (k1_pay10 (BitVec.ofNat 32 (i 1).val) (BitVec.ofNat 32 (i 2).val) q kv (k1_pay1 (F := F))) (k1_pay11 (BitVec.ofNat 32 (i 1).val) (BitVec.ofNat 32 (i 2).val) q kv (k1_pay1 (F := F))) (k1_pay3 (F := F)))) -∗ K ⟨⟩))
      ⊢ wp frame (wpE (defs₀ (F := F)) Variants.none c none) E
          (cc1_attn_kernel i arg3 harg3 arg4 harg4 arg5 harg5 arg6 harg6 arg7 harg7 arg8 harg8) K := by
  simp only [cc1_attn_kernel_eq_skeleton]; unfold cc1_attn_kernel_skel
  unfold owns
  iintro ⟨⟨%f3, %hf3, H3⟩, ⟨%f4, %hf4, H4⟩, ⟨%f5, %hf5, H5⟩, ⟨%fm, %hfm, HM⟩, ⟨%fl, %hfl, HL⟩, ⟨%fa, %hfa, HA⟩, Hk⟩
  obtain rfl := harg3.eq_unread hf3; obtain rfl := harg4.eq_unread hf4; obtain rfl := harg5.eq_unread hf5
  obtain rfl := harg6.eq_unread hfm; obtain rfl := harg7.eq_unread hfl; obtain rfl := harg8.eq_unread hfa
  sl_exec (disch := first | exact h1 | exact h2 | exact h3)
  sl_step
  iapply Hk
  isplitl [H3]
  · iexists _; isplitr
    swap; · iexact H3
    ipureintro; body_close_read
  isplitl [H4]
  · iexists _; isplitr
    swap; · iexact H4
    ipureintro; body_close_read
  isplitl [H5]
  · iexists _; isplitr
    swap; · iexact H5
    ipureintro; body_close_read
  isplitl [HM]
  · iexists _; isplitr
    swap; · iexact HM
    ipureintro; body_close_read
  isplitl [HL]
  · iexists _; isplitr
    swap; · iexact HL
    ipureintro; body_close_read
  iexists _; isplitr
  swap; · iexact HA
  ipureintro; body_close_read

set_option maxHeartbeats 4000000 in
/-- The attention body at a grid point that resets the state, does not fold its key/value tile into it and stores the output block. -/
theorem attn_tft (c : Dev nD) (E : Set ℕ) (i : grid1.Coords) (h1 : c1 i) (h2 : ¬ c2 i) (h3 : c3 i)
    (arg3 : Memref sig .tc .vmem S1x256x64 .f32) (harg3 : arg3.IsWhole) (arg4 : Memref sig .tc .vmem S1x256x64 .f32) (harg4 : arg4.IsWhole)
    (arg5 : Memref sig .tc .vmem S1x256x64 .f32) (harg5 : arg5.IsWhole)
    (arg6 : Memref sig .tc .vmem S256x1 .f32) (harg6 : arg6.IsWhole) (arg7 : Memref sig .tc .vmem S256x1 .f32) (harg7 : arg7.IsWhole)
    (arg8 : Memref sig .tc .vmem S256x64 .f32) (harg8 : arg8.IsWhole)
    (q kv o : Vec F S1x256x64 .f32) (m0 l0 : Vec F S256x1 .f32) (a0 : Vec F S256x64 .f32) (K : PUnit → sProp 𝕄) :
    iprop(owns (c : Thread nD τ) arg3 fullShare q ∗ owns (c : Thread nD τ) arg4 fullShare kv ∗ owns (c : Thread nD τ) arg5 fullShare o
        ∗ owns (c : Thread nD τ) arg6 fullShare m0 ∗ owns (c : Thread nD τ) arg7 fullShare l0 ∗ owns (c : Thread nD τ) arg8 fullShare a0
        ∗ (iprop(owns (c : Thread nD τ) arg3 fullShare q ∗ owns (c : Thread nD τ) arg4 fullShare kv
              ∗ owns (c : Thread nD τ) arg5 fullShare (k1_pay6 (k1_pay3 (F := F)) (k1_pay2 (F := F)))
              ∗ owns (c : Thread nD τ) arg6 fullShare (k1_pay1 (F := F)) ∗ owns (c : Thread nD τ) arg7 fullShare (k1_pay2 (F := F))
              ∗ owns (c : Thread nD τ) arg8 fullShare (k1_pay3 (F := F))) -∗ K ⟨⟩))
      ⊢ wp frame (wpE (defs₀ (F := F)) Variants.none c none) E
          (cc1_attn_kernel i arg3 harg3 arg4 harg4 arg5 harg5 arg6 harg6 arg7 harg7 arg8 harg8) K := by
  simp only [cc1_attn_kernel_eq_skeleton]; unfold cc1_attn_kernel_skel
  unfold owns
  iintro ⟨⟨%f3, %hf3, H3⟩, ⟨%f4, %hf4, H4⟩, ⟨%f5, %hf5, H5⟩, ⟨%fm, %hfm, HM⟩, ⟨%fl, %hfl, HL⟩, ⟨%fa, %hfa, HA⟩, Hk⟩
  obtain rfl := harg3.eq_unread hf3; obtain rfl := harg4.eq_unread hf4; obtain rfl := harg5.eq_unread hf5
  obtain rfl := harg6.eq_unread hfm; obtain rfl := harg7.eq_unread hfl; obtain rfl := harg8.eq_unread hfa
  sl_exec (disch := first | exact h1 | exact h2 | exact h3)
  sl_step
  iapply Hk
  isplitl [H3]
  · iexists _; isplitr
    swap; · iexact H3
    ipureintro; body_close_read
  isplitl [H4]
  · iexists _; isplitr
    swap; · iexact H4
    ipureintro; body_close_read
  isplitl [H5]
  · iexists _; isplitr
    swap; · iexact H5
    ipureintro; body_close_read
  isplitl [HM]
  · iexists _; isplitr
    swap; · iexact HM
    ipureintro; body_close_read
  isplitl [HL]
  · iexists _; isplitr
    swap; · iexact HL
    ipureintro; body_close_read
  iexists _; isplitr
  swap; · iexact HA
  ipureintro; body_close_read

set_option maxHeartbeats 4000000 in
/-- The attention body at a grid point that resets the state, does not fold its key/value tile into it and does not store the output block. -/
theorem attn_tff (c : Dev nD) (E : Set ℕ) (i : grid1.Coords) (h1 : c1 i) (h2 : ¬ c2 i) (h3 : ¬ c3 i)
    (arg3 : Memref sig .tc .vmem S1x256x64 .f32) (harg3 : arg3.IsWhole) (arg4 : Memref sig .tc .vmem S1x256x64 .f32) (harg4 : arg4.IsWhole)
    (arg5 : Memref sig .tc .vmem S1x256x64 .f32) (harg5 : arg5.IsWhole)
    (arg6 : Memref sig .tc .vmem S256x1 .f32) (harg6 : arg6.IsWhole) (arg7 : Memref sig .tc .vmem S256x1 .f32) (harg7 : arg7.IsWhole)
    (arg8 : Memref sig .tc .vmem S256x64 .f32) (harg8 : arg8.IsWhole)
    (q kv o : Vec F S1x256x64 .f32) (m0 l0 : Vec F S256x1 .f32) (a0 : Vec F S256x64 .f32) (K : PUnit → sProp 𝕄) :
    iprop(owns (c : Thread nD τ) arg3 fullShare q ∗ owns (c : Thread nD τ) arg4 fullShare kv ∗ owns (c : Thread nD τ) arg5 fullShare o
        ∗ owns (c : Thread nD τ) arg6 fullShare m0 ∗ owns (c : Thread nD τ) arg7 fullShare l0 ∗ owns (c : Thread nD τ) arg8 fullShare a0
        ∗ (iprop(owns (c : Thread nD τ) arg3 fullShare q ∗ owns (c : Thread nD τ) arg4 fullShare kv
              ∗ owns (c : Thread nD τ) arg5 fullShare (o)
              ∗ owns (c : Thread nD τ) arg6 fullShare (k1_pay1 (F := F)) ∗ owns (c : Thread nD τ) arg7 fullShare (k1_pay2 (F := F))
              ∗ owns (c : Thread nD τ) arg8 fullShare (k1_pay3 (F := F))) -∗ K ⟨⟩))
      ⊢ wp frame (wpE (defs₀ (F := F)) Variants.none c none) E
          (cc1_attn_kernel i arg3 harg3 arg4 harg4 arg5 harg5 arg6 harg6 arg7 harg7 arg8 harg8) K := by
  simp only [cc1_attn_kernel_eq_skeleton]; unfold cc1_attn_kernel_skel
  unfold owns
  iintro ⟨⟨%f3, %hf3, H3⟩, ⟨%f4, %hf4, H4⟩, ⟨%f5, %hf5, H5⟩, ⟨%fm, %hfm, HM⟩, ⟨%fl, %hfl, HL⟩, ⟨%fa, %hfa, HA⟩, Hk⟩
  obtain rfl := harg3.eq_unread hf3; obtain rfl := harg4.eq_unread hf4; obtain rfl := harg5.eq_unread hf5
  obtain rfl := harg6.eq_unread hfm; obtain rfl := harg7.eq_unread hfl; obtain rfl := harg8.eq_unread hfa
  sl_exec (disch := first | exact h1 | exact h2 | exact h3)
  sl_step
  iapply Hk
  isplitl [H3]
  · iexists _; isplitr
    swap; · iexact H3
    ipureintro; body_close_read
  isplitl [H4]
  · iexists _; isplitr
    swap; · iexact H4
    ipureintro; body_close_read
  isplitl [H5]
  · iexists _; isplitr
    swap; · iexact H5
    ipureintro; body_close_read
  isplitl [HM]
  · iexists _; isplitr
    swap; · iexact HM
    ipureintro; body_close_read
  isplitl [HL]
  · iexists _; isplitr
    swap; · iexact HL
    ipureintro; body_close_read
  iexists _; isplitr
  swap; · iexact HA
  ipureintro; body_close_read

set_option maxHeartbeats 4000000 in
/-- The attention body at a grid point that does not reset the state, folds its key/value tile into it and stores the output block. -/
theorem attn_ftt (c : Dev nD) (E : Set ℕ) (i : grid1.Coords) (h1 : ¬ c1 i) (h2 : c2 i) (h3 : c3 i)
    (arg3 : Memref sig .tc .vmem S1x256x64 .f32) (harg3 : arg3.IsWhole) (arg4 : Memref sig .tc .vmem S1x256x64 .f32) (harg4 : arg4.IsWhole)
    (arg5 : Memref sig .tc .vmem S1x256x64 .f32) (harg5 : arg5.IsWhole)
    (arg6 : Memref sig .tc .vmem S256x1 .f32) (harg6 : arg6.IsWhole) (arg7 : Memref sig .tc .vmem S256x1 .f32) (harg7 : arg7.IsWhole)
    (arg8 : Memref sig .tc .vmem S256x64 .f32) (harg8 : arg8.IsWhole)
    (q kv o : Vec F S1x256x64 .f32) (m0 l0 : Vec F S256x1 .f32) (a0 : Vec F S256x64 .f32) (K : PUnit → sProp 𝕄) :
    iprop(owns (c : Thread nD τ) arg3 fullShare q ∗ owns (c : Thread nD τ) arg4 fullShare kv ∗ owns (c : Thread nD τ) arg5 fullShare o
        ∗ owns (c : Thread nD τ) arg6 fullShare m0 ∗ owns (c : Thread nD τ) arg7 fullShare l0 ∗ owns (c : Thread nD τ) arg8 fullShare a0
        ∗ (iprop(owns (c : Thread nD τ) arg3 fullShare q ∗ owns (c : Thread nD τ) arg4 fullShare kv
              ∗ owns (c : Thread nD τ) arg5 fullShare (k1_pay6 (k1_pay4 (k1_pay7 kv) (k1_pay10 (BitVec.ofNat 32 (i 1).val) (BitVec.ofNat 32 (i 2).val) q kv (m0)) (k1_pay11 (BitVec.ofNat 32 (i 1).val) (BitVec.ofNat 32 (i 2).val) q kv (m0)) (a0)) (k1_pay12 (BitVec.ofNat 32 (i 1).val) (BitVec.ofNat 32 (i 2).val) q kv (m0) (l0)))
              ∗ owns (c : Thread nD τ) arg6 fullShare (k1_pay5 (k1_pay9 (BitVec.ofNat 32 (i 1).val) (BitVec.ofNat 32 (i 2).val) q kv (m0))) ∗ owns (c : Thread nD τ) arg7 fullShare (k1_pay12 (BitVec.ofNat 32 (i 1).val) (BitVec.ofNat 32 (i 2).val) q kv (m0) (l0))
              ∗ owns (c : Thread nD τ) arg8 fullShare (k1_pay4 (k1_pay7 kv) (k1_pay10 (BitVec.ofNat 32 (i 1).val) (BitVec.ofNat 32 (i 2).val) q kv (m0)) (k1_pay11 (BitVec.ofNat 32 (i 1).val) (BitVec.ofNat 32 (i 2).val) q kv (m0)) (a0))) -∗ K ⟨⟩))
      ⊢ wp frame (wpE (defs₀ (F := F)) Variants.none c none) E
          (cc1_attn_kernel i arg3 harg3 arg4 harg4 arg5 harg5 arg6 harg6 arg7 harg7 arg8 harg8) K := by
  simp only [cc1_attn_kernel_eq_skeleton]; unfold cc1_attn_kernel_skel
  unfold owns
  iintro ⟨⟨%f3, %hf3, H3⟩, ⟨%f4, %hf4, H4⟩, ⟨%f5, %hf5, H5⟩, ⟨%fm, %hfm, HM⟩, ⟨%fl, %hfl, HL⟩, ⟨%fa, %hfa, HA⟩, Hk⟩
  obtain rfl := harg3.eq_unread hf3; obtain rfl := harg4.eq_unread hf4; obtain rfl := harg5.eq_unread hf5
  obtain rfl := harg6.eq_unread hfm; obtain rfl := harg7.eq_unread hfl; obtain rfl := harg8.eq_unread hfa
  sl_exec (disch := first | exact h1 | exact h2 | exact h3)
  sl_step
  iapply Hk
  isplitl [H3]
  · iexists _; isplitr
    swap; · iexact H3
    ipureintro; body_close_read
  isplitl [H4]
  · iexists _; isplitr
    swap; · iexact H4
    ipureintro; body_close_read
  isplitl [H5]
  · iexists _; isplitr
    swap; · iexact H5
    ipureintro; body_close_read
  isplitl [HM]
  · iexists _; isplitr
    swap; · iexact HM
    ipureintro; body_close_read
  isplitl [HL]
  · iexists _; isplitr
    swap; · iexact HL
    ipureintro; body_close_read
  iexists _; isplitr
  swap; · iexact HA
  ipureintro; body_close_read

set_option maxHeartbeats 4000000 in
/-- The attention body at a grid point that does not reset the state, folds its key/value tile into it and does not store the output block. -/
theorem attn_ftf (c : Dev nD) (E : Set ℕ) (i : grid1.Coords) (h1 : ¬ c1 i) (h2 : c2 i) (h3 : ¬ c3 i)
    (arg3 : Memref sig .tc .vmem S1x256x64 .f32) (harg3 : arg3.IsWhole) (arg4 : Memref sig .tc .vmem S1x256x64 .f32) (harg4 : arg4.IsWhole)
    (arg5 : Memref sig .tc .vmem S1x256x64 .f32) (harg5 : arg5.IsWhole)
    (arg6 : Memref sig .tc .vmem S256x1 .f32) (harg6 : arg6.IsWhole) (arg7 : Memref sig .tc .vmem S256x1 .f32) (harg7 : arg7.IsWhole)
    (arg8 : Memref sig .tc .vmem S256x64 .f32) (harg8 : arg8.IsWhole)
    (q kv o : Vec F S1x256x64 .f32) (m0 l0 : Vec F S256x1 .f32) (a0 : Vec F S256x64 .f32) (K : PUnit → sProp 𝕄) :
    iprop(owns (c : Thread nD τ) arg3 fullShare q ∗ owns (c : Thread nD τ) arg4 fullShare kv ∗ owns (c : Thread nD τ) arg5 fullShare o
        ∗ owns (c : Thread nD τ) arg6 fullShare m0 ∗ owns (c : Thread nD τ) arg7 fullShare l0 ∗ owns (c : Thread nD τ) arg8 fullShare a0
        ∗ (iprop(owns (c : Thread nD τ) arg3 fullShare q ∗ owns (c : Thread nD τ) arg4 fullShare kv
              ∗ owns (c : Thread nD τ) arg5 fullShare (o)
              ∗ owns (c : Thread nD τ) arg6 fullShare (k1_pay5 (k1_pay9 (BitVec.ofNat 32 (i 1).val) (BitVec.ofNat 32 (i 2).val) q kv (m0))) ∗ owns (c : Thread nD τ) arg7 fullShare (k1_pay12 (BitVec.ofNat 32 (i 1).val) (BitVec.ofNat 32 (i 2).val) q kv (m0) (l0))
              ∗ owns (c : Thread nD τ) arg8 fullShare (k1_pay4 (k1_pay7 kv) (k1_pay10 (BitVec.ofNat 32 (i 1).val) (BitVec.ofNat 32 (i 2).val) q kv (m0)) (k1_pay11 (BitVec.ofNat 32 (i 1).val) (BitVec.ofNat 32 (i 2).val) q kv (m0)) (a0))) -∗ K ⟨⟩))
      ⊢ wp frame (wpE (defs₀ (F := F)) Variants.none c none) E
          (cc1_attn_kernel i arg3 harg3 arg4 harg4 arg5 harg5 arg6 harg6 arg7 harg7 arg8 harg8) K := by
  simp only [cc1_attn_kernel_eq_skeleton]; unfold cc1_attn_kernel_skel
  unfold owns
  iintro ⟨⟨%f3, %hf3, H3⟩, ⟨%f4, %hf4, H4⟩, ⟨%f5, %hf5, H5⟩, ⟨%fm, %hfm, HM⟩, ⟨%fl, %hfl, HL⟩, ⟨%fa, %hfa, HA⟩, Hk⟩
  obtain rfl := harg3.eq_unread hf3; obtain rfl := harg4.eq_unread hf4; obtain rfl := harg5.eq_unread hf5
  obtain rfl := harg6.eq_unread hfm; obtain rfl := harg7.eq_unread hfl; obtain rfl := harg8.eq_unread hfa
  sl_exec (disch := first | exact h1 | exact h2 | exact h3)
  sl_step
  iapply Hk
  isplitl [H3]
  · iexists _; isplitr
    swap; · iexact H3
    ipureintro; body_close_read
  isplitl [H4]
  · iexists _; isplitr
    swap; · iexact H4
    ipureintro; body_close_read
  isplitl [H5]
  · iexists _; isplitr
    swap; · iexact H5
    ipureintro; body_close_read
  isplitl [HM]
  · iexists _; isplitr
    swap; · iexact HM
    ipureintro; body_close_read
  isplitl [HL]
  · iexists _; isplitr
    swap; · iexact HL
    ipureintro; body_close_read
  iexists _; isplitr
  swap; · iexact HA
  ipureintro; body_close_read

set_option maxHeartbeats 4000000 in
/-- The attention body at a grid point that does not reset the state, does not fold its key/value tile into it and stores the output block. -/
theorem attn_fft (c : Dev nD) (E : Set ℕ) (i : grid1.Coords) (h1 : ¬ c1 i) (h2 : ¬ c2 i) (h3 : c3 i)
    (arg3 : Memref sig .tc .vmem S1x256x64 .f32) (harg3 : arg3.IsWhole) (arg4 : Memref sig .tc .vmem S1x256x64 .f32) (harg4 : arg4.IsWhole)
    (arg5 : Memref sig .tc .vmem S1x256x64 .f32) (harg5 : arg5.IsWhole)
    (arg6 : Memref sig .tc .vmem S256x1 .f32) (harg6 : arg6.IsWhole) (arg7 : Memref sig .tc .vmem S256x1 .f32) (harg7 : arg7.IsWhole)
    (arg8 : Memref sig .tc .vmem S256x64 .f32) (harg8 : arg8.IsWhole)
    (q kv o : Vec F S1x256x64 .f32) (m0 l0 : Vec F S256x1 .f32) (a0 : Vec F S256x64 .f32) (K : PUnit → sProp 𝕄) :
    iprop(owns (c : Thread nD τ) arg3 fullShare q ∗ owns (c : Thread nD τ) arg4 fullShare kv ∗ owns (c : Thread nD τ) arg5 fullShare o
        ∗ owns (c : Thread nD τ) arg6 fullShare m0 ∗ owns (c : Thread nD τ) arg7 fullShare l0 ∗ owns (c : Thread nD τ) arg8 fullShare a0
        ∗ (iprop(owns (c : Thread nD τ) arg3 fullShare q ∗ owns (c : Thread nD τ) arg4 fullShare kv
              ∗ owns (c : Thread nD τ) arg5 fullShare (k1_pay6 (a0) (l0))
              ∗ owns (c : Thread nD τ) arg6 fullShare (m0) ∗ owns (c : Thread nD τ) arg7 fullShare (l0)
              ∗ owns (c : Thread nD τ) arg8 fullShare (a0)) -∗ K ⟨⟩))
      ⊢ wp frame (wpE (defs₀ (F := F)) Variants.none c none) E
          (cc1_attn_kernel i arg3 harg3 arg4 harg4 arg5 harg5 arg6 harg6 arg7 harg7 arg8 harg8) K := by
  simp only [cc1_attn_kernel_eq_skeleton]; unfold cc1_attn_kernel_skel
  unfold owns
  iintro ⟨⟨%f3, %hf3, H3⟩, ⟨%f4, %hf4, H4⟩, ⟨%f5, %hf5, H5⟩, ⟨%fm, %hfm, HM⟩, ⟨%fl, %hfl, HL⟩, ⟨%fa, %hfa, HA⟩, Hk⟩
  obtain rfl := harg3.eq_unread hf3; obtain rfl := harg4.eq_unread hf4; obtain rfl := harg5.eq_unread hf5
  obtain rfl := harg6.eq_unread hfm; obtain rfl := harg7.eq_unread hfl; obtain rfl := harg8.eq_unread hfa
  sl_exec (disch := first | exact h1 | exact h2 | exact h3)
  sl_step
  iapply Hk
  isplitl [H3]
  · iexists _; isplitr
    swap; · iexact H3
    ipureintro; body_close_read
  isplitl [H4]
  · iexists _; isplitr
    swap; · iexact H4
    ipureintro; body_close_read
  isplitl [H5]
  · iexists _; isplitr
    swap; · iexact H5
    ipureintro; body_close_read
  isplitl [HM]
  · iexists _; isplitr
    swap; · iexact HM
    ipureintro; body_close_read
  isplitl [HL]
  · iexists _; isplitr
    swap; · iexact HL
    ipureintro; body_close_read
  iexists _; isplitr
  swap; · iexact HA
  ipureintro; body_close_read

set_option maxHeartbeats 4000000 in
/-- The attention body at a grid point that does not reset the state, does not fold its key/value tile into it and does not store the output block. -/
theorem attn_fff (c : Dev nD) (E : Set ℕ) (i : grid1.Coords) (h1 : ¬ c1 i) (h2 : ¬ c2 i) (h3 : ¬ c3 i)
    (arg3 : Memref sig .tc .vmem S1x256x64 .f32) (harg3 : arg3.IsWhole) (arg4 : Memref sig .tc .vmem S1x256x64 .f32) (harg4 : arg4.IsWhole)
    (arg5 : Memref sig .tc .vmem S1x256x64 .f32) (harg5 : arg5.IsWhole)
    (arg6 : Memref sig .tc .vmem S256x1 .f32) (harg6 : arg6.IsWhole) (arg7 : Memref sig .tc .vmem S256x1 .f32) (harg7 : arg7.IsWhole)
    (arg8 : Memref sig .tc .vmem S256x64 .f32) (harg8 : arg8.IsWhole)
    (q kv o : Vec F S1x256x64 .f32) (m0 l0 : Vec F S256x1 .f32) (a0 : Vec F S256x64 .f32) (K : PUnit → sProp 𝕄) :
    iprop(owns (c : Thread nD τ) arg3 fullShare q ∗ owns (c : Thread nD τ) arg4 fullShare kv ∗ owns (c : Thread nD τ) arg5 fullShare o
        ∗ owns (c : Thread nD τ) arg6 fullShare m0 ∗ owns (c : Thread nD τ) arg7 fullShare l0 ∗ owns (c : Thread nD τ) arg8 fullShare a0
        ∗ (iprop(owns (c : Thread nD τ) arg3 fullShare q ∗ owns (c : Thread nD τ) arg4 fullShare kv
              ∗ owns (c : Thread nD τ) arg5 fullShare (o)
              ∗ owns (c : Thread nD τ) arg6 fullShare (m0) ∗ owns (c : Thread nD τ) arg7 fullShare (l0)
              ∗ owns (c : Thread nD τ) arg8 fullShare (a0)) -∗ K ⟨⟩))
      ⊢ wp frame (wpE (defs₀ (F := F)) Variants.none c none) E
          (cc1_attn_kernel i arg3 harg3 arg4 harg4 arg5 harg5 arg6 harg6 arg7 harg7 arg8 harg8) K := by
  simp only [cc1_attn_kernel_eq_skeleton]; unfold cc1_attn_kernel_skel
  unfold owns
  iintro ⟨⟨%f3, %hf3, H3⟩, ⟨%f4, %hf4, H4⟩, ⟨%f5, %hf5, H5⟩, ⟨%fm, %hfm, HM⟩, ⟨%fl, %hfl, HL⟩, ⟨%fa, %hfa, HA⟩, Hk⟩
  obtain rfl := harg3.eq_unread hf3; obtain rfl := harg4.eq_unread hf4; obtain rfl := harg5.eq_unread hf5
  obtain rfl := harg6.eq_unread hfm; obtain rfl := harg7.eq_unread hfl; obtain rfl := harg8.eq_unread hfa
  sl_exec (disch := first | exact h1 | exact h2 | exact h3)
  sl_step
  iapply Hk
  isplitl [H3]
  · iexists _; isplitr
    swap; · iexact H3
    ipureintro; body_close_read
  isplitl [H4]
  · iexists _; isplitr
    swap; · iexact H4
    ipureintro; body_close_read
  isplitl [H5]
  · iexists _; isplitr
    swap; · iexact H5
    ipureintro; body_close_read
  isplitl [HM]
  · iexists _; isplitr
    swap; · iexact HM
    ipureintro; body_close_read
  isplitl [HL]
  · iexists _; isplitr
    swap; · iexact HL
    ipureintro; body_close_read
  iexists _; isplitr
  swap; · iexact HA
  ipureintro; body_close_read

/-- The attention kernel's three scratch operands, as the pipeline passes them. -/
abbrev scM : Memref sig .tc .vmem S256x1 .f32 := Memref.whole cc1_scratch0
abbrev scL : Memref sig .tc .vmem S256x1 .f32 := Memref.whole cc1_scratch1
abbrev scA : Memref sig .tc .vmem S256x64 .f32 := Memref.whole cc1_scratch2

set_option maxHeartbeats 1000000 in
/-- The attention body at any grid point: the three conditions decided either way, the state the
    point leaves and the output block are the pure state functions' values. -/
theorem attn_body (c : Dev nD) (E : Set ℕ) (i : grid1.Coords)
    (arg3 : Memref sig .tc .vmem S1x256x64 .f32) (harg3 : arg3.IsWhole) (arg4 : Memref sig .tc .vmem S1x256x64 .f32) (harg4 : arg4.IsWhole)
    (arg5 : Memref sig .tc .vmem S1x256x64 .f32) (harg5 : arg5.IsWhole)
    (q kv o : Vec F S1x256x64 .f32) (s : St F) (K : PUnit → sProp 𝕄) :
    iprop(owns (c : Thread nD τ) arg3 fullShare q ∗ owns (c : Thread nD τ) arg4 fullShare kv ∗ owns (c : Thread nD τ) arg5 fullShare o
        ∗ owns (c : Thread nD τ) scM fullShare s.m ∗ owns (c : Thread nD τ) scL fullShare s.l ∗ owns (c : Thread nD τ) scA fullShare s.a
        ∗ (iprop(owns (c : Thread nD τ) arg3 fullShare q ∗ owns (c : Thread nD τ) arg4 fullShare kv
              ∗ owns (c : Thread nD τ) arg5 fullShare (if c3 i then stOut (stNext i q kv s) else o)
              ∗ owns (c : Thread nD τ) scM fullShare (stNext i q kv s).m ∗ owns (c : Thread nD τ) scL fullShare (stNext i q kv s).l
              ∗ owns (c : Thread nD τ) scA fullShare (stNext i q kv s).a) -∗ K ⟨⟩))
      ⊢ wp frame (wpE (defs₀ (F := F)) Variants.none c none) E
          (cc1_attn_kernel i arg3 harg3 arg4 harg4 arg5 harg5 scM (Memref.isWhole_whole _) scL (Memref.isWhole_whole _) scA (Memref.isWhole_whole _)) K := by
  by_cases h1 : c1 i <;> by_cases h2 : c2 i <;> by_cases h3 : c3 i
  · simp only [stNext, stA, stStep, stOut, stInit, if_pos h1, if_pos h2, if_pos h3]
    exact attn_ttt c E i h1 h2 h3 arg3 harg3 arg4 harg4 arg5 harg5 scM (Memref.isWhole_whole _) scL (Memref.isWhole_whole _) scA (Memref.isWhole_whole _) q kv o s.m s.l s.a K
  · simp only [stNext, stA, stStep, stOut, stInit, if_pos h1, if_pos h2, if_neg h3]
    exact attn_ttf c E i h1 h2 h3 arg3 harg3 arg4 harg4 arg5 harg5 scM (Memref.isWhole_whole _) scL (Memref.isWhole_whole _) scA (Memref.isWhole_whole _) q kv o s.m s.l s.a K
  · simp only [stNext, stA, stStep, stOut, stInit, if_pos h1, if_neg h2, if_pos h3]
    exact attn_tft c E i h1 h2 h3 arg3 harg3 arg4 harg4 arg5 harg5 scM (Memref.isWhole_whole _) scL (Memref.isWhole_whole _) scA (Memref.isWhole_whole _) q kv o s.m s.l s.a K
  · simp only [stNext, stA, stStep, stOut, stInit, if_pos h1, if_neg h2, if_neg h3]
    exact attn_tff c E i h1 h2 h3 arg3 harg3 arg4 harg4 arg5 harg5 scM (Memref.isWhole_whole _) scL (Memref.isWhole_whole _) scA (Memref.isWhole_whole _) q kv o s.m s.l s.a K
  · simp only [stNext, stA, stStep, stOut, stInit, if_neg h1, if_pos h2, if_pos h3]
    exact attn_ftt c E i h1 h2 h3 arg3 harg3 arg4 harg4 arg5 harg5 scM (Memref.isWhole_whole _) scL (Memref.isWhole_whole _) scA (Memref.isWhole_whole _) q kv o s.m s.l s.a K
  · simp only [stNext, stA, stStep, stOut, stInit, if_neg h1, if_pos h2, if_neg h3]
    exact attn_ftf c E i h1 h2 h3 arg3 harg3 arg4 harg4 arg5 harg5 scM (Memref.isWhole_whole _) scL (Memref.isWhole_whole _) scA (Memref.isWhole_whole _) q kv o s.m s.l s.a K
  · simp only [stNext, stA, stStep, stOut, stInit, if_neg h1, if_neg h2, if_pos h3]
    exact attn_fft c E i h1 h2 h3 arg3 harg3 arg4 harg4 arg5 harg5 scM (Memref.isWhole_whole _) scL (Memref.isWhole_whole _) scA (Memref.isWhole_whole _) q kv o s.m s.l s.a K
  · simp only [stNext, stA, stStep, stOut, stInit, if_neg h1, if_neg h2, if_neg h3]
    exact attn_fff c E i h1 h2 h3 arg3 harg3 arg4 harg4 arg5 harg5 scM (Memref.isWhole_whole _) scL (Memref.isWhole_whole _) scA (Memref.isWhole_whole _) q kv o s.m s.l s.a K

end Cert.KernelIdeal.Hand

end
-- ==== Proof.KI.Oblig.lean ====
/-
  The two kernel bodies meet the pipeline's obligation at every grid point: handed the windows' current buffers at
  their blocks and the invariant of the point, the body returns the buffers and the invariant of the next point.
  For the attention body the cases are the first point (scratch at anything, reset by the body) against a later
  one (scratch at what the point before left), and a point that stores the output block against one that
  leaves the output buffer as it found it.
-/
import proofs.«418124_j83743272337485_3_alg».proof.Proof.KI.Data
import proofs.«418124_j83743272337485_3_alg».proof.Proof.KI.Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

section Projection
variable (V : (c : Dev nD) → (b : Ref sig .tc) → Buf (Elt F) ((c : Thread nD τ).loc b))
/-- The body at any point: the inputs' buffers hold their blocks, so the body's triple applies; the invariant and
    what the core owes pass through untouched. -/
theorem sound_body0 (c : Dev nD) (t : Fin cfg0.N) :
    iprop((dat0 V c).Φ t.castSucc ∗ (dat0 V c).owesAt () t.castSucc
        ∗ (∃ d, owns (c : Thread nD τ) (st0_0 t) fullShare ((dat0 V c).before 0 t d))
        ∗ (∃ d, owns (c : Thread nD τ) (st0_1 t) fullShare ((dat0 V c).before 1 t d))
        ∗ (∃ d, owns (c : Thread nD τ) (st0_2 t) fullShare ((dat0 V c).before 2 t d)))
      ⊢ wp frame (wpE (defs₀ (F := F)) Variants.none c none) Set.univ (bodyAt0 t) (fun _ =>
          iprop((dat0 V c).Φ t.succ ∗ (dat0 V c).owesAt () t.succ
            ∗ owns (c : Thread nD τ) (st0_0 t) fullShare ((dat0 V c).after 0 t)
            ∗ owns (c : Thread nD τ) (st0_1 t) fullShare ((dat0 V c).after 1 t)
            ∗ owns (c : Thread nD τ) (st0_2 t) fullShare ((dat0 V c).after 2 t))) := by
  unfold bodyAt0
  simp only [dat0_before0, dat0_before1]
  rw [show (dat0 V c).Φ t.succ = (dat0 V c).Φ t.castSucc from rfl,
    show (dat0 V c).owesAt () t.succ = (dat0 V c).owesAt () t.castSucc from rfl,
    dat0_after0, dat0_after1, dat0_after2]
  iintro ⟨HΦ, Ho, ⟨%d0, H0⟩, ⟨%d1, H1⟩, ⟨%d2, H2⟩⟩
  iapply (proj_body c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body0 (c : Dev nD) : BodyObligation (dat0 (F := F) V c) (defs₀ (F := F)) Variants.none () Set.univ := fun t => by
  rw [bigSep_W0, bigSep_W0]
  exact sound_body0 V c t

end Projection

section AttentionBody

variable (V : (c : Dev nD) → (b : Ref sig .tc) → Buf (Elt F) ((c : Thread nD τ).loc b))

/-- The body's triple at a point that stores the output block, and at one that does not. -/
theorem attn_body_store (c : Dev nD) (E : Set ℕ) (i : grid1.Coords) (h3 : c3 i)
    (arg3 : Memref sig .tc .vmem S1x256x64 .f32) (harg3 : arg3.IsWhole) (arg4 : Memref sig .tc .vmem S1x256x64 .f32) (harg4 : arg4.IsWhole)
    (arg5 : Memref sig .tc .vmem S1x256x64 .f32) (harg5 : arg5.IsWhole)
    (q kv o : Vec F S1x256x64 .f32) (s : St F) (K : PUnit → sProp 𝕄) :
    iprop(owns (c : Thread nD τ) arg3 fullShare q ∗ owns (c : Thread nD τ) arg4 fullShare kv ∗ owns (c : Thread nD τ) arg5 fullShare o
        ∗ owns (c : Thread nD τ) scM fullShare s.m ∗ owns (c : Thread nD τ) scL fullShare s.l ∗ owns (c : Thread nD τ) scA fullShare s.a
        ∗ (iprop(owns (c : Thread nD τ) arg3 fullShare q ∗ owns (c : Thread nD τ) arg4 fullShare kv
              ∗ owns (c : Thread nD τ) arg5 fullShare (stOut (stNext i q kv s))
              ∗ owns (c : Thread nD τ) scM fullShare (stNext i q kv s).m ∗ owns (c : Thread nD τ) scL fullShare (stNext i q kv s).l
              ∗ owns (c : Thread nD τ) scA fullShare (stNext i q kv s).a) -∗ K ⟨⟩))
      ⊢ wp frame (wpE (defs₀ (F := F)) Variants.none c none) E
          (cc1_attn_kernel i arg3 harg3 arg4 harg4 arg5 harg5 scM (Memref.isWhole_whole _) scL (Memref.isWhole_whole _) scA (Memref.isWhole_whole _)) K := by
  have h := attn_body c E i arg3 harg3 arg4 harg4 arg5 harg5 q kv o s K
  rwa [if_pos h3] at h

theorem attn_body_idle (c : Dev nD) (E : Set ℕ) (i : grid1.Coords) (h3 : ¬c3 i)
    (arg3 : Memref sig .tc .vmem S1x256x64 .f32) (harg3 : arg3.IsWhole) (arg4 : Memref sig .tc .vmem S1x256x64 .f32) (harg4 : arg4.IsWhole)
    (arg5 : Memref sig .tc .vmem S1x256x64 .f32) (harg5 : arg5.IsWhole)
    (q kv o : Vec F S1x256x64 .f32) (s : St F) (K : PUnit → sProp 𝕄) :
    iprop(owns (c : Thread nD τ) arg3 fullShare q ∗ owns (c : Thread nD τ) arg4 fullShare kv ∗ owns (c : Thread nD τ) arg5 fullShare o
        ∗ owns (c : Thread nD τ) scM fullShare s.m ∗ owns (c : Thread nD τ) scL fullShare s.l ∗ owns (c : Thread nD τ) scA fullShare s.a
        ∗ (iprop(owns (c : Thread nD τ) arg3 fullShare q ∗ owns (c : Thread nD τ) arg4 fullShare kv
              ∗ owns (c : Thread nD τ) arg5 fullShare o
              ∗ owns (c : Thread nD τ) scM fullShare (stNext i q kv s).m ∗ owns (c : Thread nD τ) scL fullShare (stNext i q kv s).l
              ∗ owns (c : Thread nD τ) scA fullShare (stNext i q kv s).a) -∗ K ⟨⟩))
      ⊢ wp frame (wpE (defs₀ (F := F)) Variants.none c none) E
          (cc1_attn_kernel i arg3 harg3 arg4 harg4 arg5 harg5 scM (Memref.isWhole_whole _) scL (Memref.isWhole_whole _) scA (Memref.isWhole_whole _)) K := by
  have h := attn_body c E i arg3 harg3 arg4 harg4 arg5 harg5 q kv o s K
  rwa [if_neg h3] at h

theorem sAt_zero (c : Dev nD) (t : Fin cfg1.N) (hz : t.val = 0) (s : St F) :
    sAt V c t.val t.isLt = stNext (grid1.coords t) (blk1 V c 0 t) (blk1 V c 1 t) s := by
  have h1 : c1 (grid1.coords t) := (hc1 t).mpr (by omega)
  obtain ⟨n, hn⟩ := t
  cases n with
  | zero => exact stNext_of_c1 _ h1 _ _ _ _
  | succ n => exact absurd hz (Nat.succ_ne_zero n)

theorem Phi1_succ (c : Dev nD) (n : ℕ) (hn : n < cfg1.N) :
    Phi1 V c (n + 1) hn = inv1 c (owns (c : Thread nD τ) sM fullShare (sAt V c n hn).m) (owns (c : Thread nD τ) sL fullShare (sAt V c n hn).l)
      (owns (c : Thread nD τ) sA fullShare (sAt V c n hn).a) := rfl

set_option maxHeartbeats 1600000 in
/-- The body at any point: the inputs' buffers hold their blocks; the scratch holds what the point before left
    (anything at the first point, which resets it); the output buffer is stored exactly where the window is live. -/
theorem sound_body1 (c : Dev nD) (t : Fin cfg1.N) :
    iprop((dat1 V c).Φ t.castSucc ∗ (dat1 V c).owesAt () t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d)))
      ⊢ wp frame (wpE (defs₀ (F := F)) Variants.none c none) Set.univ (bodyAt1 t) (fun _ =>
          iprop((dat1 V c).Φ t.succ ∗ (dat1 V c).owesAt () t.succ
            ∗ (dat1 V c).leavesExact 0 t ∗ (dat1 V c).leavesExact 1 t ∗ (dat1 V c).leavesExact 2 t)) := by
  unfold bodyAt1
  simp only [dat1_before0, dat1_before1]
  rw [show (dat1 V c).owesAt () t.succ = (dat1 V c).owesAt () t.castSucc from rfl,
    show (dat1 V c).Φ t.succ = Phi1 V c (t.val + 1) t.isLt from rfl, Phi1_succ,
    show (dat1 V c).leavesExact 0 t = owns (c : Thread nD τ) (st1_0 t) fullShare ((dat1 V c).after 0 t) from rfl,
    show (dat1 V c).leavesExact 1 t = owns (c : Thread nD τ) (st1_1 t) fullShare ((dat1 V c).after 1 t) from rfl,
    dat1_after0, dat1_after1, dat1_Phi_castSucc]
  by_cases h3 : c3 (grid1.coords t)
  · rw [show (dat1 V c).leavesExact 2 t = owns (c : Thread nD τ) (st1_2 t) fullShare ((dat1 V c).after 2 t) from by
      unfold Dat.leavesExact; rw [live2 t h3], dat1_after2]
    have hz : t.val ≠ 0 := fun hz => by have := (hc3 t).mp h3; omega
    rw [Phi1_pos V c _ _ hz, sAt_pos V c t hz]
    unfold inv1
    iintro ⟨⟨⟨R1, R2, R3, R4, R5, HM, HL, HA⟩, Hg⟩, Ho, ⟨%d0, H0⟩, ⟨%d1, H1⟩, ⟨%d2, H2⟩⟩
    iapply (attn_body_store c Set.univ (grid1.coords t) h3 _ _ _ _ _ _ (blk1 V c 0 t) (blk1 V c 1 t) ((dat1 V c).before 2 t d2)
      (sAt V c (t.val - 1) (Nat.lt_of_le_of_lt (Nat.sub_le _ _) t.isLt)) _)
    isplitl [H0]; · iexact H0
    isplitl [H1]; · iexact H1
    isplitl [H2]; · iexact H2
    isplitl [HM]; · iexact HM
    isplitl [HL]; · iexact HL
    isplitl [HA]; · iexact HA
    iintro ⟨H0, H1, H2, HM, HL, HA⟩
    isplitl [R1 R2 R3 R4 R5 HM HL HA Hg]
    · isplitr [Hg]
      · isplitl [R1]; · iexact R1
        isplitl [R2]; · iexact R2
        isplitl [R3]; · iexact R3
        isplitl [R4]; · iexact R4
        isplitl [R5]; · iexact R5
        isplitl [HM]; · iexact HM
        isplitl [HL]; · iexact HL
        iexact HA
      · iexact Hg
    isplitl [Ho]; · iexact Ho
    isplitl [H0]; · iexact H0
    isplitl [H1]; · iexact H1
    iexact H2
  · rw [Dat.leavesExact_idle (dat1 V c) 2 t (idle2 t h3) (noflush2 t h3)]
    by_cases hz : t.val = 0
    · rw [show Phi1 V c t.val (Nat.le_of_lt t.isLt) = Pipeline.ΦA spec1 c from by
        obtain ⟨n, hn⟩ := t; cases n with
        | zero => rfl
        | succ n => exact absurd hz (Nat.succ_ne_zero n), PhiA1_eq]
      unfold inv1
      iintro ⟨⟨⟨R1, R2, R3, R4, R5, ⟨%dm, HM⟩, ⟨%dl, HL⟩, ⟨%da, HA⟩⟩, Hg⟩, Ho, ⟨%d0, H0⟩, ⟨%d1, H1⟩, ⟨%d2, H2⟩⟩
      rw [sAt_zero V c t hz ⟨dm, dl, da⟩]
      iapply (attn_body_idle c Set.univ (grid1.coords t) h3 _ _ _ _ _ _ (blk1 V c 0 t) (blk1 V c 1 t) ((dat1 V c).before 2 t d2)
        ⟨dm, dl, da⟩ _)
      isplitl [H0]; · iexact H0
      isplitl [H1]; · iexact H1
      isplitl [H2]; · iexact H2
      isplitl [HM]; · iexact HM
      isplitl [HL]; · iexact HL
      isplitl [HA]; · iexact HA
      iintro ⟨H0, H1, H2, HM, HL, HA⟩
      isplitl [R1 R2 R3 R4 R5 HM HL HA Hg]
      · isplitr [Hg]
        · isplitl [R1]; · iexact R1
          isplitl [R2]; · iexact R2
          isplitl [R3]; · iexact R3
          isplitl [R4]; · iexact R4
          isplitl [R5]; · iexact R5
          isplitl [HM]; · iexact HM
          isplitl [HL]; · iexact HL
          iexact HA
        · iexact Hg
      isplitl [Ho]; · iexact Ho
      isplitl [H0]; · iexact H0
      isplitl [H1]; · iexact H1
      iexists _; iexact H2
    · rw [Phi1_pos V c _ _ hz, sAt_pos V c t hz]
      unfold inv1
      iintro ⟨⟨⟨R1, R2, R3, R4, R5, HM, HL, HA⟩, Hg⟩, Ho, ⟨%d0, H0⟩, ⟨%d1, H1⟩, ⟨%d2, H2⟩⟩
      iapply (attn_body_idle c Set.univ (grid1.coords t) h3 _ _ _ _ _ _ (blk1 V c 0 t) (blk1 V c 1 t) ((dat1 V c).before 2 t d2)
        (sAt V c (t.val - 1) (Nat.lt_of_le_of_lt (Nat.sub_le _ _) t.isLt)) _)
      isplitl [H0]; · iexact H0
      isplitl [H1]; · iexact H1
      isplitl [H2]; · iexact H2
      isplitl [HM]; · iexact HM
      isplitl [HL]; · iexact HL
      isplitl [HA]; · iexact HA
      iintro ⟨H0, H1, H2, HM, HL, HA⟩
      isplitl [R1 R2 R3 R4 R5 HM HL HA Hg]
      · isplitr [Hg]
        · isplitl [R1]; · iexact R1
          isplitl [R2]; · iexact R2
          isplitl [R3]; · iexact R3
          isplitl [R4]; · iexact R4
          isplitl [R5]; · iexact R5
          isplitl [HM]; · iexact HM
          isplitl [HL]; · iexact HL
          iexact HA
        · iexact Hg
      isplitl [Ho]; · iexact Ho
      isplitl [H0]; · iexact H0
      isplitl [H1]; · iexact H1
      iexists _; iexact H2

theorem body1 (c : Dev nD) : BodyObligation (dat1 (F := F) V c) (defs₀ (F := F)) Variants.none () Set.univ := fun t => by
  rw [bigSep_W1, bigSep_W1]
  exact sound_body1 V c t

end AttentionBody

end Cert.KernelIdeal.Hand

end
-- ==== Proof.KI.Run.lean ====
/-
  The run of @main over its four items — reshape and transpose, the projection region, reshape, the attention
  region — from the launch memory: every weakly fair execution terminates, the result array ends at what the
  attention region's write-backs leave, the arguments as launched.
-/
import proofs.«418124_j83743272337485_3_alg».proof.Proof.KI.Oblig
import proofs.«418124_j83743272337485_3_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! The run of @main: two host stretches (a reshape and a transpose; a reshape) and the two kernel regions, in order.
    Between two items a core holds every unscoped buffer at a known valuation, its generator register at some state and
    owes nothing. The valuations fold through @main from the launch memory: a host stretch applies its operations, the
    projection region replaces `main_v2` by what its write-backs leave, the attention region `main_v4`. -/

variable (m : (ℓ : Loc nD τ sig) → Buf (Elt F) ℓ)

/-- The projection region's entry contents, read at the TensorCore's references. -/
abbrev E1 (c : Dev nD) (b : Ref sig .tc) : Buf (Elt F) ((c : Thread nD τ).loc b) := Gen.V1 m c b

/-- After the projection region: its arrays at what the pipeline leaves, every other buffer as entered. -/
def X2 (c : Dev nD) : Valuation τ sig (Elt F) :=
  Pipeline.withArrays spec0 c (Gen.V1 m c) fun w => (dat0 (E1 m) c).arrAt w cfg0.N
theorem X2_arr (c : Dev nD) (w : Fin cfg0.W) :
    X2 m c (Proc.devRef .tc (Pipeline.arrRef spec0 w)) = (dat0 (E1 m) c).arrAt w cfg0.N := by
  unfold X2; exact Pipeline.withArrays_arr spec0 launch0.win.arr_inj c _ _ w
theorem X2_of_ne (c : Dev nD) (b : Ref sig .tc) (hb : ∀ w, Pipeline.arrRef spec0 w ≠ b) :
    X2 m c (Proc.devRef .tc b) = Gen.V1 m c (Proc.devRef .tc b) := by
  unfold X2; exact Pipeline.withArrays_of_ne spec0 c _ _ b hb
abbrev E2 (c : Dev nD) (b : Ref sig .tc) : Buf (Elt F) ((c : Thread nD τ).loc b) := X2 m c b

/-- After the second host stretch: the attention region's entry contents. -/
abbrev X3 (c : Dev nD) : Valuation τ sig (Elt F) := StableHlo.after hostOps1 (X2 m c)
abbrev E3 (c : Dev nD) (b : Ref sig .tc) : Buf (Elt F) ((c : Thread nD τ).loc b) := X3 m c b

/-- What the attention region leaves in its output array. -/
abbrev out4 (c : Dev nD) : Buf (Elt F) ((c : Thread nD τ).loc main_v4) := (dat1 (E3 m) c).arrAt 2 cfg1.N

/-- After the attention region: `main_v4` at what its write-backs leave, every other buffer as entered. -/
def E4 (c : Dev nD) (b : Ref sig .tc) : Buf (Elt F) ((c : Thread nD τ).loc b) :=
  if h : b = main_v4 then h ▸ out4 m c else E3 m c b
theorem E4_v4 (c : Dev nD) : E4 m c main_v4 = out4 m c := by unfold E4; rw [dif_pos rfl]
theorem E4_of_ne (c : Dev nD) (b : Ref sig .tc) (h : b ≠ main_v4) : E4 m c b = E3 m c b := by unfold E4; rw [dif_neg h]

/-! ## The proof data family and the thread state -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => dat0 (E1 m) c
  | ⟨1, _⟩ => fun c => dat1 (E3 m) c

/-- No core owes another anything: no level is assigned. -/
abbrev L0 : GSem nD τ sig → Finset Unit := fun _ => ∅
abbrev lv0 : GSem nD τ sig → Unit → ℕ := fun _ _ => 0

/-- What rides beside the buffers through every item: the generator register at some state, nothing owed. -/
abbrev R (c : Dev nD) : sProp 𝕄 := iprop((∃ r, prngReg c r) ∗ ∃ W, owes (c : Thread nD τ) (0 : CellTallies nD τ sig Unit) W)

/-- A host stretch as a segment over every unscoped buffer. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L0 lv0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hF0 (c : Dev nD) (w : Fin cfg0.W) : (dat0 (E1 m) c).arrAt w cfg0.N = E2 m c (Pipeline.arrRef spec0 w) :=
  (X2_arr m c w).symm
theorem hrest0 (c : Dev nD) : ∀ b, b ∉ Finset.univ.image (Pipeline.arrRef spec0) → E2 m c b = E1 m c b :=
  fun b hb => X2_of_ne m c b fun w e => hb (Finset.mem_image.mpr ⟨w, Finset.mem_univ _, e⟩)

set_option backward.isDefEq.respectTransparency.types false in
/-- The projection region: entered from every unscoped buffer at the first stretch's result, left with `main_v2` at
    what the write-backs leave. Its arrays are split out of the unscoped buffers and put back; the generator
    register passes through the invariant. -/
def reg0 : Pipeline.RegionSeg (pcfgs (F := F)) Gen.adm (pdats m) () defs₀ Variants.none L0 lv0 0 where
  win := launch0.win.to₀
  block_pos := launch0.block_pos
  stage_whole := launch0.stage_whole
  K := PEmpty
  osem k := k.elim
  ho := Pipeline.OwnSemFacts.none _
  hbody c := (body0 (E1 m) c).loose
  hwaits := Pipeline.hwaits_of_owed_zero _ _ _ _ L0 lv0 0 fun _ _ => rfl
  pre c := iprop(StableHlo.held (c : Thread nD τ) (Pipeline.ucRefs τ sig) (Gen.V1 m c) ∗ R c)
  post c := iprop(StableHlo.held (c : Thread nD τ) (Pipeline.ucRefs τ sig) (X2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The attention region's arrays: one buffer behind two input windows

The query and key/value windows both read `main_v3`: the region holds that buffer once, at the full share, and the
pipeline's two windows each at one half of it. -/

theorem img1 : Finset.univ.image (Pipeline.arrRef spec1) = ({main_v3, main_v4} : Finset (Ref sig .tc)) := by decide

section Shared

variable (Vv : (c : Dev nD) → (b : Ref sig .tc) → Buf (Elt F) ((c : Thread nD τ).loc b))

/-- The buffers behind the windows' arrays, each whole, are the pipeline's arrays: `main_v3` split in halves. -/
theorem arrays1_split (c : Dev nD) (G : (w : Fin cfg1.W) → Buf (Elt F) ((cfg1.win w).arr.view.loc (c : Thread nD τ)))
    (Ve : (b : Ref sig .tc) → Buf (Elt F) ((c : Thread nD τ).loc b))
    (h0 : G 0 = Ve main_v3) (h1 : G 1 = Ve main_v3) (h2 : G 2 = Ve main_v4) :
    (Pipeline.arrBufs spec1 c Ve : sProp 𝕄) ⊢ (dat1 Vv c).arrays G := by
  unfold Pipeline.arrBufs Dat.arrays
  rw [img1, bigSep_insert (by decide), bigSep_singleton, bigSep_W1, h0, h1, h2]
  rw [(arr_whole1 0).set_eq_univ, (arr_whole1 2).set_eq_univ,
    show (dat1 Vv c).share 0 = fullShare.left from rfl, show (dat1 Vv c).share 1 = fullShare.right from rfl,
    show (dat1 Vv c).share 2 = fullShare from rfl]
  show (iprop((((c : Thread nD τ).loc main_v3) ↦{fullShare} Ve main_v3) ∗ (((c : Thread nD τ).loc main_v4) ↦{fullShare} Ve main_v4)) : sProp 𝕄) ⊢ _
  iintro ⟨H3, H4⟩
  ihave H := (pointsTo_share (PosShare.mem_left_op_right fullShare)).1 $$ H3
  icases H with ⟨Hl, Hr⟩
  isplitl [Hl]; · iexact Hl
  isplitl [Hr]; · iexact Hr
  iexact H4

/-- And back: the halves rejoin. -/
theorem arrays1_join (c : Dev nD) (G : (w : Fin cfg1.W) → Buf (Elt F) ((cfg1.win w).arr.view.loc (c : Thread nD τ)))
    (Ve : (b : Ref sig .tc) → Buf (Elt F) ((c : Thread nD τ).loc b))
    (h0 : G 0 = Ve main_v3) (h1 : G 1 = Ve main_v3) (h2 : G 2 = Ve main_v4) :
    (dat1 Vv c).arrays G ⊢ (Pipeline.arrBufs spec1 c Ve : sProp 𝕄) := by
  unfold Pipeline.arrBufs Dat.arrays
  rw [img1, bigSep_insert (by decide), bigSep_singleton, bigSep_W1, h0, h1, h2]
  rw [(arr_whole1 0).set_eq_univ, (arr_whole1 2).set_eq_univ,
    show (dat1 Vv c).share 0 = fullShare.left from rfl, show (dat1 Vv c).share 1 = fullShare.right from rfl,
    show (dat1 Vv c).share 2 = fullShare from rfl]
  show _ ⊢ (iprop((((c : Thread nD τ).loc main_v3) ↦{fullShare} Ve main_v3) ∗ (((c : Thread nD τ).loc main_v4) ↦{fullShare} Ve main_v4)) : sProp 𝕄)
  iintro ⟨Hl, Hr, H4⟩
  isplitl [Hl Hr]
  · iapply (pointsTo_share (PosShare.mem_left_op_right fullShare)).2
    isplitl [Hl]; · iexact Hl
    iexact Hr
  iexact H4

end Shared

/-- A core's unscoped buffers are the buffers behind the attention region's arrays and the rest. -/
theorem ubufs1 (c : Dev nD) (Ve : (b : Ref sig .tc) → Buf (Elt F) ((c : Thread nD τ).loc b)) :
    (unscopedBufs c Ve : sProp 𝕄) = iprop(Pipeline.arrBufs spec1 c Ve ∗ Pipeline.unscopedRest spec1 c Ve) :=
  Pipeline.unscopedBufs_split₀ cfgs 1 winFacts₀1.arr_unscoped c Ve

/-- Off `main_v4` the attention region changes no unscoped buffer. -/
theorem rest1_E4 (c : Dev nD) :
    (Pipeline.unscopedRest spec1 c (E4 m c) : sProp 𝕄) = Pipeline.unscopedRest spec1 c (E3 m c) := by
  unfold Pipeline.unscopedRest
  refine bigSep_congr fun b hb => ?_
  rw [E4_of_ne m c b fun e => (Finset.mem_sdiff.mp hb).2 (by rw [img1, e]; decide)]

/-- The last thread state, the core's `owes` apart: every unscoped buffer at the final contents, the generator register. -/
abbrev Tn (c : Dev nD) : sProp 𝕄 := iprop(unscopedBufs c (E4 m c) ∗ ∃ r, prngReg c r)

/-- What the attention region hands back after its last point: the scratch contents are forgotten. -/
theorem Phi1_out (c : Dev nD) (Vv : (c : Dev nD) → (b : Ref sig .tc) → Buf (Elt F) ((c : Thread nD τ).loc b)) (n : ℕ) (h : n ≤ cfg1.N) (hz : n ≠ 0) :
    Phi1 Vv c n h ⊢ (Pipeline.ΦA spec1 c : sProp 𝕄) := by
  rw [Phi1_pos Vv c n h hz, PhiA1_eq]; unfold inv1
  iintro ⟨⟨R1, R2, R3, R4, R5, HM, HL, HA⟩, Hg⟩
  isplitr [Hg]
  · isplitl [R1]; · iexact R1
    isplitl [R2]; · iexact R2
    isplitl [R3]; · iexact R3
    isplitl [R4]; · iexact R4
    isplitl [R5]; · iexact R5
    isplitl [HM]; · iexists _; iexact HM
    isplitl [HL]; · iexists _; iexact HL
    iexists _; iexact HA
  · iexact Hg

set_option backward.isDefEq.respectTransparency.types false in
/-- The attention region: entered from every unscoped buffer at the second stretch's result, left with `main_v4` at
    what the write-backs leave. `main_v3` enters the pipeline in two halves and comes back whole. -/
def reg1 : Pipeline.RegionSeg (pcfgs (F := F)) Gen.adm (pdats m) () defs₀ Variants.none L0 lv0 1 where
  win := winFacts₀1
  block_pos := block_pos1
  stage_whole := stage_whole1
  K := PEmpty
  osem k := k.elim
  ho := Pipeline.OwnSemFacts.none _
  hbody c := (body1 (E3 m) c).loose
  hwaits := Pipeline.hwaits_of_owed_zero _ _ _ _ L0 lv0 1 fun _ _ => rfl
  pre c := iprop(StableHlo.held (c : Thread nD τ) (Pipeline.ucRefs τ sig) (X3 m c) ∗ R c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none, ← Pipeline.unscopedBufs_held c (X3 m c), ubufs1 c (E3 m c)]
    iintro ⟨⟨⟨Hab, Hrest⟩, Hp, HO⟩, -, -⟩
    ihave Ha := (arrays1_split (E3 m) c ((pdats m 1 c).arrAt · 0) (E3 m c) rfl rfl rfl) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Phi1 (E3 m) c cfg1.N (le_refl _) from rfl]
    refine (Phi1_out c (E3 m) cfg1.N (le_refl _) (by have : cfg1.N = 256 := N_1; omega)).trans ?_
    unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest HY]
    · isplitl [Ha Hrest]
      · rw [ubufs1 c (E4 m c), rest1_E4]
        isplitl [Ha]
        · iapply (arrays1_join (E3 m) c ((pdats m 1 c).arrAt · cfg1.N) (E4 m c)
            (((pdats m 1 c).arrAt_in 0 rfl _).trans (E4_of_ne m c main_v3 (by decide)).symm)
            (((pdats m 1 c).arrAt_in 1 rfl _).trans (E4_of_ne m c main_v3 (by decide)).symm)
            (E4_v4 m c).symm)
          iexact Ha
        iexact Hrest
      iexact HY
    unfold Pipeline.Dat.owesAt Pipeline.owesWithin
    icases HO with ⟨%W, -, HO⟩; iexists W; iexact HO

/-! ## @main as its items, and the launch -/

/-- @main's four items in order. -/
abbrev items : List (Pipeline.Seg (pcfgs (F := F)) Gen.adm (pdats m) () defs₀ Variants.none L0 lv0) :=
  [ .host (hseg hostOps0 hostOps0_sub hostOps0_fresh (Gen.V0 m)),
    .region (reg0 m),
    .host (hseg hostOps1 hostOps1_sub hostOps1_fresh (X2 m)),
    .region (reg1 m) ]

theorem main_run (c : Dev nD) : main (F := F) c = Pipeline.Seg.run (items m) := (main_chain c).trans (by chain_rfl)

/-- The arguments reach the end as launched: no host operation writes one and no region's output is one. -/
theorem E4_arg0 (c : Dev nD) : E4 m c main_arg0 = m ((c : Thread nD τ).loc main_arg0) :=
  (E4_of_ne m c main_arg0 (by decide)).trans <|
    (StableHlo.after_of_writes_sub hostOps1 _ hostOps1_writes (by decide : main_arg0 ∉ hostOps1_W)).trans <|
      (X2_of_ne m c main_arg0 (by decide)).trans <| (Gen.V1_of m c main_arg0 (by decide)).trans rfl
theorem E4_arg1 (c : Dev nD) : E4 m c main_arg1 = m ((c : Thread nD τ).loc main_arg1) :=
  (E4_of_ne m c main_arg1 (by decide)).trans <|
    (StableHlo.after_of_writes_sub hostOps1 _ hostOps1_writes (by decide : main_arg1 ∉ hostOps1_W)).trans <|
      (X2_of_ne m c main_arg1 (by decide)).trans <| (Gen.V1_of m c main_arg1 (by decide)).trans rfl

set_option backward.isDefEq.respectTransparency.types false in
/-- THE RUN. From any memory with zero counters every weakly fair execution of @main terminates, nothing faulting, and
    every final state has the result array at what the attention region's write-backs leave and the arguments as launched. -/
theorem run_main (ρ : Dev nD → PrngReg) :
    θ_run defs (onTc (τ := τ) (main (F := F))) ⟨m, fun _ => 0, ρ⟩ (fun r => ∀ c : Dev nD,
      r.2.mem ((c.tc : Thread nD τ).loc main_v4) = out4 m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) Gen.adm (pdats m) () cellOf_inj emb₁ defs₀ Variants.none L0 lv0 m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tn m)
    (hch := ⟨fun _ => .rfl, fun _ => .rfl, fun _ => .rfl, fun _ => .rfl, fun _ => .rfl⟩)
    (hinit := by
      refine Pipeline.initEach L0 lv0 fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ (Finset.univ.filter fun b : Ref sig .tc => ¬ b.isScoped), s.mem ((c : Thread nD τ).loc b) = E4 m c b)
    (hfin := fun c s' => by
      iintro ⟨⟨Hh, -⟩, HSI⟩
      unfold unscopedBufs
      imodintro
      iapply (pointsTo_read_all (Finset.univ.filter fun b : Ref sig .tc => ¬ b.isScoped) (fun b => (c : Thread nD τ).loc b) (E4 m c) s')
      isplitl [Hh] <;> iassumption)
    (hQ := fun s h c =>
      ⟨(h c main_v4 (by decide)).trans (E4_v4 m c), (h c main_arg0 (by decide)).trans (E4_arg0 m c),
        (h c main_arg1 (by decide)).trans (E4_arg1 m c)⟩)

end Cert.KernelIdeal.Hand

end
-- ==== Proof.Spec.lean ====
/-
  Causal single-head attention with the query projection used as query, key and value:
  the value both programs compute, written once over the extended reals, and the two
  ways of arriving at it.

  For a row r of one batch, with masked scaled scores s c (c a column, s c = ⊥ above the
  diagonal) and values v c:
    * the direct softmax: weights exp (s c - M) / S with M the row maximum and S the sum of
      the exponentials, the result the weighted sum of the values (refOut);
    * the tile-by-tile recurrence over 8 tiles of 256 columns (m, l, a), each step rescaling
      the running sum l and the running weighted sum a by exp (m_old - m_new) (onl), the
      result a * (1 / l) (onlOut).
-/
import Idealize.ShloMosaic.PureOps.Ideal

noncomputable section

namespace Cert.Attn

open Idealize.ShloMosaic

/-- The score scale 1/32 = 1/sqrt 1024, as the binary32 word the kernel multiplies by. -/
abbrev scale : EReal := Ideal.ofBits .f32 0x3D000000#32

/-- The maximum of one tile's 256 scores (from ⊥). -/
def rowMax (s : Fin 256 → EReal) : EReal := (Finset.univ : Finset (Fin 256)).fold max ⊥ s

/-- The running maximum after a tile. -/
def stepM (m : EReal) (s : Fin 256 → EReal) : EReal := max m (rowMax s)

/-- The running sum of exponentials after a tile: the old sum rescaled to the new maximum, plus the tile's. -/
def stepL (m l : EReal) (s : Fin 256 → EReal) : EReal :=
  Ideal.exp (m - stepM m s) * l + ∑ j : Fin 256, Ideal.exp (s j - stepM m s)

/-- The running weighted sum of values after a tile. -/
def stepA (m a : EReal) (s v : Fin 256 → EReal) : EReal :=
  Ideal.exp (m - stepM m s) * a + ∑ j : Fin 256, Ideal.exp (s j - stepM m s) * v j

/-- Column j of tile k. -/
def col (k : Fin 8) (j : Fin 256) : Fin 2048 := ⟨256 * k.val + j.val, by omega⟩

/-- The recurrence's state (m, l, a) after the first n tiles of a row with scores s and values v. -/
def onl (s v : Fin 2048 → EReal) : ℕ → EReal × EReal × EReal
  | 0 => (⊥, 0, 0)
  | n + 1 =>
    if h : n < 8 then
      (stepM (onl s v n).1 (fun j => s (col ⟨n, h⟩ j)),
       stepL (onl s v n).1 (onl s v n).2.1 (fun j => s (col ⟨n, h⟩ j)),
       stepA (onl s v n).1 (onl s v n).2.2 (fun j => s (col ⟨n, h⟩ j)) (fun j => v (col ⟨n, h⟩ j)))
    else onl s v n

/-- What the recurrence returns after n tiles: the weighted sum times the reciprocal of the sum. -/
def onlOut (s v : Fin 2048 → EReal) (n : ℕ) : EReal := (onl s v n).2.2 * Ideal.div 1 (onl s v n).2.1

/-- The row maximum as the direct softmax takes it. -/
def refMax (s : Fin 2048 → EReal) : EReal := max ⊥ ((Finset.univ : Finset (Fin 2048)).fold max ⊥ s)

/-- The direct softmax-weighted sum of the values. -/
def refOut (s v : Fin 2048 → EReal) : EReal :=
  ∑ c : Fin 2048, Ideal.div (Ideal.exp (s c - refMax s)) (0 + ∑ c' : Fin 2048, Ideal.exp (s c' - refMax s)) * v c

/-- The projection: row l of batch b against weight row h. -/
def proj (x : Fin 4 → Fin 2048 → Fin 1024 → EReal) (w : Fin 64 → Fin 1024 → EReal) (b : Fin 4) (l : Fin 2048) (h : Fin 64) : EReal :=
  ∑ k : Fin 1024, x b l k * w h k

/-- Row r's masked scaled scores against every column: the scaled inner product on and below the diagonal, ⊥ above. -/
def msc (q : Fin 2048 → Fin 64 → EReal) (r c : Fin 2048) : EReal :=
  if c.val ≤ r.val then (∑ h : Fin 64, q r h * q c h) * scale else ⊥

/-- The attention output at row r, feature h, by the direct softmax. -/
def attnRef (q : Fin 2048 → Fin 64 → EReal) (r : Fin 2048) (h : Fin 64) : EReal :=
  refOut (msc q r) (fun c => q c h)

/-- The attention output at row r, feature h, by the recurrence over the tiles up to the diagonal's. -/
def attnOnl (q : Fin 2048 → Fin 64 → EReal) (r : Fin 2048) (h : Fin 64) : EReal :=
  onlOut (msc q r) (fun c => q c h) (r.val / 256 + 1)

end Cert.Attn

end
-- ==== Proof.KI.Payload.lean ====
/-
  The attention kernel's stored values read at one index, over the extended reals.

  For query row i of query tile qi and key/value tile ki, the masked scaled scores are
  sTile qi ki q kv i j = (sum over h of q i h * kv j h) * scale where the key's position
  256 * ki + j is at most the query's 256 * qi + i, and bottom elsewhere. With these, one fold
  of a tile into the state (m, l, a) of row i is the recurrence's step: the new maximum is
  max m (max over j of s j), the new sum exp (m - M) * l + sum over j of exp (s j - M), the new
  weighted sum exp (m - M) * a + sum over j of exp (s j - M) * kv j h; the reset state is
  (bottom, 0, 0); the output is a * (1 / l); and the projection is the sum over the model axis.

  Each statement is obtained by reading the pointwise operations at the index, the layout
  operations at explicit coordinates, a product as the sum over its one contracted axis, a lane
  reduction as the sum or the maximum along the row, and the mask's word comparison as the
  comparison of the two positions (which, below 2048, do not wrap).
-/
import proofs.«418124_j83743272337485_3_alg».proof.Proof.KI.State
import proofs.«418124_j83743272337485_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules
import Idealize.ShloMosaic.Lib.StableHlo.Predicate

noncomputable section

namespace Cert.KernelIdeal.HandV

open Idealize.ShloMosaic Idealize.ShloMosaic.ValueIdx Cert.KernelIdeal Cert.KernelIdeal.Gen Cert.KernelIdeal.Hand Cert.Attn

/-- The binary32 word of -infinity denotes the bottom of the extended reals. -/
theorem ofBits_neg_inf : Ideal.ofBits .f32 0xFF800000#32 = ⊥ := by
  simp [Ideal.ofBits, Ideal.ieee]

/-- The binary32 word of 1.0 denotes 1. -/
theorem ofBits_one : Ideal.ofBits .f32 0x3F800000#32 = 1 := by
  simp [Ideal.ofBits, Ideal.ieee, -EReal.coe_mul]; norm_num

theorem stInit_m (i : Fin 256) : (stInit (F := Ideal)).m (ix2 i (0 : Fin 1)) = ⊥ := by
  show (k1_pay1 (F := Ideal)) (ix2 i (0 : Fin 1)) = ⊥
  unfold k1_pay1
  rw [shapeCast_self]
  exact ofBits_neg_inf

theorem stInit_l (i : Fin 256) : (stInit (F := Ideal)).l (ix2 i (0 : Fin 1)) = 0 := by
  show (k1_pay2 (F := Ideal)) (ix2 i (0 : Fin 1)) = 0
  unfold k1_pay2
  rw [shapeCast_self]
  exact Ideal.ofBits_zero_f32

theorem stInit_a (i : Fin 256) (h : Fin 64) : (stInit (F := Ideal)).a (ix2 i h) = 0 := by
  show (k1_pay3 (F := Ideal)) (ix2 i h) = 0
  unfold k1_pay3
  rw [shapeCast_self]
  exact Ideal.ofBits_zero_f32

/-! ## The three products read at an index

Each is a sum over the one contracted axis; the operand indices are read off the dimension numbers, axis by axis. -/

/-! ### Scores: query rows against key rows, contracting the feature axis of both -/

theorem lhs_qk_0 (i : S256x256.Idx) (q : dot_S256x64_S256x64_S256x256_1_1_0_0_n_n.contr.Idx) :
    (dot_S256x64_S256x64_S256x256_1_1_0_0_n_n.lhsIdx i q 0).val = (i 0).val := by
  unfold DotDims.lhsIdx
  rw [dif_neg (show ¬(0 : Fin S256x64.rank) ∈ dot_S256x64_S256x64_S256x256_1_1_0_0_n_n.lhsBatch by decide), dif_pos (show (0 : Fin S256x64.rank) ∈ dot_S256x64_S256x64_S256x256_1_1_0_0_n_n.lhsNonContracting by decide)]
  rfl
theorem lhs_qk_1 (i : S256x256.Idx) (q : dot_S256x64_S256x64_S256x256_1_1_0_0_n_n.contr.Idx) :
    (dot_S256x64_S256x64_S256x256_1_1_0_0_n_n.lhsIdx i q 1).val = (q ⟨0, by decide⟩).val :=
  dot_S256x64_S256x64_S256x256_1_1_0_0_n_n.lhsIdx_val_of_single rfl i q
theorem rhs_qk_0 (i : S256x256.Idx) (q : dot_S256x64_S256x64_S256x256_1_1_0_0_n_n.contr.Idx) :
    (dot_S256x64_S256x64_S256x256_1_1_0_0_n_n.rhsIdx i q 0).val = (i 1).val := by
  unfold DotDims.rhsIdx
  rw [dif_neg (show ¬(0 : Fin S256x64.rank) ∈ dot_S256x64_S256x64_S256x256_1_1_0_0_n_n.rhsBatch by decide), dif_pos (show (0 : Fin S256x64.rank) ∈ dot_S256x64_S256x64_S256x256_1_1_0_0_n_n.rhsNonContracting by decide)]
  rfl
theorem rhs_qk_1 (i : S256x256.Idx) (q : dot_S256x64_S256x64_S256x256_1_1_0_0_n_n.contr.Idx) :
    (dot_S256x64_S256x64_S256x256_1_1_0_0_n_n.rhsIdx i q 1).val = (q ⟨0, by decide⟩).val :=
  dot_S256x64_S256x64_S256x256_1_1_0_0_n_n.rhsIdx_val_of_single rfl i q

/-- Entry (i, j) of the score product is the inner product of row i of the left operand and row j of the right. -/
theorem matmul_qk_apply (a b : FVec Ideal S256x64 .bf16) (i j : Fin 256) :
    matmul dot_S256x64_S256x64_S256x256_1_1_0_0_n_n none a b (constant (F := Ideal) S256x256 .f32 0x00000000#32) (ix2 i j)
      = ∑ h : Fin 64, a (ix2 i h) * b (ix2 j h) := by
  simp only [matmul]
  rw [Ideal.matmul_constant_zero_apply, ← Equiv.sum_comp (ValueIdx.contrEquiv1 dot_S256x64_S256x64_S256x256_1_1_0_0_n_n 64 rfl rfl).symm]
  refine Finset.sum_congr rfl fun k _ => ?_
  have hk := ValueIdx.contrEquiv1_symm_val dot_S256x64_S256x64_S256x256_1_1_0_0_n_n 64 rfl rfl k
  have el : dot_S256x64_S256x64_S256x256_1_1_0_0_n_n.lhsIdx (ix2 i j) ((ValueIdx.contrEquiv1 dot_S256x64_S256x64_S256x256_1_1_0_0_n_n 64 rfl rfl).symm k) = ix2 i k := funext fun a => Fin.ext (by
    match a with
    | ⟨0, _⟩ => exact lhs_qk_0 _ _
    | ⟨1, _⟩ => exact (lhs_qk_1 _ _).trans hk)
  have er : dot_S256x64_S256x64_S256x256_1_1_0_0_n_n.rhsIdx (ix2 i j) ((ValueIdx.contrEquiv1 dot_S256x64_S256x64_S256x256_1_1_0_0_n_n 64 rfl rfl).symm k) = ix2 j k := funext fun a => Fin.ext (by
    match a with
    | ⟨0, _⟩ => exact rhs_qk_0 _ _
    | ⟨1, _⟩ => exact (rhs_qk_1 _ _).trans hk)
  rw [el, er]

/-! ### Weights against values, contracting the key axis -/

theorem lhs_pv_0 (i : S256x64.Idx) (q : dot_S256x256_S256x64_S256x64_1_0_0_1_n_n.contr.Idx) :
    (dot_S256x256_S256x64_S256x64_1_0_0_1_n_n.lhsIdx i q 0).val = (i 0).val := by
  unfold DotDims.lhsIdx
  rw [dif_neg (show ¬(0 : Fin S256x256.rank) ∈ dot_S256x256_S256x64_S256x64_1_0_0_1_n_n.lhsBatch by decide), dif_pos (show (0 : Fin S256x256.rank) ∈ dot_S256x256_S256x64_S256x64_1_0_0_1_n_n.lhsNonContracting by decide)]
  rfl
theorem lhs_pv_1 (i : S256x64.Idx) (q : dot_S256x256_S256x64_S256x64_1_0_0_1_n_n.contr.Idx) :
    (dot_S256x256_S256x64_S256x64_1_0_0_1_n_n.lhsIdx i q 1).val = (q ⟨0, by decide⟩).val :=
  dot_S256x256_S256x64_S256x64_1_0_0_1_n_n.lhsIdx_val_of_single rfl i q
theorem rhs_pv_0 (i : S256x64.Idx) (q : dot_S256x256_S256x64_S256x64_1_0_0_1_n_n.contr.Idx) :
    (dot_S256x256_S256x64_S256x64_1_0_0_1_n_n.rhsIdx i q 0).val = (q ⟨0, by decide⟩).val :=
  dot_S256x256_S256x64_S256x64_1_0_0_1_n_n.rhsIdx_val_of_single rfl i q
theorem rhs_pv_1 (i : S256x64.Idx) (q : dot_S256x256_S256x64_S256x64_1_0_0_1_n_n.contr.Idx) :
    (dot_S256x256_S256x64_S256x64_1_0_0_1_n_n.rhsIdx i q 1).val = (i 1).val := by
  unfold DotDims.rhsIdx
  rw [dif_neg (show ¬(1 : Fin S256x64.rank) ∈ dot_S256x256_S256x64_S256x64_1_0_0_1_n_n.rhsBatch by decide), dif_pos (show (1 : Fin S256x64.rank) ∈ dot_S256x256_S256x64_S256x64_1_0_0_1_n_n.rhsNonContracting by decide)]
  rfl

/-- Entry (i, h) of the weights-times-values product is the sum over the tile's keys. -/
theorem matmul_pv_apply (p : FVec Ideal S256x256 .bf16) (v : FVec Ideal S256x64 .bf16) (i : Fin 256) (h : Fin 64) :
    matmul dot_S256x256_S256x64_S256x64_1_0_0_1_n_n none p v (constant (F := Ideal) S256x64 .f32 0x00000000#32) (ix2 i h)
      = ∑ j : Fin 256, p (ix2 i j) * v (ix2 j h) := by
  simp only [matmul]
  rw [Ideal.matmul_constant_zero_apply, ← Equiv.sum_comp (ValueIdx.contrEquiv1 dot_S256x256_S256x64_S256x64_1_0_0_1_n_n 256 rfl rfl).symm]
  refine Finset.sum_congr rfl fun k _ => ?_
  have hk := ValueIdx.contrEquiv1_symm_val dot_S256x256_S256x64_S256x64_1_0_0_1_n_n 256 rfl rfl k
  have el : dot_S256x256_S256x64_S256x64_1_0_0_1_n_n.lhsIdx (ix2 i h) ((ValueIdx.contrEquiv1 dot_S256x256_S256x64_S256x64_1_0_0_1_n_n 256 rfl rfl).symm k) = ix2 i k := funext fun a => Fin.ext (by
    match a with
    | ⟨0, _⟩ => exact lhs_pv_0 _ _
    | ⟨1, _⟩ => exact (lhs_pv_1 _ _).trans hk)
  have er : dot_S256x256_S256x64_S256x64_1_0_0_1_n_n.rhsIdx (ix2 i h) ((ValueIdx.contrEquiv1 dot_S256x256_S256x64_S256x64_1_0_0_1_n_n 256 rfl rfl).symm k) = ix2 k h := funext fun a => Fin.ext (by
    match a with
    | ⟨0, _⟩ => exact (rhs_pv_0 _ _).trans hk
    | ⟨1, _⟩ => exact rhs_pv_1 _ _)
  rw [el, er]

/-! ### The projection: rows against weight columns, contracting the model axis -/

theorem lhs_pj_0 (i : S512x64.Idx) (q : dot_S512x1024_S1024x64_S512x64_1_0_0_1_n_n.contr.Idx) :
    (dot_S512x1024_S1024x64_S512x64_1_0_0_1_n_n.lhsIdx i q 0).val = (i 0).val := by
  unfold DotDims.lhsIdx
  rw [dif_neg (show ¬(0 : Fin S512x1024.rank) ∈ dot_S512x1024_S1024x64_S512x64_1_0_0_1_n_n.lhsBatch by decide), dif_pos (show (0 : Fin S512x1024.rank) ∈ dot_S512x1024_S1024x64_S512x64_1_0_0_1_n_n.lhsNonContracting by decide)]
  rfl
theorem lhs_pj_1 (i : S512x64.Idx) (q : dot_S512x1024_S1024x64_S512x64_1_0_0_1_n_n.contr.Idx) :
    (dot_S512x1024_S1024x64_S512x64_1_0_0_1_n_n.lhsIdx i q 1).val = (q ⟨0, by decide⟩).val :=
  dot_S512x1024_S1024x64_S512x64_1_0_0_1_n_n.lhsIdx_val_of_single rfl i q
theorem rhs_pj_0 (i : S512x64.Idx) (q : dot_S512x1024_S1024x64_S512x64_1_0_0_1_n_n.contr.Idx) :
    (dot_S512x1024_S1024x64_S512x64_1_0_0_1_n_n.rhsIdx i q 0).val = (q ⟨0, by decide⟩).val :=
  dot_S512x1024_S1024x64_S512x64_1_0_0_1_n_n.rhsIdx_val_of_single rfl i q
theorem rhs_pj_1 (i : S512x64.Idx) (q : dot_S512x1024_S1024x64_S512x64_1_0_0_1_n_n.contr.Idx) :
    (dot_S512x1024_S1024x64_S512x64_1_0_0_1_n_n.rhsIdx i q 1).val = (i 1).val := by
  unfold DotDims.rhsIdx
  rw [dif_neg (show ¬(1 : Fin S1024x64.rank) ∈ dot_S512x1024_S1024x64_S512x64_1_0_0_1_n_n.rhsBatch by decide), dif_pos (show (1 : Fin S1024x64.rank) ∈ dot_S512x1024_S1024x64_S512x64_1_0_0_1_n_n.rhsNonContracting by decide)]
  rfl

/-- Entry (r, h) of the projection is the sum over the model axis. -/
theorem matmul_pj_apply (x : FVec Ideal S512x1024 .bf16) (w : FVec Ideal S1024x64 .bf16) (r : Fin 512) (h : Fin 64) :
    matmul dot_S512x1024_S1024x64_S512x64_1_0_0_1_n_n none x w (constant (F := Ideal) S512x64 .f32 0x00000000#32) (ix2 r h)
      = ∑ k : Fin 1024, x (ix2 r k) * w (ix2 k h) := by
  simp only [matmul]
  rw [Ideal.matmul_constant_zero_apply, ← Equiv.sum_comp (ValueIdx.contrEquiv1 dot_S512x1024_S1024x64_S512x64_1_0_0_1_n_n 1024 rfl rfl).symm]
  refine Finset.sum_congr rfl fun k _ => ?_
  have hk := ValueIdx.contrEquiv1_symm_val dot_S512x1024_S1024x64_S512x64_1_0_0_1_n_n 1024 rfl rfl k
  have el : dot_S512x1024_S1024x64_S512x64_1_0_0_1_n_n.lhsIdx (ix2 r h) ((ValueIdx.contrEquiv1 dot_S512x1024_S1024x64_S512x64_1_0_0_1_n_n 1024 rfl rfl).symm k) = ix2 r k := funext fun a => Fin.ext (by
    match a with
    | ⟨0, _⟩ => exact lhs_pj_0 _ _
    | ⟨1, _⟩ => exact (lhs_pj_1 _ _).trans hk)
  have er : dot_S512x1024_S1024x64_S512x64_1_0_0_1_n_n.rhsIdx (ix2 r h) ((ValueIdx.contrEquiv1 dot_S512x1024_S1024x64_S512x64_1_0_0_1_n_n 1024 rfl rfl).symm k) = ix2 k h := funext fun a => Fin.ext (by
    match a with
    | ⟨0, _⟩ => exact (rhs_pj_0 _ _).trans hk
    | ⟨1, _⟩ => exact rhs_pj_1 _ _)
  rw [el, er]

theorem proj_pay (x : Vec Ideal S512x1024 .f32) (w : Vec Ideal S1024x64 .f32) (r : Fin 512) (h : Fin 64) :
    k0_pay1 (F := Ideal) x w (ix2 r h) = ∑ k : Fin 1024, x (ix2 r k) * w (ix2 k h) := by
  unfold k0_pay1
  rw [shapeCast_self, shapeCast_self]
  exact matmul_pj_apply _ _ r h

/-! ## Layout operations at explicit coordinates -/

/-- A length-256 vector cast to a 256 × 1 column reads, at (i, 0), the vector at i. -/
theorem shapeCast_a_a1_apply {α : Type} (x : S256.Idx → α) (h : S256.ShapeCasts S256x1) (i : Fin 256) (u : Fin 1) :
    shapeCast S256x1 x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A 256 × 1 column broadcast to 256 × 256 reads, at (i, j), the column at (i, 0). -/
theorem broadcastTo_col_256_apply {α : Type} (v : S256x1.Idx → α) (h : S256x1.Broadcasts S256x256) (i j : Fin 256) :
    broadcastTo S256x256 v h (ix2 i j) = v (ix2 i (0 : Fin 1)) := by
  refine broadcastTo_apply v h (ix2 i j) (ix2 i (0 : Fin 1)) fun ax => ?_
  match ax with
  | ⟨0, _⟩ => rfl
  | ⟨1, _⟩ => rfl

/-- A 256 × 1 column broadcast to 256 × 64 reads, at (i, h), the column at (i, 0). -/
theorem broadcastTo_col_64_apply {α : Type} (v : S256x1.Idx → α) (hb : S256x1.Broadcasts S256x64) (i : Fin 256) (h : Fin 64) :
    broadcastTo S256x64 v hb (ix2 i h) = v (ix2 i (0 : Fin 1)) := by
  refine broadcastTo_apply v hb (ix2 i h) (ix2 i (0 : Fin 1)) fun ax => ?_
  match ax with
  | ⟨0, _⟩ => rfl
  | ⟨1, _⟩ => rfl

/-- The row counter of a 256 × 256 tile. -/
theorem iota0_apply (i j : Fin 256) : iota .tc S256x256 32 [0] iota_S256x256_d0_w32 (ix2 i j) = BitVec.ofNat 32 i.val :=
  iota_single_apply .tc S256x256 32 0 _ (ix2 i j)

/-- The column counter of a 256 × 256 tile. -/
theorem iota1_apply (i j : Fin 256) : iota .tc S256x256 32 [1] iota_S256x256_d1_w32 (ix2 i j) = BitVec.ofNat 32 j.val :=
  iota_single_apply .tc S256x256 32 1 _ (ix2 i j)

/-! ## The causal mask as words -/

/-- Tile index times 256 plus an offset below 256, computed in 32-bit words, does not wrap. -/
theorem tile_word_toNat (t o : ℕ) (ht : t < 8) (ho : o < 256) :
    (IntOp.addi (Scalar.muli (BitVec.ofNat 32 t) 256#32) (BitVec.ofNat 32 o)).toNat = 256 * t + o := by
  simp only [IntOp.addi, Scalar.muli, IntOp.muli, BitVec.toNat_add, BitVec.toNat_mul, BitVec.toNat_ofNat]
  omega

/-- The mask bit at (i, j) of tile pair (qi, ki) is set exactly when the key's global position is at most the query's. -/
theorem mask_word (qi ki i j : ℕ) (hq : qi < 8) (hk : ki < 8) (hi : i < 256) (hj : j < 256) :
    IntOp.cmpi .sle (IntOp.addi (Scalar.muli (BitVec.ofNat 32 ki) 256#32) (BitVec.ofNat 32 j))
        (IntOp.addi (Scalar.muli (BitVec.ofNat 32 qi) 256#32) (BitVec.ofNat 32 i)) = 1#1
      ↔ 256 * ki + j ≤ 256 * qi + i := by
  have ha := tile_word_toNat ki j hk hj
  have hb := tile_word_toNat qi i hq hi
  rw [StableHlo.Predicate.sle_iff_toNat (by omega) (by omega), ha, hb]

/-- The masking constant is named bottom by the certificate's table. -/
theorem neg_big_eq : Named.named (F := Ideal) κ "neg_big" (φ := .f32) 0xFF333332#32 = ⊥ :=
  IdealRules.named_const.ideal_named_scalar _ _ _ _ rfl

/-! ## The fold's stored values at an index -/

/-- The key/value tile as the products read it: the block with its unit axis dropped. -/
theorem pay7_apply (kv : Vec Ideal S1x256x64 .f32) (j : Fin 256) (h : Fin 64) :
    k1_pay7 (F := Ideal) kv (ix2 j h) = kv (ix3 (0 : Fin 1) j h) := by
  unfold k1_pay7
  exact shapeCast_1ab_ab_apply kv _ j h

/-- Query row i (of query tile qi) against key tile ki: the scaled inner products on and below the diagonal, ⊥ above. -/
def sTile (qi ki : ℕ) (q kv : Vec Ideal S1x256x64 .f32) (i : Fin 256) : Fin 256 → EReal :=
  fun j => if 256 * ki + j.val ≤ 256 * qi + i.val then (∑ h : Fin 64, q (ix3 (0 : Fin 1) i h) * kv (ix3 (0 : Fin 1) j h)) * scale else ⊥

/-- The masked scaled scores of one tile pair. -/
theorem pay8_apply (qi ki : ℕ) (hq : qi < 8) (hk : ki < 8) (q kv : Vec Ideal S1x256x64 .f32) (i j : Fin 256) :
    k1_pay8 (F := Ideal) (BitVec.ofNat 32 qi) (BitVec.ofNat 32 ki) q kv (ix2 i j) = sTile qi ki q kv i j := by
  unfold k1_pay8
  show Scalar.select (IntOp.cmpi .sle
          (IntOp.addi (Scalar.muli (BitVec.ofNat 32 ki) 256#32) (iota .tc S256x256 32 [1] iota_S256x256_d1_w32 (ix2 i j)))
          (IntOp.addi (Scalar.muli (BitVec.ofNat 32 qi) 256#32) (iota .tc S256x256 32 [0] iota_S256x256_d0_w32 (ix2 i j))))
        (matmul dot_S256x64_S256x64_S256x256_1_1_0_0_n_n none
            (truncf .bf16 (shapeCast S256x64 q shapeCasts_S1x256x64_S256x64) bitsLt_bf16_f32) (k1_pay7 (F := Ideal) kv)
            (constant (F := Ideal) S256x256 .f32 0x00000000#32) (ix2 i j) * scale)
        (Named.named (F := Ideal) κ "neg_big" (φ := .f32) 0xFF333332#32) = sTile qi ki q kv i j
  rw [iota0_apply, iota1_apply, matmul_qk_apply, neg_big_eq]
  unfold sTile
  by_cases hc : 256 * ki + j.val ≤ 256 * qi + i.val
  · rw [if_pos hc, (mask_word qi ki i.val j.val hq hk i.isLt j.isLt).mpr hc, select_one]
    refine congrArg (· * scale) (Finset.sum_congr rfl fun h _ => ?_)
    rw [pay7_apply]
    exact congrArg (· * kv (ix3 (0 : Fin 1) j h)) (shapeCast_1ab_ab_apply q _ i h)
  · have hz := eq_zero_of_ne_one (fun hb => hc ((mask_word qi ki i.val j.val hq hk i.isLt j.isLt).mp hb))
    rw [if_neg hc, hz, select_zero]

/-! ## The lane reductions of a 256 × 256 tile, row by row -/

/-- The source index of row i at column j, as the one-axis reduction names it. -/
theorem lift_row (hr : S256x256.Reduces [1] S256) (i j : Fin 256) : hr.lift (ix1 i) j = ix2 i j := by
  funext a
  apply Fin.ext
  match a with
  | ⟨0, _⟩ => rfl
  | ⟨1, _⟩ => rfl

/-- The maximum along a row, from -infinity. -/
theorem rowMax_apply (src : FVec Ideal S256x256 .f32) (hφ : FKind.Formats .f32)
    (hacc : (0xFF800000#32 : BitVec 32) = FKind.maximumf.neutral .f32 hφ) (i : Fin 256) :
    multiReduction (F := Ideal) .maximumf [1] S256 src 0xFF800000#32 reduces_S256x256_S256 hφ hacc (ix1 i)
      = rowMax (fun j => src (ix2 i j)) := by
  refine (Ideal.multiReduction_maximumf_single src _ reduces_S256x256_S256 hφ hacc (ix1 i)).trans ?_
  unfold rowMax
  show (Finset.univ : Finset (Fin 256)).fold max (Ideal.ofBits .f32 0xFF800000#32)
      (fun j => src (reduces_S256x256_S256.lift (ix1 i) j)) = _
  rw [ofBits_neg_inf]
  exact congrArg (fun f => (Finset.univ : Finset (Fin 256)).fold max ⊥ f) (funext fun j => congrArg src (lift_row _ i j))

/-- The sum along a row. -/
theorem rowSum_apply (src : FVec Ideal S256x256 .f32) (hφ : FKind.Formats .f32)
    (hacc : (0x00000000#32 : BitVec 32) = FKind.add.neutral .f32 hφ) (i : Fin 256) :
    multiReduction (F := Ideal) .add [1] S256 src 0x00000000#32 reduces_S256x256_S256 hφ hacc (ix1 i)
      = ∑ j : Fin 256, src (ix2 i j) := by
  refine (Ideal.multiReduction_add_single src _ reduces_S256x256_S256 hφ hacc (ix1 i)).trans ?_
  show ∑ j : Fin 256, src (reduces_S256x256_S256.lift (ix1 i) j) = _
  exact Finset.sum_congr rfl fun j _ => congrArg src (lift_row _ i j)

/-! ## The running maximum, the rescaling factor, the weights, the running sum, the running weighted sum -/

theorem pay9_apply (qi ki : ℕ) (hq : qi < 8) (hk : ki < 8) (q kv : Vec Ideal S1x256x64 .f32) (m : Vec Ideal S256x1 .f32) (i : Fin 256) :
    k1_pay9 (F := Ideal) (BitVec.ofNat 32 qi) (BitVec.ofNat 32 ki) q kv m (ix2 i (0 : Fin 1))
      = stepM (m (ix2 i (0 : Fin 1))) (sTile qi ki q kv i) := by
  unfold k1_pay9 stepM
  show max (m (ix2 i (0 : Fin 1)))
      (shapeCast S256x1 (multiReduction (F := Ideal) .maximumf [1] S256
        (k1_pay8 (F := Ideal) (BitVec.ofNat 32 qi) (BitVec.ofNat 32 ki) q kv) 0xFF800000#32 reduces_S256x256_S256 (.inl rfl) rfl)
        shapeCasts_S256_S256x1 (ix2 i (0 : Fin 1))) = _
  refine congrArg (max (m (ix2 i (0 : Fin 1)))) ?_
  refine (shapeCast_a_a1_apply _ _ i 0).trans ?_
  refine (rowMax_apply _ _ _ i).trans ?_
  exact congrArg rowMax (funext fun j => pay8_apply qi ki hq hk q kv i j)

theorem pay10_apply (qi ki : ℕ) (hq : qi < 8) (hk : ki < 8) (q kv : Vec Ideal S1x256x64 .f32) (m : Vec Ideal S256x1 .f32) (i : Fin 256) :
    k1_pay10 (F := Ideal) (BitVec.ofNat 32 qi) (BitVec.ofNat 32 ki) q kv m (ix2 i (0 : Fin 1))
      = Ideal.exp (m (ix2 i (0 : Fin 1)) - stepM (m (ix2 i (0 : Fin 1))) (sTile qi ki q kv i)) := by
  unfold k1_pay10
  show Ideal.exp (m (ix2 i (0 : Fin 1)) - k1_pay9 (F := Ideal) (BitVec.ofNat 32 qi) (BitVec.ofNat 32 ki) q kv m (ix2 i (0 : Fin 1))) = _
  rw [pay9_apply qi ki hq hk]

theorem pay11_apply (qi ki : ℕ) (hq : qi < 8) (hk : ki < 8) (q kv : Vec Ideal S1x256x64 .f32) (m : Vec Ideal S256x1 .f32) (i j : Fin 256) :
    k1_pay11 (F := Ideal) (BitVec.ofNat 32 qi) (BitVec.ofNat 32 ki) q kv m (ix2 i j)
      = Ideal.exp (sTile qi ki q kv i j - stepM (m (ix2 i (0 : Fin 1))) (sTile qi ki q kv i)) := by
  unfold k1_pay11
  show Ideal.exp (k1_pay8 (F := Ideal) (BitVec.ofNat 32 qi) (BitVec.ofNat 32 ki) q kv (ix2 i j)
      - broadcastTo S256x256 (k1_pay9 (F := Ideal) (BitVec.ofNat 32 qi) (BitVec.ofNat 32 ki) q kv m) broadcasts_S256x1_S256x256 (ix2 i j)) = _
  rw [pay8_apply qi ki hq hk, broadcastTo_col_256_apply, pay9_apply qi ki hq hk]

theorem pay12_apply (qi ki : ℕ) (hq : qi < 8) (hk : ki < 8) (q kv : Vec Ideal S1x256x64 .f32) (m l : Vec Ideal S256x1 .f32) (i : Fin 256) :
    k1_pay12 (F := Ideal) (BitVec.ofNat 32 qi) (BitVec.ofNat 32 ki) q kv m l (ix2 i (0 : Fin 1))
      = stepL (m (ix2 i (0 : Fin 1))) (l (ix2 i (0 : Fin 1))) (sTile qi ki q kv i) := by
  unfold k1_pay12
  rw [shapeCast_self]
  show k1_pay10 (F := Ideal) (BitVec.ofNat 32 qi) (BitVec.ofNat 32 ki) q kv m (ix2 i (0 : Fin 1)) * l (ix2 i (0 : Fin 1))
      + shapeCast S256x1 (multiReduction (F := Ideal) .add [1] S256
          (k1_pay11 (F := Ideal) (BitVec.ofNat 32 qi) (BitVec.ofNat 32 ki) q kv m) 0x00000000#32 reduces_S256x256_S256 (.inl rfl) rfl)
          shapeCasts_S256_S256x1 (ix2 i (0 : Fin 1)) = _
  rw [pay10_apply qi ki hq hk, shapeCast_a_a1_apply]
  unfold stepL
  refine congrArg (Ideal.exp (m (ix2 i (0 : Fin 1)) - stepM (m (ix2 i (0 : Fin 1))) (sTile qi ki q kv i)) * l (ix2 i (0 : Fin 1)) + ·) ?_
  refine (rowSum_apply _ _ _ i).trans ?_
  exact Finset.sum_congr rfl fun j _ => pay11_apply qi ki hq hk q kv m i j

/-- The weighted sum's update, over whatever factor, weights and values it is given. -/
theorem pay4_apply (v14 : FVec Ideal S256x64 .bf16) (v34 : FVec Ideal S256x1 .f32) (v37 : FVec Ideal S256x256 .f32)
    (v46 : Vec Ideal S256x64 .f32) (i : Fin 256) (h : Fin 64) :
    k1_pay4 (F := Ideal) v14 v34 v37 v46 (ix2 i h)
      = v34 (ix2 i (0 : Fin 1)) * v46 (ix2 i h) + ∑ j : Fin 256, v37 (ix2 i j) * v14 (ix2 j h) := by
  unfold k1_pay4
  rw [shapeCast_self]
  show broadcastTo S256x64 v34 broadcasts_S256x1_S256x64 (ix2 i h) * v46 (ix2 i h)
      + matmul dot_S256x256_S256x64_S256x64_1_0_0_1_n_n none (truncf .bf16 v37 bitsLt_bf16_f32) v14
          (constant (F := Ideal) S256x64 .f32 0x00000000#32) (ix2 i h) = _
  rw [broadcastTo_col_64_apply, matmul_pv_apply]
  rfl

/-! ## The state's three components after a reset, after a fold, and the output -/

theorem stStep_m (qi ki : ℕ) (hq : qi < 8) (hk : ki < 8) (q kv : Vec Ideal S1x256x64 .f32) (s : St Ideal) (i : Fin 256) :
    (stStep (BitVec.ofNat 32 qi) (BitVec.ofNat 32 ki) q kv s).m (ix2 i (0 : Fin 1)) = stepM (s.m (ix2 i (0 : Fin 1))) (sTile qi ki q kv i) := by
  show k1_pay5 (F := Ideal) (k1_pay9 (F := Ideal) (BitVec.ofNat 32 qi) (BitVec.ofNat 32 ki) q kv s.m) (ix2 i (0 : Fin 1)) = _
  unfold k1_pay5
  rw [shapeCast_self]
  exact pay9_apply qi ki hq hk q kv s.m i

theorem stStep_l (qi ki : ℕ) (hq : qi < 8) (hk : ki < 8) (q kv : Vec Ideal S1x256x64 .f32) (s : St Ideal) (i : Fin 256) :
    (stStep (BitVec.ofNat 32 qi) (BitVec.ofNat 32 ki) q kv s).l (ix2 i (0 : Fin 1)) = stepL (s.m (ix2 i (0 : Fin 1))) (s.l (ix2 i (0 : Fin 1))) (sTile qi ki q kv i) :=
  pay12_apply qi ki hq hk q kv s.m s.l i

theorem stStep_a (qi ki : ℕ) (hq : qi < 8) (hk : ki < 8) (q kv : Vec Ideal S1x256x64 .f32) (s : St Ideal) (i : Fin 256) (h : Fin 64) :
    (stStep (BitVec.ofNat 32 qi) (BitVec.ofNat 32 ki) q kv s).a (ix2 i h) = stepA (s.m (ix2 i (0 : Fin 1))) (s.a (ix2 i h)) (sTile qi ki q kv i) (fun j => kv (ix3 (0 : Fin 1) j h)) := by
  show k1_pay4 (F := Ideal) (k1_pay7 (F := Ideal) kv) (k1_pay10 (F := Ideal) (BitVec.ofNat 32 qi) (BitVec.ofNat 32 ki) q kv s.m)
      (k1_pay11 (F := Ideal) (BitVec.ofNat 32 qi) (BitVec.ofNat 32 ki) q kv s.m) s.a (ix2 i h) = _
  rw [pay4_apply, pay10_apply qi ki hq hk]
  unfold stepA
  refine congrArg (Ideal.exp (s.m (ix2 i (0 : Fin 1)) - stepM (s.m (ix2 i (0 : Fin 1))) (sTile qi ki q kv i)) * s.a (ix2 i h) + ·) ?_
  refine Finset.sum_congr rfl fun j _ => ?_
  rw [pay11_apply qi ki hq hk, pay7_apply]

theorem stOut_apply (s : St Ideal) (i : Fin 256) (h : Fin 64) :
    stOut s (ix3 (0 : Fin 1) i h) = s.a (ix2 i h) * Ideal.div 1 (s.l (ix2 i (0 : Fin 1))) := by
  show k1_pay6 (F := Ideal) s.a s.l (ix3 (0 : Fin 1) i h) = _
  unfold k1_pay6
  refine (shapeCast_ab_1ab_apply _ _ (0 : Fin 1) i h).trans ?_
  show s.a (ix2 i h) * broadcastTo S256x64 (divf (broadcast S256x1 (Ideal.ofBits .f32 0x3F800000#32)) s.l) broadcasts_S256x1_S256x64 (ix2 i h) = _
  rw [broadcastTo_col_64_apply]
  show s.a (ix2 i h) * Ideal.div (Ideal.ofBits .f32 0x3F800000#32) (s.l (ix2 i (0 : Fin 1))) = _
  rw [ofBits_one]

end Cert.KernelIdeal.HandV

end
-- ==== Proof.KI.ProjValue.lean ====
/-
  The projection region's output array, from blocks to the whole array, over the extended reals.

  The region runs over 16 grid points. At point t the input window holds rows 512 t … 512 t + 511 of
  the 8192 × 1024 input array, the weight window holds the whole 1024 × 64 weight array, and the body
  leaves in the output window the product of the two blocks, which is written back to rows
  512 t … 512 t + 511 of the 8192 × 64 output array.

  Written here: the block indices decided over the grid; each input block read where the output's
  rectangle says (an element of a block sits, on each axis, at block index × block size + its own
  coordinate); what point t writes back as block t of ONE whole-array function, the product of the two
  arrays entry by entry; every index of the output array covered by the point its row falls in
  (row r by point r / 512); hence the output array after the region is that product.
-/
import proofs.«418124_j83743272337485_3_alg».proof.Proof.KI.Data
import proofs.«418124_j83743272337485_3_alg».proof.Proof.KI.Payload
import Idealize.ShloMosaic.Lib.Pipeline.Value
import Idealize.ShloMosaic.Lib.ValueIdx

set_option maxRecDepth 16384

noncomputable section

namespace Cert.KernelIdeal.HandV

open Idealize.ShloMosaic Idealize.ShloMosaic.TcCoe Idealize.ShloMosaic.ValueIdx Idealize.ShloMosaic.Pipeline
open Cert.KernelIdeal Cert.KernelIdeal.Gen Cert.KernelIdeal.Hand

variable (V : (c : Dev nD) → (b : Ref sig .tc) → Buf (Elt Ideal) ((c : Thread nD τ).loc b))

/-- The block indices over the projection's 16 grid points: at point t the input's and the output's row
    blocks are block t, and every column block, and the weight's only block, is block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0)

theorem point_lt (t : Fin cfg0.N) : t.val < 16 := Nat.lt_of_lt_of_eq t.isLt N_0

/-- The region's two input arrays, at their shapes. -/
abbrev arrX (c : Dev nD) : Vec Ideal S8192x1024 .f32 := V c main_v0
abbrev arrW (c : Dev nD) : Vec Ideal S1024x64 .f32 := V c main_v1

/-- The product of an 8192 × 1024 array with a 1024 × 64 array, entry by entry. -/
def matProd (x : Vec Ideal S8192x1024 .f32) (w : Vec Ideal S1024x64 .f32) : Vec Ideal S8192x64 .f32 :=
  fun j => ∑ k : Fin 1024, x (ix2 (j 0) k) * w (ix2 k (j 1))

theorem matProd_apply (x : Vec Ideal S8192x1024 .f32) (w : Vec Ideal S1024x64 .f32) (r : Fin 8192) (h : Fin 64) :
    matProd x w (ix2 r h) = ∑ k : Fin 1024, x (ix2 r k) * w (ix2 k h) := rfl

/-- The input's block at point t is rows 512 t … 512 t + 511 of the input array. -/
theorem blk0_in_apply (c : Dev nD) (t : Fin cfg0.N) (i : Fin 512) (k : Fin 1024) (p : Fin 8192)
    (hp : p.val = 512 * t.val + i.val) :
    (blk0 (F := Ideal) V c 0 t : Vec Ideal S512x1024 .f32) (ix2 i k) = arrX V c (ix2 p k) := by
  obtain ⟨e0, e1, -⟩ := idx_facts t
  unfold blk0
  rw [View.read_apply]
  show arrX V c _ = arrX V c _
  congr 1
  funext a
  apply Fin.ext
  match a with
  | ⟨0, _⟩ => show win0_0.index t (0 : Fin 2) * 512 + 1 * i.val = p.val; rw [e0, hp]; omega
  | ⟨1, _⟩ => show win0_0.index t (1 : Fin 2) * 1024 + 1 * k.val = k.val; rw [e1]; omega

/-- The weight's block at every point is the whole weight array. -/
theorem blk0_w_apply (c : Dev nD) (t : Fin cfg0.N) (k : Fin 1024) (h : Fin 64) :
    (blk0 (F := Ideal) V c 1 t : Vec Ideal S1024x64 .f32) (ix2 k h) = arrW V c (ix2 k h) := by
  obtain ⟨-, -, e2, e3, -⟩ := idx_facts t
  unfold blk0
  rw [View.read_apply]
  show arrW V c _ = arrW V c _
  congr 1
  funext a
  apply Fin.ext
  match a with
  | ⟨0, _⟩ => show win0_1.index t (0 : Fin 2) * 1024 + 1 * k.val = k.val; rw [e2]; omega
  | ⟨1, _⟩ => show win0_1.index t (1 : Fin 2) * 64 + 1 * h.val = h.val; rw [e3]; omega

/-- Where the output's block at point t sits in the output array: row 512 t + i, the same column. -/
theorem out_emb (t : Fin cfg0.N) (i : Fin 512) (h : Fin 64) (p : Fin 8192) (hp : p.val = 512 * t.val + i.val) :
    ((cfg0.win 2).blk t).view.emb (ix2 i h) = (ix2 p h : S8192x64.Idx) := by
  obtain ⟨-, -, -, -, e4, e5⟩ := idx_facts t
  funext a
  apply Fin.ext
  match a with
  | ⟨0, _⟩ => show win0_2.index t (0 : Fin 2) * 512 + 1 * i.val = p.val; rw [e4, hp]; omega
  | ⟨1, _⟩ => show win0_2.index t (1 : Fin 2) * 64 + 1 * h.val = h.val; rw [e5]; omega

/-- What point t writes back is block t of the product of the two arrays as the region finds them. -/
theorem flushed_eq (c : Dev nD) (t : Fin cfg0.N) :
    (dat0 (F := Ideal) V c).flushed 2 t
      = ((cfg0.win 2).blk t).view.read (Elt Ideal) (matProd (arrX V c) (arrW V c)) := by
  show (cfg0.win 2).cut (cfg0.grid.coords t) ((dat0 (F := Ideal) V c).after 2 t) = _
  rw [dat0_after2]
  funext y
  obtain ⟨i, h, rfl⟩ : ∃ (i : Fin 512) (h : Fin 64), y = ix2 i h :=
    ⟨y 0, y 1, eq_ix2 (n0 := 512) (n1 := 64) y⟩
  have ht := point_lt t
  have hp : (⟨512 * t.val + i.val, by omega⟩ : Fin 8192).val = 512 * t.val + i.val := rfl
  rw [View.read_apply]
  show k0_pay1 (F := Ideal) (blk0 V c 0 t) (blk0 V c 1 t) (ix2 i h)
    = matProd (arrX V c) (arrW V c) (((cfg0.win 2).blk t).view.emb (ix2 i h))
  rw [out_emb t i h _ hp, matProd_apply]
  refine (proj_pay _ _ i h).trans ?_
  refine Finset.sum_congr rfl (fun k _ => ?_)
  rw [blk0_in_apply V c t i k _ hp, blk0_w_apply V c t k h]

/-- An index of the output array is in point t's block iff each coordinate is in the block's range. -/
theorem mem_blk (t : Fin cfg0.N) (j : S8192x64.Idx) :
    j ∈ ((cfg0.win 2).blk t).view.set ↔ ∀ a : Fin 2, win0_2.index t a * S512x64.size a ≤ (j a).val
      ∧ (j a).val < win0_2.index t a * S512x64.size a + S512x64.size a := by
  show j ∈ ((View.whole main_v2).slice (win0_2.rect t)).set ↔ _
  rw [View.set_slice_whole, Rect.mem_set_unit]
  exact Iff.rfl

/-- Every index of the output array is in the block of the point its row falls in: row r in block r / 512. -/
theorem cover (j : S8192x64.Idx) :
    ∃ t : Fin cfg0.N, (cfg0.win 2).flush t = true ∧ j ∈ ((cfg0.win 2).blk t).view.set := by
  have h0 : (j 0).val < 8192 := (j 0).isLt
  have h1 : (j 1).val < 64 := (j 1).isLt
  have hN : cfg0.N = 16 := N_0
  obtain ⟨t, ht⟩ : ∃ t : Fin cfg0.N, t.val = (j 0).val / 512 := ⟨⟨(j 0).val / 512, by rw [hN]; omega⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 512 ≤ (j 0).val ∧ (j 0).val < win0_2.index t (0 : Fin 2) * 512 + 512
    rw [e4, ht]; omega
  | ⟨1, _⟩ =>
    show win0_2.index t (1 : Fin 2) * 64 ≤ (j 1).val ∧ (j 1).val < win0_2.index t (1 : Fin 2) * 64 + 64
    rw [e5]; omega

/-- The output array after the region is the product of the two input arrays. -/
theorem proj_arr_eq (c : Dev nD) :
    (dat0 (F := Ideal) V c).arrAt 2 cfg0.N = matProd (arrX V c) (arrW V c) :=
  (dat0 (F := Ideal) V c).arrAt_eq_of_cover 2 (matProd (arrX V c) (arrW V c))
    (fun t _ => flushed_eq V c t) cover

/-- The output array after the region holds, at row r and column h, the inner product of row r of the
    input array with column h of the weight array. -/
theorem proj_arr (c : Dev nD) (r : Fin 8192) (h : Fin 64) :
    ((dat0 (F := Ideal) V c).arrAt 2 cfg0.N : Vec Ideal S8192x64 .f32) (ix2 r h)
      = ∑ k : Fin 1024, arrX V c (ix2 r k) * arrW V c (ix2 k h) := by
  rw [proj_arr_eq V c, matProd_apply]

end Cert.KernelIdeal.HandV

end
-- ==== Proof.KI.AttnValue.lean ====
/-
  The value the attention region leaves in its output array, over the extended reals: at batch b,
  row r and feature h it is the tile-by-tile recurrence's output for row r, over the tiles up to the
  one holding the diagonal.

  The grid's position t is (batch, query tile, key tile) = (t / 64, t / 8 % 8, t % 8). Fix a batch
  and a query tile qi. At key tile 0 the scratch state is reset; at a key tile ki on or below the
  diagonal (ki at most qi) the point folds rows 256 ki .. 256 ki + 255 of the projected array, as
  keys and as values, into every row of the state; above the diagonal it keeps the state. So after
  the point with key tile ki, row i of the state holds the recurrence of row 256 qi + i after
  min ki qi + 1 tiles: by induction on the position, one row at a time, the masked scores of a tile
  being the row's masked scores at that tile's columns. At key tile 7 the point stores
  a * (1 / l), the recurrence's output after qi + 1 = r / 256 + 1 tiles. These stored blocks are
  the blocks of one function of the array index, and the storing positions' blocks cover the array.
-/
import proofs.«418124_j83743272337485_3_alg».proof.Proof.KI.Data
import proofs.«418124_j83743272337485_3_alg».proof.Proof.KI.Payload
import proofs.«418124_j83743272337485_3_alg».proof.Proof.Spec
import Idealize.ShloMosaic.Lib.Pipeline.Value
import Idealize.ShloMosaic.Lib.ValueIdx

set_option maxRecDepth 16384

noncomputable section

namespace Cert.KernelIdeal.HandV

open Idealize.ShloMosaic Idealize.ShloMosaic.TcCoe Idealize.ShloMosaic.ValueIdx Idealize.ShloMosaic.Pipeline Cert.KernelIdeal Cert.KernelIdeal.Gen Cert.KernelIdeal.Hand Cert.Attn

/-! ## The grid's 256 points, decided once

Position t is (batch, query tile, key tile) = (t / 64, t / 8 % 8, t % 8). -/

/-- The three coordinates of a position. -/
theorem coords1 : ∀ t : Fin cfg1.N, (grid1.coords t 0).val = t.val / 64 ∧ (grid1.coords t 1).val = t.val / 8 % 8
    ∧ (grid1.coords t 2).val = t.val % 8 :=
  (by decide +kernel : ∀ t : Fin grid1.N, (grid1.coords t 0).val = t.val / 64 ∧ (grid1.coords t 1).val = t.val / 8 % 8
    ∧ (grid1.coords t 2).val = t.val % 8)

/-- The fold's condition: the key tile is not above the diagonal. -/
theorem hc2 : ∀ t : Fin cfg1.N, c2 (grid1.coords t) ↔ t.val % 8 ≤ t.val / 8 % 8 :=
  (by decide +kernel : ∀ t : Fin grid1.N, c2 (grid1.coords t) ↔ t.val % 8 ≤ t.val / 8 % 8)

/-- The query window's block index. -/
theorem idxQ : ∀ t : Fin cfg1.N, win1_0.index t (0 : Fin 3) = t.val / 64 ∧ win1_0.index t (1 : Fin 3) = t.val / 8 % 8
    ∧ win1_0.index t (2 : Fin 3) = 0 :=
  (by decide +kernel : ∀ t : Fin grid1.N, win1_0.index t (0 : Fin 3) = t.val / 64 ∧ win1_0.index t (1 : Fin 3) = t.val / 8 % 8
    ∧ win1_0.index t (2 : Fin 3) = 0)

/-- The key/value window's block index: the key tile, held at the diagonal's above it. -/
theorem idxK : ∀ t : Fin cfg1.N, win1_1.index t (0 : Fin 3) = t.val / 64
    ∧ win1_1.index t (1 : Fin 3) = min (t.val % 8) (t.val / 8 % 8) ∧ win1_1.index t (2 : Fin 3) = 0 :=
  (by decide +kernel : ∀ t : Fin grid1.N, win1_1.index t (0 : Fin 3) = t.val / 64
    ∧ win1_1.index t (1 : Fin 3) = min (t.val % 8) (t.val / 8 % 8) ∧ win1_1.index t (2 : Fin 3) = 0)

/-- The output window's block index. -/
theorem idxO : ∀ t : Fin cfg1.N, win1_2.index t (0 : Fin 3) = t.val / 64 ∧ win1_2.index t (1 : Fin 3) = t.val / 8 % 8
    ∧ win1_2.index t (2 : Fin 3) = 0 :=
  (by decide +kernel : ∀ t : Fin grid1.N, win1_2.index t (0 : Fin 3) = t.val / 64 ∧ win1_2.index t (1 : Fin 3) = t.val / 8 % 8
    ∧ win1_2.index t (2 : Fin 3) = 0)

section Region

variable (V : (c : Dev nD) → (b : Ref sig .tc) → Buf (Elt Ideal) ((c : Thread nD τ).loc b)) (c : Dev nD)

/-- The projected array the attention region reads, as the rows and features of one batch. -/
abbrev Qb (b : Fin 4) : Fin 2048 → Fin 64 → EReal := fun l h' => V c main_v3 (ix3 b l h')

/-! ## The two input blocks, read off the projected array -/

/-- Row i of the query block at position t is row 256 (t / 8 % 8) + i of batch t / 64. -/
theorem qblk_apply (t : Fin cfg1.N) (i : Fin 256) (h' : Fin 64) (b : Fin 4) (l : Fin 2048)
    (hb : b.val = t.val / 64) (hl : l.val = 256 * (t.val / 8 % 8) + i.val) :
    (blk1 V c 0 t : Vec Ideal S1x256x64 .f32) (ix3 (0 : Fin 1) i h') = V c main_v3 (ix3 b l h') := by
  obtain ⟨e0, e1, e2⟩ := idxQ t
  unfold blk1
  rw [View.read_apply]
  show V c main_v3 (((cfg1.win 0).blk t).view.emb (ix3 (0 : Fin 1) i h')) = V c main_v3 (ix3 b l h')
  refine congrArg (V c main_v3) (funext fun a => Fin.ext ?_)
  match a with
  | ⟨0, _⟩ => show win1_0.index t (0 : Fin 3) * 1 + 1 * (0 : Fin 1).val = b.val; rw [e0, hb]; simp
  | ⟨1, _⟩ => show win1_0.index t (1 : Fin 3) * 256 + 1 * i.val = l.val; rw [e1, hl]; omega
  | ⟨2, _⟩ => show win1_0.index t (2 : Fin 3) * 64 + 1 * h'.val = h'.val; rw [e2]; omega

/-- Row j of the key/value block at a position on or below the diagonal is row 256 (t % 8) + j of batch t / 64. -/
theorem kblk_apply (t : Fin cfg1.N) (hd : t.val % 8 ≤ t.val / 8 % 8) (j : Fin 256) (h' : Fin 64) (b : Fin 4) (l : Fin 2048)
    (hb : b.val = t.val / 64) (hl : l.val = 256 * (t.val % 8) + j.val) :
    (blk1 V c 1 t : Vec Ideal S1x256x64 .f32) (ix3 (0 : Fin 1) j h') = V c main_v3 (ix3 b l h') := by
  obtain ⟨e0, e1, e2⟩ := idxK t
  unfold blk1
  rw [View.read_apply]
  show V c main_v3 (((cfg1.win 1).blk t).view.emb (ix3 (0 : Fin 1) j h')) = V c main_v3 (ix3 b l h')
  refine congrArg (V c main_v3) (funext fun a => Fin.ext ?_)
  match a with
  | ⟨0, _⟩ => show win1_1.index t (0 : Fin 3) * 1 + 1 * (0 : Fin 1).val = b.val; rw [e0, hb]; simp
  | ⟨1, _⟩ => show win1_1.index t (1 : Fin 3) * 256 + 1 * j.val = l.val; rw [e1, hl, Nat.min_eq_left hd]; omega
  | ⟨2, _⟩ => show win1_1.index t (2 : Fin 3) * 64 + 1 * h'.val = h'.val; rw [e2]; omega

end Region

/-! ## One row of the state against the recurrence -/

/-- Row i of a state holds what the recurrence holds after n tiles, for row r of the array Q at feature h. -/
def RowIs (S : St Ideal) (Q : Fin 2048 → Fin 64 → EReal) (r : Fin 2048) (i : Fin 256) (h : Fin 64) (n : ℕ) : Prop :=
  S.m (ix2 i (0 : Fin 1)) = (onl (msc Q r) (fun c' => Q c' h) n).1
  ∧ S.l (ix2 i (0 : Fin 1)) = (onl (msc Q r) (fun c' => Q c' h) n).2.1
  ∧ S.a (ix2 i h) = (onl (msc Q r) (fun c' => Q c' h) n).2.2

/-- The reset state is the recurrence before any tile. -/
theorem rowIs_init (Q : Fin 2048 → Fin 64 → EReal) (r : Fin 2048) (i : Fin 256) (h : Fin 64) :
    RowIs (stInit (F := Ideal)) Q r i h 0 :=
  ⟨stInit_m i, stInit_l i, stInit_a i h⟩

/-- The scores of query row i of tile qi against key tile ki are the row's masked scores at that tile's columns. -/
theorem sTile_eq_msc (Q : Fin 2048 → Fin 64 → EReal) (qi ki : Fin 8) (q kv : Vec Ideal S1x256x64 .f32) (i : Fin 256)
    (hqv : ∀ h' : Fin 64, q (ix3 (0 : Fin 1) i h') = Q (col qi i) h')
    (hkv : ∀ (j : Fin 256) (h' : Fin 64), kv (ix3 (0 : Fin 1) j h') = Q (col ki j) h') :
    sTile qi.val ki.val q kv i = fun j => msc Q (col qi i) (col ki j) := by
  funext j
  unfold sTile msc
  simp only [hqv, hkv]
  rfl

/-- The recurrence's equation at a tile. -/
theorem onl_succ (s v : Fin 2048 → EReal) (k : Fin 8) :
    onl s v (k.val + 1)
      = (stepM (onl s v k.val).1 (fun j => s (col k j)),
         stepL (onl s v k.val).1 (onl s v k.val).2.1 (fun j => s (col k j)),
         stepA (onl s v k.val).1 (onl s v k.val).2.2 (fun j => s (col k j)) (fun j => v (col k j))) := by
  rw [onl, dif_pos k.isLt]

/-- Folding key tile ki into a row that holds the recurrence after ki tiles gives the recurrence after ki + 1. -/
theorem fold_row (Q : Fin 2048 → Fin 64 → EReal) (qi ki : Fin 8) (q kv : Vec Ideal S1x256x64 .f32) (S : St Ideal)
    (i : Fin 256) (h : Fin 64)
    (hqv : ∀ h' : Fin 64, q (ix3 (0 : Fin 1) i h') = Q (col qi i) h')
    (hkv : ∀ (j : Fin 256) (h' : Fin 64), kv (ix3 (0 : Fin 1) j h') = Q (col ki j) h')
    (hS : RowIs S Q (col qi i) i h ki.val) :
    RowIs (stStep (BitVec.ofNat 32 qi.val) (BitVec.ofNat 32 ki.val) q kv S) Q (col qi i) i h (ki.val + 1) := by
  obtain ⟨hm, hl, ha⟩ := hS
  have hs := sTile_eq_msc Q qi ki q kv i hqv hkv
  unfold RowIs
  rw [onl_succ]
  refine ⟨?_, ?_, ?_⟩
  · rw [stStep_m qi.val ki.val qi.isLt ki.isLt, hm, hs]
  · rw [stStep_l qi.val ki.val qi.isLt ki.isLt, hm, hl, hs]
  · rw [stStep_a qi.val ki.val qi.isLt ki.isLt, hm, ha, hs]
    exact congrArg (stepA _ _ _) (funext fun j => hkv j h)

section Region2

variable (V : (c : Dev nD) → (b : Ref sig .tc) → Buf (Elt Ideal) ((c : Thread nD τ).loc b)) (c : Dev nD)

/-! ## One grid point, then all of them -/

/-- One grid point carries every row of its query tile from the recurrence after the tiles folded so far to the
    recurrence after its own: a point on or below the diagonal folds its key tile (the first after a reset), a point
    above keeps the state. -/
theorem point_row (t : Fin cfg1.N) (b : Fin 4) (qi : Fin 8) (hb : b.val = t.val / 64) (hqi : qi.val = t.val / 8 % 8)
    (prev : St Ideal)
    (hprev : t.val % 8 ≠ 0 → ∀ (i : Fin 256) (h : Fin 64),
      RowIs prev (Qb V c b) (col qi i) i h (min (t.val % 8 - 1) qi.val + 1))
    (i : Fin 256) (h : Fin 64) :
    RowIs (stNext (grid1.coords t) (blk1 V c 0 t) (blk1 V c 1 t) prev) (Qb V c b) (col qi i) i h
      (min (t.val % 8) qi.val + 1) := by
  obtain ⟨-, g1, g2⟩ := coords1 t
  have hqv : ∀ h' : Fin 64, (blk1 V c 0 t : Vec Ideal S1x256x64 .f32) (ix3 (0 : Fin 1) i h') = Qb V c b (col qi i) h' :=
    fun h' => qblk_apply V c t i h' b (col qi i) hb (by show 256 * qi.val + i.val = _; rw [hqi])
  have hk8 : t.val % 8 < 8 := Nat.mod_lt _ (by norm_num)
  unfold stNext stA
  by_cases hd : t.val % 8 ≤ t.val / 8 % 8
  · have hkv : ∀ (j : Fin 256) (h' : Fin 64),
        (blk1 V c 1 t : Vec Ideal S1x256x64 .f32) (ix3 (0 : Fin 1) j h') = Qb V c b (col ⟨t.val % 8, hk8⟩ j) h' :=
      fun j h' => kblk_apply V c t hd j h' b (col ⟨t.val % 8, hk8⟩ j) hb rfl
    rw [if_pos ((hc2 t).mpr hd)]
    have hn : min (t.val % 8) qi.val + 1 = (⟨t.val % 8, hk8⟩ : Fin 8).val + 1 := by
      show min (t.val % 8) qi.val + 1 = t.val % 8 + 1
      omega
    rw [hn, g1, g2, ← hqi]
    refine fold_row (Qb V c b) qi ⟨t.val % 8, hk8⟩ _ _ _ i h hqv hkv ?_
    by_cases h0 : t.val % 8 = 0
    · rw [if_pos ((hc1 t).mpr h0)]
      show RowIs stInit _ _ i h (t.val % 8)
      rw [h0]
      exact rowIs_init _ _ i h
    · rw [if_neg (fun hc => h0 ((hc1 t).mp hc))]
      have hp := hprev h0 i h
      have e : min (t.val % 8 - 1) qi.val + 1 = t.val % 8 := by omega
      rw [e] at hp
      exact hp
  · have h0 : t.val % 8 ≠ 0 := by omega
    rw [if_neg (fun hc => hd ((hc2 t).mp hc)), if_neg (fun hc => h0 ((hc1 t).mp hc))]
    have hp := hprev h0 i h
    have e : min (t.val % 8 - 1) qi.val + 1 = min (t.val % 8) qi.val + 1 := by omega
    rw [e] at hp
    exact hp

/-- After position n, row i of the scratch state holds the recurrence of row 256 qi + i of batch b after
    min ki qi + 1 tiles, where (b, qi, ki) is the position: by induction on the position. -/
theorem sAt_row : ∀ (n : ℕ) (hn : n < cfg1.N) (b : Fin 4) (qi : Fin 8), b.val = n / 64 → qi.val = n / 8 % 8 →
    ∀ (i : Fin 256) (h : Fin 64), RowIs (sAt V c n hn) (Qb V c b) (col qi i) i h (min (n % 8) qi.val + 1)
  | 0, hn, b, qi, hb, hqi, i, h => by
    show RowIs (stNext (grid1.coords ⟨0, hn⟩) (blk1 V c 0 ⟨0, hn⟩) (blk1 V c 1 ⟨0, hn⟩) stInit) _ _ i h _
    exact point_row V c ⟨0, hn⟩ b qi hb hqi stInit (fun h0 => absurd rfl h0) i h
  | n + 1, hn, b, qi, hb, hqi, i, h => by
    show RowIs (stNext (grid1.coords ⟨n + 1, hn⟩) (blk1 V c 0 ⟨n + 1, hn⟩) (blk1 V c 1 ⟨n + 1, hn⟩)
      (sAt V c n (Nat.lt_of_succ_lt hn))) _ _ i h _
    refine point_row V c ⟨n + 1, hn⟩ b qi hb hqi _ (fun h0 i' h'' => ?_) i h
    have h0' : (n + 1) % 8 ≠ 0 := h0
    have hp := sAt_row n (Nat.lt_of_succ_lt hn) b qi (by omega) (by omega) i' h''
    have e : min (n % 8) qi.val + 1 = min ((n + 1) % 8 - 1) qi.val + 1 := by omega
    rw [e] at hp
    exact hp

/-! ## The output block and the output array -/

/-- At a position that stores the output (the last key tile), the stored block at row i is the recurrence's
    output for row 256 qi + i of the batch, after the tiles up to the diagonal's. -/
theorem out_row (t : Fin cfg1.N) (ht : t.val % 8 = 7) (u : Fin 1) (i : Fin 256) (h : Fin 64)
    (b : Fin 4) (r : Fin 2048) (h2 : Fin 64)
    (hb : b.val = t.val / 64) (hr : r.val = 256 * (t.val / 8 % 8) + i.val) (hh : h2.val = h.val) :
    stOut (sAt V c t.val t.isLt) (ix3 u i h) = attnOnl (Qb V c b) r h2 := by
  have hq8 : t.val / 8 % 8 < 8 := Nat.mod_lt _ (by norm_num)
  obtain rfl : u = 0 := Subsingleton.elim u 0
  obtain rfl : h = h2 := Fin.ext hh.symm
  obtain rfl : r = col ⟨t.val / 8 % 8, hq8⟩ i := Fin.ext hr
  obtain ⟨-, hl, ha⟩ := sAt_row V c t.val t.isLt b ⟨t.val / 8 % 8, hq8⟩ hb rfl i h
  rw [stOut_apply, ha, hl]
  unfold attnOnl onlOut
  have en : (col ⟨t.val / 8 % 8, hq8⟩ i).val / 256 + 1 = min (t.val % 8) (⟨t.val / 8 % 8, hq8⟩ : Fin 8).val + 1 := by
    show (256 * (t.val / 8 % 8) + i.val) / 256 + 1 = min (t.val % 8) (t.val / 8 % 8) + 1
    omega
  rw [en]

/-- What the attention region leaves in its output array: at (b, r, h) the recurrence's output for row r of batch b. -/
abbrev GO : S4x2048x64.Idx → EReal := fun k => attnOnl (Qb V c (k 0)) (k 1) (k 2)

/-- What a storing position writes back is its block of that array. -/
theorem attn_flushed_eq (t : Fin cfg1.N) (hf : (cfg1.win 2).flush t = true) :
    (dat1 (F := Ideal) V c).flushed 2 t = ((cfg1.win 2).blk t).view.read (Elt Ideal) (GO V c) := by
  have ht : t.val % 8 = 7 := (flush1_2 t).mp hf
  obtain ⟨e0, e1, e2⟩ := idxO t
  show (cfg1.win 2).cut (grid1.coords t) ((dat1 (F := Ideal) V c).after 2 t) = _
  rw [dat1_after2]
  funext y
  obtain ⟨u, i, h, rfl⟩ : ∃ (u : Fin 1) (i : Fin 256) (h : Fin 64), y = ix3 u i h := ⟨y 0, y 1, y 2, eq_ix3 y⟩
  rw [View.read_apply]
  show stOut (sAt V c t.val t.isLt) (ix3 u i h) = GO V c (((cfg1.win 2).blk t).view.emb (ix3 u i h))
  refine out_row V c t ht u i h _ _ _ ?_ ?_ ?_
  · show win1_2.index t (0 : Fin 3) * 1 + 1 * u.val = t.val / 64
    rw [e0]; omega
  · show win1_2.index t (1 : Fin 3) * 256 + 1 * i.val = 256 * (t.val / 8 % 8) + i.val
    rw [e1]; omega
  · show win1_2.index t (2 : Fin 3) * 64 + 1 * h.val = h.val
    rw [e2]; omega

/-- Every index of the output array is in the block of the storing position of its batch and query tile. -/
theorem covered (k : S4x2048x64.Idx) :
    ∃ t : Fin cfg1.N, (cfg1.win 2).flush t = true ∧ k ∈ ((cfg1.win 2).blk t).view.set := by
  have h0 : (k 0).val < 4 := (k 0).isLt
  have h1 : (k 1).val < 2048 := (k 1).isLt
  have h2 : (k 2).val < 64 := (k 2).isLt
  have hN : cfg1.N = 256 := N_1
  obtain ⟨t, ht⟩ : ∃ t : Fin cfg1.N, t.val = 64 * (k 0).val + 8 * ((k 1).val / 256) + 7 :=
    ⟨⟨64 * (k 0).val + 8 * ((k 1).val / 256) + 7, by rw [hN]; omega⟩, rfl⟩
  obtain ⟨e0, e1, e2⟩ := idxO t
  refine ⟨t, (flush1_2 t).mpr (by omega), ?_⟩
  show k ∈ ((View.whole main_v4).slice (win1_2.rect t)).set
  rw [View.set_slice_whole, Rect.mem_set_unit]
  intro a
  match a with
  | ⟨0, _⟩ =>
    show win1_2.index t (0 : Fin 3) * 1 ≤ (k 0).val ∧ (k 0).val < win1_2.index t (0 : Fin 3) * 1 + 1
    rw [e0]; omega
  | ⟨1, _⟩ =>
    show win1_2.index t (1 : Fin 3) * 256 ≤ (k 1).val ∧ (k 1).val < win1_2.index t (1 : Fin 3) * 256 + 256
    rw [e1]; omega
  | ⟨2, _⟩ =>
    show win1_2.index t (2 : Fin 3) * 64 ≤ (k 2).val ∧ (k 2).val < win1_2.index t (2 : Fin 3) * 64 + 64
    rw [e2]; omega

end Region2

theorem attn_arr (V : (c : Dev nD) → (b : Ref sig .tc) → Buf (Elt Ideal) ((c : Thread nD τ).loc b)) (c : Dev nD) (b : Fin 4) (r : Fin 2048) (h : Fin 64) :
    (dat1 (F := Ideal) V c).arrAt 2 cfg1.N (ix3 b r h) = Cert.Attn.attnOnl (fun l h' => V c main_v3 (ix3 b l h')) r h := by
  have hG := (dat1 (F := Ideal) V c).arrAt_eq_of_cover 2 (GO V c) (fun t hf => attn_flushed_eq V c t hf) covered
  exact congrFun hG (ix3 b r h)

end Cert.KernelIdeal.HandV

end
-- ==== Proof.RefValue.lean ====
import proofs.«418124_j83743272337485_3_alg».proof.Proof.Gen.ReferenceIdeal.Read
import proofs.«418124_j83743272337485_3_alg».proof.Proof.Spec
import Idealize.ShloMosaic.Lib.ValueIdx
import Idealize.ShloMosaic.PureOps.Ideal.Laws
import Idealize.ShloMosaic.Lib.StableHlo.Predicate

noncomputable section

namespace Cert.RefValue

open Idealize.ShloMosaic Cert.ReferenceIdeal Cert.ReferenceIdeal.Read Idealize.ShloMosaic.ValueIdx

/-! ## The inputs by coordinates, and the projection -/

/-- The input array as a function of its three coordinates. -/
abbrev X (x0 : (⟨S4x2048x1024, .f32⟩ : BufTy).Contents (Elt Ideal)) : Fin 4 → Fin 2048 → Fin 1024 → EReal :=
  fun b' l' k => x0 (ix3 b' l' k)

/-- The weight array as a function of its two coordinates. -/
abbrev W (x1 : (⟨S64x1024, .f32⟩ : BufTy).Contents (Elt Ideal)) : Fin 64 → Fin 1024 → EReal :=
  fun h'' k => x1 (ix2 h'' k)

/-- Batch b's projected rows: row l, feature h'. -/
abbrev Q (x0 : (⟨S4x2048x1024, .f32⟩ : BufTy).Contents (Elt Ideal)) (x1 : (⟨S64x1024, .f32⟩ : BufTy).Contents (Elt Ideal))
    (b : Fin 4) : Fin 2048 → Fin 64 → EReal :=
  fun l h' => Cert.Attn.proj (X x0) (W x1) b l h'

section
variable (x0 : (⟨S4x2048x1024, .f32⟩ : BufTy).Contents (Elt Ideal)) (x1 : (⟨S64x1024, .f32⟩ : BufTy).Contents (Elt Ideal))

/-- The first contraction at (b, l, h) is the projection sum over the 1024 input features. -/
theorem v0_at (b : Fin 4) (l : Fin 2048) (h : Fin 64) :
    val_main_v0 (F := Ideal) x0 x1 (ix3 b l h) = Q x0 x1 b l h := by
  rw [val_main_v0_apply]
  show _ = ∑ k : Fin 1024, x0 (ix3 b l k) * x1 (ix2 h k)
  refine Finset.sum_congr rfl fun k _ => ?_
  have e1 : lidx_main_v0 (ix3 b l h) k = ix3 b l k := funext fun a => Fin.ext (by
    match a with | ⟨0, _⟩ => rfl | ⟨1, _⟩ => rfl | ⟨2, _⟩ => rfl)
  have e2 : ridx_main_v0 (ix3 b l h) k = ix2 h k := funext fun a => Fin.ext (by
    match a with | ⟨0, _⟩ => rfl | ⟨1, _⟩ => rfl)
  rw [e1, e2]

/-- The second contraction at (b, r, c) is the inner product of projected rows r and c. -/
theorem v1_at (b : Fin 4) (r c : Fin 2048) :
    val_main_v1 (F := Ideal) x0 x1 (ix3 b r c) = ∑ h : Fin 64, Q x0 x1 b r h * Q x0 x1 b c h := by
  rw [val_main_v1_apply]
  refine Finset.sum_congr rfl fun k _ => ?_
  have e1 : lidx_main_v1 (ix3 b r c) k = ix3 b r k := funext fun a => Fin.ext (by
    match a with | ⟨0, _⟩ => rfl | ⟨1, _⟩ => rfl | ⟨2, _⟩ => rfl)
  have e2 : ridx_main_v1 (ix3 b r c) k = ix3 b c k := funext fun a => Fin.ext (by
    match a with | ⟨0, _⟩ => rfl | ⟨1, _⟩ => rfl | ⟨2, _⟩ => rfl)
  rw [e1, e2, v0_at, v0_at]

end

/-! ## The constants -/

/-- The word 0x44800000 denotes 1024. -/
theorem ofBits_1024 : Ideal.ofBits .f32 0x44800000#32 = ((1024 : ℝ) : EReal) := by
  simp [Ideal.ofBits, Ideal.ieee, -EReal.coe_mul]; norm_num

/-- The word 0x3D000000 denotes 1/32. -/
theorem ofBits_scale : Ideal.ofBits .f32 0x3D000000#32 = ((1 / 32 : ℝ) : EReal) := by
  simp [Ideal.ofBits, Ideal.ieee, -EReal.coe_mul]; norm_num

/-- The word 0xFF800000 denotes -∞. -/
theorem ofBits_neg_inf : Ideal.ofBits .f32 0xFF800000#32 = ⊥ := by
  simp [Ideal.ofBits, Ideal.ieee]

/-- Dividing by the square root of 1024 is multiplying by 1/32, at the infinities too. -/
theorem div_sqrt_1024 (x : EReal) :
    Ideal.div x (Ideal.sqrt (Ideal.ofBits .f32 0x44800000#32)) = x * Cert.Attn.scale := by
  have h32 : Real.sqrt 1024 = 32 := by
    rw [show (1024 : ℝ) = 32 ^ 2 by norm_num]; exact Real.sqrt_sq (by norm_num)
  rw [ofBits_1024, Ideal.sqrt_coe, if_neg (by norm_num), h32, Ideal.div_coe (by norm_num : (32 : ℝ) ≠ 0) x]
  show _ = x * Ideal.ofBits .f32 0x3D000000#32
  rw [ofBits_scale]

/-! ## The scaled scores and the causal mask -/

section
variable (x0 : (⟨S4x2048x1024, .f32⟩ : BufTy).Contents (Elt Ideal)) (x1 : (⟨S64x1024, .f32⟩ : BufTy).Contents (Elt Ideal))

/-- The scaled score at (b, r, c): the inner product times 1/32. -/
theorem v4_at (b : Fin 4) (r c : Fin 2048) :
    val_main_v4 (F := Ideal) x0 x1 (ix3 b r c) = (∑ h : Fin 64, Q x0 x1 b r h * Q x0 x1 b c h) * Cert.Attn.scale := by
  rw [val_main_v4_apply, val_main_v3_apply, val_main_v2_apply, val_main_cst_apply, v1_at]
  exact div_sqrt_1024 _

end

/-- The signed comparison "row + 0 ≥ column" of two indices below 2048, as words, is the bit of "column ≤ row". -/
theorem tril_bit (r c : ℕ) (hr : r < 2048) (hc : c < 2048) :
    IntOp.cmpi .sge (IntOp.addi (BitVec.ofNat 32 r) 0#32) (BitVec.ofNat 32 c) = if c ≤ r then 1#1 else 0#1 := by
  have e : IntOp.addi (BitVec.ofNat 32 r) 0#32 = BitVec.ofNat 32 r := by
    unfold IntOp.addi; exact BitVec.add_zero _
  rw [e]
  have hr' : (BitVec.ofNat 32 r).toNat = r := by rw [BitVec.toNat_ofNat]; omega
  have hc' : (BitVec.ofNat 32 c).toNat = c := by rw [BitVec.toNat_ofNat]; omega
  have key := StableHlo.Predicate.sge_iff_toNat (a := BitVec.ofNat 32 r) (b := BitVec.ofNat 32 c)
    (by rw [hr']; omega) (by rw [hc']; omega)
  rw [hr', hc'] at key
  by_cases h : c ≤ r
  · rw [if_pos h]; exact key.mpr h
  · rw [if_neg h]; exact eq_zero_of_ne_one (fun h1 => h (key.mp h1))

/-- The mask at (b, r, c) is set exactly on and below the diagonal. -/
theorem mask_at (b : Fin 4) (r c : Fin 2048) :
    val_main_call1_v1 (F := Ideal) (ix3 b r c) = if c.val ≤ r.val then 1#1 else 0#1 := by
  rw [val_main_call1_v1_apply, val_main_v6_apply, val_main_call0_v4_apply, val_main_call0_v2_apply,
    val_main_call0_v0_apply, val_main_call0_v1_apply, val_main_call0_c_apply, val_main_call0_v3_apply,
    val_main_v5_apply, val_main_c_apply, val_main_call0_v5_apply, val_main_call0_c_0_apply]
  show Scalar.select (IntOp.cmpi .sge (IntOp.addi (BitVec.ofNat 32 r.val) 0#32) (BitVec.ofNat 32 c.val)) 1#1 0#1 = _
  rw [tril_bit r.val c.val r.isLt c.isLt]
  by_cases h : c.val ≤ r.val
  · rw [if_pos h]; exact select_one _ _
  · rw [if_neg h]; exact select_zero _ _

/-! ## The masked scores, the row maximum, the exponentials, their sum, the weights -/

/-- A maximum-reduction of a [4, 2048, 2048] array over its last axis, read at (b, r): the fold of max from the
    initial value over the 2048 columns of row r of batch b. -/
theorem reduce_max_at (y : S4x2048x2048.Idx → EReal) (init : S_.Idx → EReal) (b : Fin 4) (r : Fin 2048) :
    Host.reduce (α := EReal) (FloatOps.maximumf (F := Ideal) (φ := .f32)) y init
        Facts₀.reducesTo_S4x2048x2048_S4x2048_d2 Facts₀.h_S_ (ix2 b r)
      = (Finset.univ : Finset (Fin 2048)).fold max (init (Shape.Idx.first Facts₀.h_S_)) (fun c => y (ix3 b r c)) := by
  have hred : Shape.Reduces S4x2048x2048 [2] S4x2048 := by decide
  refine (Host.reduce_eq_fold_single (α := EReal) (FloatOps.maximumf (F := Ideal) (φ := .f32)) y init Facts₀.reducesTo_S4x2048x2048_S4x2048_d2 hred Facts₀.h_S_ (ix2 b r)).trans ?_
  exact congrArg (fun f : Fin 2048 → EReal => (Finset.univ : Finset (Fin 2048)).fold max (init (Shape.Idx.first Facts₀.h_S_)) f)
    (funext fun c => congrArg y (funext fun a => Fin.ext (by
      match a with | ⟨0, _⟩ => rfl | ⟨1, _⟩ => rfl | ⟨2, _⟩ => rfl)))

section
variable (x0 : (⟨S4x2048x1024, .f32⟩ : BufTy).Contents (Elt Ideal)) (x1 : (⟨S64x1024, .f32⟩ : BufTy).Contents (Elt Ideal))

/-- The masked score at (b, r, c): the scaled score on and below the diagonal, -∞ above. -/
theorem v7_at (b : Fin 4) (r c : Fin 2048) :
    val_main_v7 (F := Ideal) x0 x1 (ix3 b r c) = Cert.Attn.msc (Q x0 x1 b) r c := by
  rw [val_main_v7_apply, mask_at, val_main_call1_v2_apply, val_main_call1_v0_apply, val_main_cst_0_apply, v4_at]
  unfold Cert.Attn.msc
  by_cases hc : c.val ≤ r.val
  · rw [if_pos hc, if_pos hc]; exact select_one _ _
  · rw [if_neg hc, if_neg hc, select_zero]; exact ofBits_neg_inf

/-- The reduced maximum at (b, r): the fold of max from -∞ over row r's masked scores. -/
theorem v8_at (b : Fin 4) (r : Fin 2048) :
    val_main_v8 (F := Ideal) x0 x1 (ix2 b r)
      = (Finset.univ : Finset (Fin 2048)).fold max ⊥ (Cert.Attn.msc (Q x0 x1 b) r) := by
  unfold val_main_v8
  refine (reduce_max_at _ _ b r).trans ?_
  rw [val_main_cst_1_apply]
  show (Finset.univ : Finset (Fin 2048)).fold max (Ideal.ofBits .f32 0xFF800000#32) _ = _
  rw [ofBits_neg_inf]
  exact congrArg (fun f : Fin 2048 → EReal => (Finset.univ : Finset (Fin 2048)).fold max ⊥ f)
    (funext fun c => v7_at x0 x1 b r c)

/-- The row maximum as the softmax takes it. -/
theorem v10_at (b : Fin 4) (r : Fin 2048) :
    val_main_v10 (F := Ideal) x0 x1 (ix2 b r) = Cert.Attn.refMax (Cert.Attn.msc (Q x0 x1 b) r) := by
  rw [val_main_v10_apply, val_main_v9_apply, val_main_cst_2_apply, v8_at]
  show max (Ideal.ofBits .f32 0xFF800000#32) _ = _
  rw [ofBits_neg_inf]
  rfl

/-- The exponential at (b, r, c): exp of the masked score less the row maximum. -/
theorem v14_at (b : Fin 4) (r c : Fin 2048) :
    val_main_v14 (F := Ideal) x0 x1 (ix3 b r c)
      = Ideal.exp (Cert.Attn.msc (Q x0 x1 b) r c - Cert.Attn.refMax (Cert.Attn.msc (Q x0 x1 b) r)) := by
  rw [val_main_v14_apply, val_main_v13_apply, val_main_v12_apply, val_main_v11_apply]
  have e : idx_main_v11 (idx_main_v12 (ix3 b r c)) = ix2 b r := funext fun a => Fin.ext (by
    match a with | ⟨0, _⟩ => rfl | ⟨1, _⟩ => rfl)
  rw [e, v10_at, v7_at]
  rfl

/-- The row sum of the exponentials at (b, r), from 0. -/
theorem v15_at (b : Fin 4) (r : Fin 2048) :
    val_main_v15 (F := Ideal) x0 x1 (ix2 b r)
      = 0 + ∑ c : Fin 2048, Ideal.exp (Cert.Attn.msc (Q x0 x1 b) r c - Cert.Attn.refMax (Cert.Attn.msc (Q x0 x1 b) r)) := by
  rw [val_main_v15_apply, val_main_cst_3_apply]
  show Ideal.ofBits .f32 0x00000000#32 + _ = _
  rw [Ideal.ofBits_zero_f32]
  refine congrArg (0 + ·) (Finset.sum_congr rfl fun k _ => ?_)
  have e : idx_main_v15 (ix2 b r) k = ix3 b r k := funext fun a => Fin.ext (by
    match a with | ⟨0, _⟩ => rfl | ⟨1, _⟩ => rfl | ⟨2, _⟩ => rfl)
  rw [e, v14_at]

/-- The softmax weight at (b, r, c): the exponential over the row sum. -/
theorem v18_at (b : Fin 4) (r c : Fin 2048) :
    val_main_v18 (F := Ideal) x0 x1 (ix3 b r c)
      = Ideal.div (Ideal.exp (Cert.Attn.msc (Q x0 x1 b) r c - Cert.Attn.refMax (Cert.Attn.msc (Q x0 x1 b) r)))
          (0 + ∑ c' : Fin 2048, Ideal.exp (Cert.Attn.msc (Q x0 x1 b) r c' - Cert.Attn.refMax (Cert.Attn.msc (Q x0 x1 b) r))) := by
  rw [val_main_v18_apply, val_main_v17_apply, val_main_v16_apply]
  have e : idx_main_v16 (idx_main_v17 (ix3 b r c)) = ix2 b r := funext fun a => Fin.ext (by
    match a with | ⟨0, _⟩ => rfl | ⟨1, _⟩ => rfl)
  rw [e, v15_at, v14_at]
  rfl

end

/-! ## The result -/

/-- THE REFERENCE'S RESULT AT (b, r, h): the direct softmax-weighted sum of batch b's projected rows, causal at row r. -/
theorem ref_value (x0 : (⟨S4x2048x1024, .f32⟩ : BufTy).Contents (Elt Ideal)) (x1 : (⟨S64x1024, .f32⟩ : BufTy).Contents (Elt Ideal))
    (b : Fin 4) (r : Fin 2048) (h : Fin 64) :
    val_main_v19 (F := Ideal) x0 x1 (ValueIdx.ix3 b r h)
      = Cert.Attn.attnRef (fun l h' => Cert.Attn.proj (fun b' l' k => x0 (ValueIdx.ix3 b' l' k)) (fun h'' k => x1 (ValueIdx.ix2 h'' k)) b l h') r h := by
  rw [val_main_v19_apply]
  show _ = Cert.Attn.refOut (Cert.Attn.msc (Q x0 x1 b) r) (fun c => Q x0 x1 b c h)
  unfold Cert.Attn.refOut
  refine Finset.sum_congr rfl fun k _ => ?_
  have e1 : lidx_main_v19 (ix3 b r h) k = ix3 b r k := funext fun a => Fin.ext (by
    match a with | ⟨0, _⟩ => rfl | ⟨1, _⟩ => rfl | ⟨2, _⟩ => rfl)
  have e2 : ridx_main_v19 (ix3 b r h) k = ix3 b k h := funext fun a => Fin.ext (by
    match a with | ⟨0, _⟩ => rfl | ⟨1, _⟩ => rfl | ⟨2, _⟩ => rfl)
  rw [e1, e2, v18_at, v0_at]

end Cert.RefValue

end
-- ==== Proof.OnlineSoftmax.lean ====
/-
  The online-softmax identity over the extended reals.

  For one row with scores s (each a real number or ⊥) and real values v, the tile-by-tile
  recurrence (m, l, a) of the specification, run over the first n tiles of 256 columns, returns
  the same number as the direct softmax over all 2048 columns, provided the first column is a
  real score and every column from 256 n on is masked (⊥).

  The proof moves to the reals at once.  For a real level M the weight of column c is
      wt M c = exp (s c - M)   for a real score,      wt M c = 0   for a masked one,
  and exp (s c - M) over the extended reals is the coercion of wt M c.  After k ≥ 1 tiles the
  state is
      m = M_k, the largest score among the columns below 256 k (a real number, attained),
      l = ∑ wt M_k c,     a = ∑ wt M_k c * v c       (sums over the columns below 256 k),
  because exp (M - M') * wt M c = wt M' c.  After n tiles M_n is the row maximum of the direct
  softmax, since the remaining columns are ⊥; the same columns contribute 0 to both sums; and the
  sum of the weights is at least exp 0 = 1, so that dividing by it is multiplying by a real
  reciprocal.
-/
import proofs.«418124_j83743272337485_3_alg».proof.Proof.Spec
import Mathlib.Data.Finset.Fold
import Mathlib.Data.EReal.Operations
import Mathlib.Analysis.Complex.Exponential
import Mathlib.Algebra.BigOperators.Group.Finset.Basic
import Mathlib.Algebra.Order.BigOperators.Group.Finset

noncomputable section

namespace Cert.Attn

open Idealize.ShloMosaic

namespace OnlineSoftmax

/-! ### Sums of coercions -/

/-- The coercion of a finite real sum is the sum of the coercions. -/
theorem coe_sum {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-! ### A maximum taken by folding from ⊥ -/

/-- Every entry is below the folded maximum. -/
theorem le_foldMax {ι : Type} [Fintype ι] (f : ι → EReal) (i : ι) :
    f i ≤ (Finset.univ : Finset ι).fold max ⊥ f :=
  ((Finset.fold_max_le _).mp (le_refl _)).2 i (Finset.mem_univ i)

/-- The folded maximum is ⊥ or one of the entries. -/
theorem foldMax_attained {ι : Type} [Fintype ι] (f : ι → EReal) :
    (Finset.univ : Finset ι).fold max ⊥ f = ⊥ ∨
      ∃ i, (Finset.univ : Finset ι).fold max ⊥ f = f i := by
  rcases (Finset.le_fold_max _).mp (le_refl ((Finset.univ : Finset ι).fold max ⊥ f)) with h | ⟨i, _, h⟩
  · exact Or.inl (le_bot_iff.mp h)
  · exact Or.inr ⟨i, le_antisymm h (le_foldMax f i)⟩

/-! ### The real weights -/

/-- The weight of column c relative to the real level M. -/
def wt (s : Fin 2048 → EReal) (M : ℝ) (c : Fin 2048) : ℝ :=
  if s c = ⊥ then 0 else Real.exp ((s c).toReal - M)

/-- The real value of column c. -/
def vr (v : Fin 2048 → EReal) (c : Fin 2048) : ℝ := (v c).toReal

theorem v_eq (v : Fin 2048 → EReal) (hv : ∀ c, ∃ x : ℝ, v c = (x : EReal)) (c : Fin 2048) :
    v c = ((vr v c : ℝ) : EReal) := by
  obtain ⟨x, h⟩ := hv c
  rw [vr, h, EReal.toReal_coe]

theorem wt_nonneg (s : Fin 2048 → EReal) (M : ℝ) (c : Fin 2048) : 0 ≤ wt s M c := by
  unfold wt
  split_ifs
  · exact le_refl _
  · exact (Real.exp_pos _).le

/-- The exponential of a shifted score is the coercion of the weight. -/
theorem exp_sub_eq_wt (s : Fin 2048 → EReal) (hs : ∀ c, s c = ⊥ ∨ ∃ x : ℝ, s c = (x : EReal))
    (M : ℝ) (c : Fin 2048) : Ideal.exp (s c - (M : EReal)) = ((wt s M c : ℝ) : EReal) := by
  unfold wt
  rcases hs c with h | ⟨x, h⟩
  · rw [h, EReal.bot_sub, Ideal.exp_bot, if_pos rfl, EReal.coe_zero]
  · rw [h, if_neg (EReal.coe_ne_bot x), EReal.toReal_coe, ← EReal.coe_sub, Ideal.exp_coe]

/-- Moving the level from M to M' multiplies every weight by exp (M - M'). -/
theorem wt_rescale (s : Fin 2048 → EReal) (M M' : ℝ) (c : Fin 2048) :
    Real.exp (M - M') * wt s M c = wt s M' c := by
  unfold wt
  split_ifs with h
  · exact mul_zero _
  · rw [← Real.exp_add]
    congr 1
    ring

/-- A column whose score is the level has weight 1. -/
theorem wt_self (s : Fin 2048 → EReal) (M : ℝ) (c : Fin 2048) (h : s c = (M : EReal)) :
    wt s M c = 1 := by
  rw [wt, h, if_neg (EReal.coe_ne_bot M), EReal.toReal_coe, sub_self, Real.exp_zero]

/-- A masked column has weight 0. -/
theorem wt_bot (s : Fin 2048 → EReal) (M : ℝ) (c : Fin 2048) (h : s c = ⊥) : wt s M c = 0 := by
  rw [wt, if_pos h]

/-! ### The columns below 256 k -/

/-- The columns of the first k tiles. -/
def upto (k : ℕ) : Finset (Fin 2048) := Finset.univ.filter (fun c => c.val < 256 * k)

theorem mem_upto (k : ℕ) (c : Fin 2048) : c ∈ upto k ↔ c.val < 256 * k := by
  simp only [upto, Finset.mem_filter, Finset.mem_univ, true_and]

theorem col_val (k : Fin 8) (j : Fin 256) : (col k j).val = 256 * k.val + j.val := rfl

theorem col_mem_upto_succ (k : ℕ) (h : k < 8) (j : Fin 256) : col ⟨k, h⟩ j ∈ upto (k + 1) := by
  rw [mem_upto, col_val]
  have := j.isLt
  show 256 * k + j.val < 256 * (k + 1)
  omega

theorem upto_subset_succ (k : ℕ) : upto k ⊆ upto (k + 1) := by
  intro c hc
  rw [mem_upto] at hc ⊢
  omega

theorem upto_succ (k : ℕ) (h : k < 8) :
    upto (k + 1) = upto k ∪ (Finset.univ : Finset (Fin 256)).image (col ⟨k, h⟩) := by
  ext c
  rw [Finset.mem_union, mem_upto, mem_upto, Finset.mem_image]
  constructor
  · intro hc
    by_cases h1 : c.val < 256 * k
    · exact Or.inl h1
    · refine Or.inr ⟨⟨c.val - 256 * k, by omega⟩, Finset.mem_univ _, ?_⟩
      apply Fin.ext
      rw [col_val]
      show 256 * k + (c.val - 256 * k) = c.val
      omega
  · rintro (h1 | ⟨j, _, rfl⟩)
    · omega
    · rw [col_val]
      have := j.isLt
      show 256 * k + j.val < 256 * (k + 1)
      omega

theorem upto_disjoint (k : ℕ) (h : k < 8) :
    Disjoint (upto k) ((Finset.univ : Finset (Fin 256)).image (col ⟨k, h⟩)) := by
  rw [Finset.disjoint_left]
  intro c hc hc'
  obtain ⟨j, _, rfl⟩ := Finset.mem_image.mp hc'
  rw [mem_upto, col_val] at hc
  have : 256 * k + j.val < 256 * k := hc
  omega

theorem col_injective (k : Fin 8) : Function.Injective (col k) := by
  intro j j' hjj
  have := congrArg Fin.val hjj
  rw [col_val, col_val] at this
  apply Fin.ext
  omega

/-- A sum over the first k + 1 tiles is the sum over the first k plus the sum over tile k. -/
theorem sum_upto_succ (k : ℕ) (h : k < 8) (f : Fin 2048 → ℝ) :
    ∑ c ∈ upto (k + 1), f c = ∑ c ∈ upto k, f c + ∑ j : Fin 256, f (col ⟨k, h⟩ j) := by
  rw [upto_succ k h, Finset.sum_union (upto_disjoint k h),
    Finset.sum_image (fun x _ y _ hxy => col_injective ⟨k, h⟩ hxy)]

theorem upto_zero : upto 0 = ∅ := by
  ext c
  rw [mem_upto]
  simp

/-! ### One tile -/

theorem le_rowMax (t : Fin 256 → EReal) (j : Fin 256) : t j ≤ rowMax t := le_foldMax t j

theorem rowMax_attained (t : Fin 256 → EReal) : rowMax t = ⊥ ∨ ∃ j, rowMax t = t j :=
  foldMax_attained t

/-- A tile's maximum is ⊥ or a real number. -/
theorem rowMax_cases (s : Fin 2048 → EReal) (hs : ∀ c, s c = ⊥ ∨ ∃ x : ℝ, s c = (x : EReal))
    (k : Fin 8) :
    rowMax (fun j => s (col k j)) = ⊥ ∨ ∃ x : ℝ, rowMax (fun j => s (col k j)) = (x : EReal) := by
  rcases rowMax_attained (fun j => s (col k j)) with h | ⟨j, h⟩
  · exact Or.inl h
  · rw [h]
    exact hs (col k j)

/-- From a real running maximum the next running maximum is real and not smaller. -/
theorem stepM_real (s : Fin 2048 → EReal) (hs : ∀ c, s c = ⊥ ∨ ∃ x : ℝ, s c = (x : EReal))
    (k : Fin 8) (M : ℝ) :
    ∃ M' : ℝ, stepM (M : EReal) (fun j => s (col k j)) = (M' : EReal) := by
  unfold stepM
  rcases rowMax_cases s hs k with h | ⟨x, h⟩
  · rw [h]
    exact ⟨M, max_eq_left bot_le⟩
  · rw [h]
    rcases le_total M x with hx | hx
    · exact ⟨x, max_eq_right (EReal.coe_le_coe_iff.mpr hx)⟩
    · exact ⟨M, max_eq_left (EReal.coe_le_coe_iff.mpr hx)⟩

/-- A tile's sum of exponentials at a real level. -/
theorem tile_sum (s : Fin 2048 → EReal) (hs : ∀ c, s c = ⊥ ∨ ∃ x : ℝ, s c = (x : EReal))
    (k : Fin 8) (M : ℝ) :
    ∑ j : Fin 256, Ideal.exp (s (col k j) - (M : EReal))
      = ((∑ j : Fin 256, wt s M (col k j) : ℝ) : EReal) := by
  rw [coe_sum]
  exact Finset.sum_congr rfl (fun j _ => exp_sub_eq_wt s hs M (col k j))

/-- A tile's weighted sum of values at a real level. -/
theorem tile_wsum (s v : Fin 2048 → EReal) (hs : ∀ c, s c = ⊥ ∨ ∃ x : ℝ, s c = (x : EReal))
    (hv : ∀ c, ∃ x : ℝ, v c = (x : EReal)) (k : Fin 8) (M : ℝ) :
    ∑ j : Fin 256, Ideal.exp (s (col k j) - (M : EReal)) * v (col k j)
      = ((∑ j : Fin 256, wt s M (col k j) * vr v (col k j) : ℝ) : EReal) := by
  rw [coe_sum]
  refine Finset.sum_congr rfl (fun j _ => ?_)
  rw [exp_sub_eq_wt s hs M (col k j), v_eq v hv (col k j), ← EReal.coe_mul]

/-- The running sum after a tile, from a real state. -/
theorem stepL_real (s : Fin 2048 → EReal) (hs : ∀ c, s c = ⊥ ∨ ∃ x : ℝ, s c = (x : EReal))
    (k : Fin 8) (M M' L : ℝ) (hM : stepM (M : EReal) (fun j => s (col k j)) = (M' : EReal)) :
    stepL (M : EReal) (L : EReal) (fun j => s (col k j))
      = ((Real.exp (M - M') * L + ∑ j : Fin 256, wt s M' (col k j) : ℝ) : EReal) := by
  show Ideal.exp ((M : EReal) - stepM (M : EReal) (fun j => s (col k j))) * (L : EReal)
      + ∑ j : Fin 256, Ideal.exp (s (col k j) - stepM (M : EReal) (fun j => s (col k j))) = _
  rw [hM, tile_sum s hs k M', ← EReal.coe_sub, Ideal.exp_coe, ← EReal.coe_mul, ← EReal.coe_add]

/-- The running weighted sum after a tile, from a real state. -/
theorem stepA_real (s v : Fin 2048 → EReal) (hs : ∀ c, s c = ⊥ ∨ ∃ x : ℝ, s c = (x : EReal))
    (hv : ∀ c, ∃ x : ℝ, v c = (x : EReal))
    (k : Fin 8) (M M' A : ℝ) (hM : stepM (M : EReal) (fun j => s (col k j)) = (M' : EReal)) :
    stepA (M : EReal) (A : EReal) (fun j => s (col k j)) (fun j => v (col k j))
      = ((Real.exp (M - M') * A + ∑ j : Fin 256, wt s M' (col k j) * vr v (col k j) : ℝ) : EReal) := by
  show Ideal.exp ((M : EReal) - stepM (M : EReal) (fun j => s (col k j))) * (A : EReal)
      + ∑ j : Fin 256, Ideal.exp (s (col k j) - stepM (M : EReal) (fun j => s (col k j)))
          * v (col k j) = _
  rw [hM, tile_wsum s v hs hv k M', ← EReal.coe_sub, Ideal.exp_coe, ← EReal.coe_mul,
    ← EReal.coe_add]

/-- The running sum after the first tile: the empty state contributes nothing. -/
theorem stepL_first (s : Fin 2048 → EReal) (hs : ∀ c, s c = ⊥ ∨ ∃ x : ℝ, s c = (x : EReal))
    (k : Fin 8) (M' : ℝ) (hM : stepM ⊥ (fun j => s (col k j)) = (M' : EReal)) :
    stepL ⊥ 0 (fun j => s (col k j)) = ((∑ j : Fin 256, wt s M' (col k j) : ℝ) : EReal) := by
  show Ideal.exp (⊥ - stepM ⊥ (fun j => s (col k j))) * 0
      + ∑ j : Fin 256, Ideal.exp (s (col k j) - stepM ⊥ (fun j => s (col k j))) = _
  rw [hM, mul_zero, zero_add, tile_sum s hs k M']

/-- The running weighted sum after the first tile. -/
theorem stepA_first (s v : Fin 2048 → EReal) (hs : ∀ c, s c = ⊥ ∨ ∃ x : ℝ, s c = (x : EReal))
    (hv : ∀ c, ∃ x : ℝ, v c = (x : EReal))
    (k : Fin 8) (M' : ℝ) (hM : stepM ⊥ (fun j => s (col k j)) = (M' : EReal)) :
    stepA ⊥ 0 (fun j => s (col k j)) (fun j => v (col k j))
      = ((∑ j : Fin 256, wt s M' (col k j) * vr v (col k j) : ℝ) : EReal) := by
  show Ideal.exp (⊥ - stepM ⊥ (fun j => s (col k j))) * 0
      + ∑ j : Fin 256, Ideal.exp (s (col k j) - stepM ⊥ (fun j => s (col k j))) * v (col k j) = _
  rw [hM, mul_zero, zero_add, tile_wsum s v hs hv k M']

/-- The order part of a step: if m bounds the scores of the first k tiles and is ⊥ or attained
    there, and the next running maximum is the real M', then M' bounds the scores of the first
    k + 1 tiles and is attained there. -/
theorem order_step (s : Fin 2048 → EReal) (k : ℕ) (h : k < 8) (m : EReal) (M' : ℝ)
    (hle : ∀ c ∈ upto k, s c ≤ m) (hatt : m = ⊥ ∨ ∃ c ∈ upto k, s c = m)
    (hM : stepM m (fun j => s (col ⟨k, h⟩ j)) = (M' : EReal)) :
    (∀ c ∈ upto (k + 1), s c ≤ (M' : EReal)) ∧ ∃ c ∈ upto (k + 1), s c = (M' : EReal) := by
  have hmax : max m (rowMax (fun j => s (col ⟨k, h⟩ j))) = (M' : EReal) := hM
  constructor
  · intro c hc
    rw [upto_succ k h, Finset.mem_union, Finset.mem_image] at hc
    rw [← hmax]
    rcases hc with hc | ⟨j, _, rfl⟩
    · exact le_trans (hle c hc) (le_max_left _ _)
    · exact le_trans (le_rowMax (fun j => s (col ⟨k, h⟩ j)) j) (le_max_right _ _)
  · rcases le_total m (rowMax (fun j => s (col ⟨k, h⟩ j))) with hmr | hmr
    · rw [max_eq_right hmr] at hmax
      rcases rowMax_attained (fun j => s (col ⟨k, h⟩ j)) with hb | ⟨j, hj⟩
      · exfalso
        rw [hb] at hmax
        exact EReal.coe_ne_bot M' hmax.symm
      · exact ⟨col ⟨k, h⟩ j, col_mem_upto_succ k h j, hj.symm.trans hmax⟩
    · rw [max_eq_left hmr] at hmax
      rcases hatt with hb | ⟨c, hc, hcm⟩
      · exfalso
        rw [hb] at hmax
        exact EReal.coe_ne_bot M' hmax.symm
      · exact ⟨c, upto_subset_succ k hc, hcm.trans hmax⟩

/-! ### The recurrence's state after k tiles -/

theorem onl_succ (s v : Fin 2048 → EReal) (k : ℕ) (h : k < 8) :
    onl s v (k + 1) =
      (stepM (onl s v k).1 (fun j => s (col ⟨k, h⟩ j)),
       stepL (onl s v k).1 (onl s v k).2.1 (fun j => s (col ⟨k, h⟩ j)),
       stepA (onl s v k).1 (onl s v k).2.2 (fun j => s (col ⟨k, h⟩ j))
         (fun j => v (col ⟨k, h⟩ j))) := by
  rw [onl, dif_pos h]

/-- After k tiles: the running maximum is the real M, the largest score of the first k tiles;
    the running sums are the sums of the weights at level M over those tiles. -/
structure Inv (s v : Fin 2048 → EReal) (k : ℕ) (M : ℝ) : Prop where
  m_eq : (onl s v k).1 = (M : EReal)
  le : ∀ c ∈ upto k, s c ≤ (M : EReal)
  att : ∃ c ∈ upto k, s c = (M : EReal)
  l_eq : (onl s v k).2.1 = ((∑ c ∈ upto k, wt s M c : ℝ) : EReal)
  a_eq : (onl s v k).2.2 = ((∑ c ∈ upto k, wt s M c * vr v c : ℝ) : EReal)

/-- The state after the first tile. -/
theorem inv_one (s v : Fin 2048 → EReal) (hs : ∀ c, s c = ⊥ ∨ ∃ x : ℝ, s c = (x : EReal))
    (hv : ∀ c, ∃ x : ℝ, v c = (x : EReal))
    (h0 : ∃ x : ℝ, s (col ⟨0, by decide⟩ ⟨0, by decide⟩) = (x : EReal)) :
    ∃ M : ℝ, Inv s v 1 M := by
  have h8 : (0 : ℕ) < 8 := by decide
  obtain ⟨x0, hx0⟩ := h0
  -- the first tile's maximum is real: it is at least the real first score
  have hR : ∃ M : ℝ, rowMax (fun j => s (col ⟨0, h8⟩ j)) = (M : EReal) := by
    rcases rowMax_cases s hs ⟨0, h8⟩ with hb | hx
    · exfalso
      have hle := le_rowMax (fun j => s (col ⟨0, h8⟩ j)) ⟨0, by decide⟩
      rw [hb] at hle
      have hle' : s (col ⟨0, h8⟩ ⟨0, by decide⟩) ≤ ⊥ := hle
      rw [hx0] at hle'
      exact EReal.coe_ne_bot x0 (le_bot_iff.mp hle')
    · exact hx
  obtain ⟨M, hRM⟩ := hR
  have hM : stepM ⊥ (fun j => s (col ⟨0, h8⟩ j)) = (M : EReal) := by
    unfold stepM
    rw [hRM]
    exact max_eq_right bot_le
  have h00 : onl s v 0 = (⊥, 0, 0) := rfl
  obtain ⟨hle, hatt⟩ := order_step s 0 h8 ⊥ M
    (fun c hc => by rw [upto_zero] at hc; exact absurd hc (Finset.notMem_empty c)) (Or.inl rfl) hM
  refine ⟨M, ?_, hle, hatt, ?_, ?_⟩
  · rw [onl_succ s v 0 h8, h00]
    exact hM
  · rw [onl_succ s v 0 h8, h00]
    show stepL ⊥ 0 (fun j => s (col ⟨0, h8⟩ j)) = _
    rw [stepL_first s hs ⟨0, h8⟩ M hM, sum_upto_succ 0 h8, upto_zero, Finset.sum_empty, zero_add]
  · rw [onl_succ s v 0 h8, h00]
    show stepA ⊥ 0 (fun j => s (col ⟨0, h8⟩ j)) (fun j => v (col ⟨0, h8⟩ j)) = _
    rw [stepA_first s v hs hv ⟨0, h8⟩ M hM, sum_upto_succ 0 h8, upto_zero, Finset.sum_empty,
      zero_add]

/-- The state after one more tile. -/
theorem inv_succ (s v : Fin 2048 → EReal) (hs : ∀ c, s c = ⊥ ∨ ∃ x : ℝ, s c = (x : EReal))
    (hv : ∀ c, ∃ x : ℝ, v c = (x : EReal)) (k : ℕ) (h : k < 8) (M : ℝ) (hI : Inv s v k M) :
    ∃ M' : ℝ, Inv s v (k + 1) M' := by
  obtain ⟨M', hM'⟩ := stepM_real s hs ⟨k, h⟩ M
  obtain ⟨hle, hatt⟩ := order_step s k h (M : EReal) M' hI.le (Or.inr hI.att) hM'
  refine ⟨M', ?_, hle, hatt, ?_, ?_⟩
  · rw [onl_succ s v k h]
    show stepM (onl s v k).1 (fun j => s (col ⟨k, h⟩ j)) = _
    rw [hI.m_eq]
    exact hM'
  · rw [onl_succ s v k h]
    show stepL (onl s v k).1 (onl s v k).2.1 (fun j => s (col ⟨k, h⟩ j)) = _
    have e : ∑ c ∈ upto k, Real.exp (M - M') * wt s M c = ∑ c ∈ upto k, wt s M' c :=
      Finset.sum_congr rfl (fun c _ => wt_rescale s M M' c)
    rw [hI.m_eq, hI.l_eq, stepL_real s hs ⟨k, h⟩ M M' _ hM', sum_upto_succ k h, Finset.mul_sum, e]
  · rw [onl_succ s v k h]
    show stepA (onl s v k).1 (onl s v k).2.2 (fun j => s (col ⟨k, h⟩ j))
      (fun j => v (col ⟨k, h⟩ j)) = _
    have e : ∑ c ∈ upto k, Real.exp (M - M') * (wt s M c * vr v c)
        = ∑ c ∈ upto k, wt s M' c * vr v c :=
      Finset.sum_congr rfl (fun c _ => by rw [← mul_assoc, wt_rescale s M M' c])
    rw [hI.m_eq, hI.a_eq, stepA_real s v hs hv ⟨k, h⟩ M M' _ hM', sum_upto_succ k h,
      Finset.mul_sum, e]

/-- The state after any number k of tiles, 1 ≤ k ≤ 8. -/
theorem inv_all (s v : Fin 2048 → EReal) (hs : ∀ c, s c = ⊥ ∨ ∃ x : ℝ, s c = (x : EReal))
    (hv : ∀ c, ∃ x : ℝ, v c = (x : EReal))
    (h0 : ∃ x : ℝ, s (col ⟨0, by decide⟩ ⟨0, by decide⟩) = (x : EReal))
    (k : ℕ) (hk1 : 1 ≤ k) (hk8 : k ≤ 8) : ∃ M : ℝ, Inv s v k M := by
  induction k, hk1 using Nat.le_induction with
  | base => exact inv_one s v hs hv h0
  | succ k hk ih =>
    obtain ⟨M, hI⟩ := ih (by omega)
    exact inv_succ s v hs hv k (by omega) M hI

end OnlineSoftmax

/-! ### The identity -/

open OnlineSoftmax in
/-- The recurrence over the first n tiles returns the direct softmax-weighted sum. -/
theorem onlOut_eq_refOut (s v : Fin 2048 → EReal) (n : ℕ) (hn : 1 ≤ n) (hn8 : n ≤ 8)
    (hs : ∀ c, s c = ⊥ ∨ ∃ x : ℝ, s c = (x : EReal)) (hv : ∀ c, ∃ x : ℝ, v c = (x : EReal))
    (hlive : ∀ k : Fin 8, k.val < n → ∃ x : ℝ, s (col k ⟨0, by decide⟩) = (x : EReal))
    (hdead : ∀ c : Fin 2048, 256 * n ≤ c.val → s c = ⊥) :
    onlOut s v n = refOut s v := by
  obtain ⟨M, hI⟩ := inv_all s v hs hv (hlive ⟨0, by decide⟩ hn) n hn hn8
  -- the running maximum after n tiles is the row maximum: the remaining columns are ⊥
  have href : refMax s = (M : EReal) := by
    unfold refMax
    rw [max_eq_right bot_le]
    apply le_antisymm
    · rcases foldMax_attained s with hb | ⟨c, hc⟩
      · rw [hb]
        exact bot_le
      · rw [hc]
        by_cases hcn : c.val < 256 * n
        · exact hI.le c ((mem_upto n c).mpr hcn)
        · rw [hdead c (by omega)]
          exact bot_le
    · obtain ⟨c, _, hc⟩ := hI.att
      rw [← hc]
      exact le_foldMax s c
  -- a sum over the first n tiles is the sum over all columns when masked columns contribute 0
  have hfull : ∀ f : Fin 2048 → ℝ, (∀ c, s c = ⊥ → f c = 0) →
      ∑ c ∈ upto n, f c = ∑ c, f c := by
    intro f hf
    apply Finset.sum_subset (Finset.subset_univ _)
    intro c _ hc
    apply hf
    apply hdead
    rw [mem_upto] at hc
    omega
  obtain ⟨L, hL⟩ : ∃ L : ℝ, ∑ c ∈ upto n, wt s M c = L := ⟨_, rfl⟩
  obtain ⟨A, hA⟩ : ∃ A : ℝ, ∑ c ∈ upto n, wt s M c * vr v c = A := ⟨_, rfl⟩
  have hl : (onl s v n).2.1 = (L : EReal) := by rw [← hL]; exact hI.l_eq
  have ha : (onl s v n).2.2 = (A : EReal) := by rw [← hA]; exact hI.a_eq
  -- the sum of the weights is at least the weight 1 of a column where the maximum is attained
  have hL0 : L ≠ 0 := by
    obtain ⟨c, hc, hcM⟩ := hI.att
    have h1 : wt s M c ≤ ∑ c ∈ upto n, wt s M c :=
      Finset.single_le_sum (fun c _ => wt_nonneg s M c) hc
    rw [wt_self s M c hcM, hL] at h1
    intro h0
    rw [h0] at h1
    exact absurd h1 (by norm_num)
  have hLfull : ∑ c, wt s M c = L := by
    rw [← hL]
    exact (hfull _ (fun c hc => wt_bot s M c hc)).symm
  have hAfull : ∑ c, wt s M c * vr v c = A := by
    rw [← hA]
    exact (hfull _ (fun c hc => by rw [wt_bot s M c hc, zero_mul])).symm
  -- the recurrence's value
  have honl : onlOut s v n = ((A * (1 / L) : ℝ) : EReal) := by
    unfold onlOut
    rw [ha, hl, Ideal.div_coe hL0, one_mul, ← EReal.coe_mul]
  -- the direct softmax's denominator
  have hsum : (0 : EReal) + ∑ c' : Fin 2048, Ideal.exp (s c' - refMax s) = (L : EReal) := by
    rw [zero_add, href, ← hLfull, coe_sum]
    exact Finset.sum_congr rfl (fun c _ => exp_sub_eq_wt s hs M c)
  -- the direct softmax's value
  have hrefOut : refOut s v = ((A * (1 / L) : ℝ) : EReal) := by
    unfold refOut
    rw [hsum, ← hAfull, Finset.sum_mul, coe_sum]
    refine Finset.sum_congr rfl (fun c _ => ?_)
    rw [href, exp_sub_eq_wt s hs M c, Ideal.div_coe hL0, v_eq v hv c, ← EReal.coe_mul,
      ← EReal.coe_mul]
    congr 1
    ring
  rw [honl, hrefOut]

end Cert.Attn

end
-- ==== Proof.Bridge.lean ====
/-
  Three facts that join the pieces of the certificate, none about a program's run.

  (1) For finite projected rows q the tile-by-tile recurrence, run over the tiles up to the one holding the diagonal,
      returns the direct causal softmax: attnOnl q r h = attnRef q r h.  Row r's masked scores are ⊥ above the diagonal
      and a real number (a finite sum of products of reals, times 1/32) on and below it; tile k's first column 256 k is
      on or below the diagonal for k ≤ r / 256; every column from 256 (r / 256 + 1) on is above it.
  (2) The projection of finite inputs is finite: a finite sum of products of reals.
  (3) The precondition "every |entry| is below +∞", stated as a conjunction of two all-reductions of comparisons,
      gives that every entry of both inputs is a real number.
-/
import proofs.«418124_j83743272337485_3_alg».proof.Proof.OnlineSoftmax
import proofs.«418124_j83743272337485_3_alg».proof.Proof.Spec
import proofs.«418124_j83743272337485_3_alg».proof.Pre_finite_inputs
import proofs.«418124_j83743272337485_3_alg».proof.Proof.Gen.Pre_finite_inputs
import Idealize.ShloMosaic.Lib.ReduceAll
import Idealize.ShloMosaic.Lib.ValueIdx
import Idealize.ShloMosaic.Lib.StableHlo.Predicate
import Idealize.ShloMosaic.PureOps.Ideal.Laws

noncomputable section

namespace Cert.Bridge

open Idealize.ShloMosaic

/-! ## Real numbers inside the extended reals -/

/-- A finite sum of extended reals that are real numbers is a real number. -/
theorem sum_real {ι : Type} (S : Finset ι) (f : ι → EReal) (hf : ∀ i ∈ S, ∃ y : ℝ, f i = (y : EReal)) :
    ∃ y : ℝ, ∑ i ∈ S, f i = (y : EReal) := by
  classical
  revert hf
  refine Finset.induction_on S (fun _ => ⟨0, by rw [Finset.sum_empty, EReal.coe_zero]⟩) ?_
  intro a S ha ih hf
  obtain ⟨y, hy⟩ := hf a (Finset.mem_insert_self a S)
  obtain ⟨z, hz⟩ := ih (fun i hi => hf i (Finset.mem_insert_of_mem hi))
  exact ⟨y + z, by rw [Finset.sum_insert ha, hy, hz, EReal.coe_add]⟩

/-- A product of two real numbers is a real number. -/
theorem mul_real {a b : EReal} (ha : ∃ y : ℝ, a = (y : EReal)) (hb : ∃ y : ℝ, b = (y : EReal)) :
    ∃ y : ℝ, a * b = (y : EReal) := by
  obtain ⟨y, rfl⟩ := ha
  obtain ⟨z, rfl⟩ := hb
  exact ⟨y * z, (EReal.coe_mul y z).symm⟩

/-- The score scale is the real number 1/32. -/
theorem scale_real : ∃ y : ℝ, Cert.Attn.scale = (y : EReal) := by
  refine ⟨1 / 32, ?_⟩
  show Ideal.ofBits .f32 0x3D000000#32 = _
  simp [Ideal.ofBits, Ideal.ieee, -EReal.coe_mul]; norm_num

/-! ## (2) The projection of finite inputs -/

open Cert.Attn in
theorem proj_real (x : Fin 4 → Fin 2048 → Fin 1024 → EReal) (w : Fin 64 → Fin 1024 → EReal)
    (hx : ∀ b l k, ∃ y : ℝ, x b l k = (y : EReal)) (hw : ∀ h k, ∃ y : ℝ, w h k = (y : EReal)) (b : Fin 4) (l : Fin 2048) (h : Fin 64) :
    ∃ y : ℝ, proj x w b l h = (y : EReal) := by
  unfold proj
  exact sum_real _ _ fun k _ => mul_real (hx b l k) (hw h k)

/-! ## (1) The recurrence up to the diagonal's tile is the direct causal softmax -/

/-- On and below the diagonal the masked score is a real number. -/
theorem msc_real (q : Fin 2048 → Fin 64 → EReal) (hq : ∀ l h, ∃ x : ℝ, q l h = (x : EReal)) (r c : Fin 2048)
    (hc : c.val ≤ r.val) : ∃ x : ℝ, Cert.Attn.msc q r c = (x : EReal) := by
  unfold Cert.Attn.msc
  rw [if_pos hc]
  exact mul_real (sum_real _ _ fun h _ => mul_real (hq r h) (hq c h)) scale_real

open Cert.Attn in
theorem attnOnl_eq_attnRef (q : Fin 2048 → Fin 64 → EReal) (hq : ∀ l h, ∃ x : ℝ, q l h = (x : EReal)) (r : Fin 2048) (h : Fin 64) :
    attnOnl q r h = attnRef q r h := by
  unfold attnOnl attnRef
  have hr := r.isLt
  refine onlOut_eq_refOut (msc q r) (fun c => q c h) (r.val / 256 + 1) (by omega) (by omega) ?_ (fun c => hq c h) ?_ ?_
  · intro c
    by_cases hc : c.val ≤ r.val
    · exact Or.inr (msc_real q hq r c hc)
    · refine Or.inl ?_
      unfold msc
      rw [if_neg hc]
  · intro k hk
    refine msc_real q hq r _ ?_
    show 256 * k.val + 0 ≤ r.val
    omega
  · intro c hc
    unfold msc
    rw [if_neg (by omega)]

/-! ## (3) The precondition gives real entries -/

/-- An extended real whose absolute value is below the word 0x7F800000 (+∞) is a real number. -/
theorem real_of_abs_lt_inf (x : EReal)
    (h : Ideal.cmp .olt (max x (-x)) (Ideal.ofBits .f32 0x7F800000#32) = 1#1) : ∃ y : ℝ, x = (y : EReal) := by
  have hinf : Ideal.ofBits .f32 0x7F800000#32 = ⊤ := by simp [Ideal.ofBits, Ideal.ieee]
  rw [hinf] at h
  have h' : BitVec.ofBool (decide (max x (-x) < ⊤)) = 1#1 := h
  have hlt : max x (-x) < ⊤ := of_decide_eq_true ((StableHlo.Predicate.ofBool_eq_one_iff _).1 h')
  induction x using EReal.rec with
  | bot => rw [EReal.neg_bot, max_eq_right bot_le] at hlt; exact absurd hlt (lt_irrefl _)
  | top => rw [EReal.neg_top, max_eq_left bot_le] at hlt; exact absurd hlt (lt_irrefl _)
  | coe r => exact ⟨r, rfl⟩

instance : Subsingleton Cert.Pre_finite_inputs.S_.Idx := ⟨fun a b => funext fun d => d.elim0⟩

open Idealize.ShloMosaic in
theorem finite_of_pre [Cert.Pre_finite_inputs.Facts]
    (X0 : (⟨Cert.Pre_finite_inputs.S4x2048x1024, .f32⟩ : BufTy).Contents (Elt Ideal)) (X1 : (⟨Cert.Pre_finite_inputs.S64x1024, .f32⟩ : BufTy).Contents (Elt Ideal))
    (hpre : Cert.Pre_finite_inputs.fn (F := Ideal) X0 X1 = fun _ => 1#1) :
    (∀ i, ∃ y : ℝ, X0 i = (y : EReal)) ∧ (∀ i, ∃ y : ℝ, X1 i = (y : EReal)) := by
  have h0 := congrFun hpre ValueIdx.ix0
  dsimp only [Cert.Pre_finite_inputs.fn] at h0
  obtain ⟨ha, hb⟩ := IntOp.andi_eq_one.1 h0
  refine ⟨fun i => ?_, fun i => ?_⟩
  · have e := Host.reduce_andi_all _ _ _ _ _ ha i
    have e' : Ideal.cmp .olt (max (X0 i) (-(X0 i)))
        (broadcastInDim Cert.Pre_finite_inputs.S4x2048x1024 ![] Cert.Pre_finite_inputs.Facts.bcast_S_S4x2048x1024
          (constant (F := Ideal) Cert.Pre_finite_inputs.S_ .f32 0x7F800000#32) i) = 1#1 := e
    rw [StableHlo.Predicate.bcast_scalar _ Cert.Pre_finite_inputs.Facts.h_S_] at e'
    exact real_of_abs_lt_inf (X0 i) e'
  · have e := Host.reduce_andi_all _ _ _ _ _ hb i
    have e' : Ideal.cmp .olt (max (X1 i) (-(X1 i)))
        (broadcastInDim Cert.Pre_finite_inputs.S64x1024 ![] Cert.Pre_finite_inputs.Facts.bcast_S_S64x1024
          (constant (F := Ideal) Cert.Pre_finite_inputs.S_ .f32 0x7F800000#32) i) = 1#1 := e
    rw [StableHlo.Predicate.bcast_scalar _ Cert.Pre_finite_inputs.Facts.h_S_] at e'
    exact real_of_abs_lt_inf (X1 i) e'

end Cert.Bridge

end
-- ==== Proof.KI.Final.lean ====
/-
  The kernel's result array is the reference's result, over the extended reals, for finite inputs.

  Along the program: the projection's left operand is the input x[b, l, ·] with batch and row merged
  (row 2048 b + l), its right operand the weight transposed; the projection region leaves their
  product; the attention region reads that product with its row axis split back into batch and row.
  So what the attention region reads at (b, l, h') is the projection of row l of batch b against
  weight row h', the sum over k of x[b, l, k] * w[h', k]. The attention region leaves, at (b, r, h),
  the tile recurrence's output for row r of these projected rows; the reference computes the direct
  causal softmax-weighted sum of the same projected rows. With finite inputs the projected rows are
  real, and on real rows the recurrence's output and the direct sum agree.
-/
import proofs.«418124_j83743272337485_3_alg».proof.Proof.KI.Run
import proofs.«418124_j83743272337485_3_alg».proof.Proof.KI.ProjValue
import proofs.«418124_j83743272337485_3_alg».proof.Proof.KI.AttnValue
import proofs.«418124_j83743272337485_3_alg».proof.Proof.RefValue
import proofs.«418124_j83743272337485_3_alg».proof.Proof.Bridge
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HandV

open Idealize.ShloMosaic Idealize.ShloMosaic.TcCoe Idealize.ShloMosaic.ValueIdx Idealize.ShloMosaic.Pipeline Idealize.ShloMosaic.StableHlo Cert.KernelIdeal Cert.KernelIdeal.Gen Cert.KernelIdeal.Hand Cert.Attn

section Main

variable (m : (ℓ : Loc nD τ sig) → Buf (Elt Ideal) ℓ) (c : Dev nD)

/-- The input activations, as the launch memory holds them. -/
abbrev inX : Vec Ideal S4x2048x1024 .f32 := m ((c.tc : Thread nD τ).loc main_arg0)
/-- The projection weight, as the launch memory holds it. -/
abbrev inW : Vec Ideal S64x1024 .f32 := m ((c.tc : Thread nD τ).loc main_arg1)

/-! ## The three host operations -/

/-- The projection's left operand is the input with its batch and row axes merged. -/
theorem E1_v0 : (E1 m c main_v0 : Vec Ideal S8192x1024 .f32)
    = shapeCast S8192x1024 (inX m c) shapeCasts_S4x2048x1024_S8192x1024 := by
  show StableHlo.after hostOps0 (fun b => m (c, b)) (Proc.devRef .tc main_v0) = _
  after_results
  rfl

/-- The projection's right operand is the weight transposed. -/
theorem E1_v1 : (E1 m c main_v1 : Vec Ideal S1024x64 .f32)
    = transpose S1024x64 [1, 0] (inW m c) transposes_S64x1024_S1024x64_1_0 := by
  show StableHlo.after hostOps0 (fun b => m (c, b)) (Proc.devRef .tc main_v1) = _
  after_results

/-- The attention region's input is the projection's result with its row axis split into batch and row. -/
theorem E3_v3 : (E3 m c main_v3 : Vec Ideal S4x2048x64 .f32)
    = shapeCast S4x2048x64 (matProd (arrX (E1 m) c) (arrW (E1 m) c)) shapeCasts_S8192x64_S4x2048x64 := by
  have e : (X2 m c (Proc.devRef .tc main_v2) : Vec Ideal S8192x64 .f32) = matProd (arrX (E1 m) c) (arrW (E1 m) c) :=
    (X2_arr m c 2).trans (proj_arr_eq (E1 m) c)
  show StableHlo.after hostOps1 (X2 m c) (Proc.devRef .tc main_v3) = _
  after_results
  rw [e]
  rfl

/-! ## The same, read at explicit coordinates -/

/-- Row 2048 b + l of the merged input is row l of batch b. -/
theorem v0_apply (b : Fin 4) (l : Fin 2048) (k : Fin 1024) (r : Fin 8192) (hr : r.val = 2048 * b.val + l.val) :
    arrX (E1 m) c (ix2 r k) = inX m c (ix3 b l k) := by
  refine (congrFun (E1_v0 m c) (ix2 r k)).trans ?_
  refine shapeCast_apply (inX m c) _ (ix2 r k) (ix3 b l k) ?_
  rw [Shape.rowMajor_val_three, Shape.rowMajor_val_two]
  show (b.val * 2048 + l.val) * 1024 + k.val = r.val * 1024 + k.val
  rw [hr]
  omega

/-- Entry (k, h') of the transposed weight is entry (h', k) of the weight. -/
theorem v1_apply (k : Fin 1024) (h' : Fin 64) : arrW (E1 m) c (ix2 k h') = inW m c (ix2 h' k) := by
  refine (congrFun (E1_v1 m c) (ix2 k h')).trans ?_
  exact transpose_ix2_apply (inW m c) _ k h'

/-- The attention region's input at (b, l, h') is the projection of row l of batch b against weight row h'. -/
theorem v3_apply (b : Fin 4) (l : Fin 2048) (h' : Fin 64) :
    (E3 m c main_v3 : Vec Ideal S4x2048x64 .f32) (ix3 b l h')
      = proj (fun b' l' k => inX m c (ix3 b' l' k)) (fun h'' k => inW m c (ix2 h'' k)) b l h' := by
  have e1 : (E3 m c main_v3 : Vec Ideal S4x2048x64 .f32) (ix3 b l h')
      = matProd (arrX (E1 m) c) (arrW (E1 m) c) (ix2 (⟨2048 * b.val + l.val, by omega⟩ : Fin 8192) h') := by
    refine (congrFun (E3_v3 m c) (ix3 b l h')).trans ?_
    refine shapeCast_apply (matProd (arrX (E1 m) c) (arrW (E1 m) c)) _ (ix3 b l h')
      (ix2 (⟨2048 * b.val + l.val, by omega⟩ : Fin 8192) h') ?_
    rw [Shape.rowMajor_val_three, Shape.rowMajor_val_two]
    show (2048 * b.val + l.val) * 64 + h'.val = (b.val * 2048 + l.val) * 64 + h'.val
    omega
  have e2 : matProd (arrX (E1 m) c) (arrW (E1 m) c) (ix2 (⟨2048 * b.val + l.val, by omega⟩ : Fin 8192) h')
      = proj (fun b' l' k => inX m c (ix3 b' l' k)) (fun h'' k => inW m c (ix2 h'' k)) b l h' := by
    rw [matProd_apply]
    unfold proj
    show (∑ k : Fin 1024, (arrX (E1 m) c (ix2 (⟨2048 * b.val + l.val, by omega⟩ : Fin 8192) k) : EReal) * arrW (E1 m) c (ix2 k h'))
      = ∑ k : Fin 1024, (inX m c (ix3 b l k) : EReal) * inW m c (ix2 h' k)
    exact Finset.sum_congr rfl fun k _ => by rw [v0_apply m c b l k _ rfl, v1_apply m c k h']
  exact e1.trans e2

end Main

/-- With finite inputs, the array the attention region leaves is the reference's result: both are the causal
    softmax-weighted sum of the projected rows, the region's by the tile recurrence, the reference's directly,
    and on real-valued projected rows the two agree. -/
theorem kernel_eq_ref (m : (ℓ : Loc nD τ sig) → Buf (Elt Ideal) ℓ) (c : Dev nD)
    (h0 : ∀ i, ∃ y : ℝ, (m ((c.tc : Thread nD τ).loc main_arg0) : Vec Ideal S4x2048x1024 .f32) i = (y : EReal))
    (h1 : ∀ i, ∃ y : ℝ, (m ((c.tc : Thread nD τ).loc main_arg1) : Vec Ideal S64x1024 .f32) i = (y : EReal)) :
    (out4 (F := Ideal) m c : Vec Ideal S4x2048x64 .f32)
      = Cert.ReferenceIdeal.Read.val_main_v19 (F := Ideal) (m ((c.tc : Thread nD τ).loc main_arg0)) (m ((c.tc : Thread nD τ).loc main_arg1)) := by
  funext j
  obtain ⟨b, r, h, rfl⟩ : ∃ (b : Fin 4) (r : Fin 2048) (h : Fin 64), j = ix3 b r h := ⟨j 0, j 1, j 2, eq_ix3 j⟩
  have hQ : (fun (l : Fin 2048) (h' : Fin 64) => (E3 m c main_v3 (ix3 b l h') : EReal))
      = fun l h' => proj (fun b' l' k => inX m c (ix3 b' l' k)) (fun h'' k => inW m c (ix2 h'' k)) b l h' :=
    funext fun l => funext fun h' => v3_apply m c b l h'
  refine (attn_arr (E3 m) c b r h).trans ?_
  refine (congrArg (fun q => attnOnl q r h) hQ).trans ?_
  refine (Cert.Bridge.attnOnl_eq_attnRef _
    (fun l h' => Cert.Bridge.proj_real _ _ (fun b' l' k => h0 (ix3 b' l' k)) (fun h'' k => h1 (ix2 h'' k)) b l h') r h).trans ?_
  exact (Cert.RefValue.ref_value (inX m c) (inW m c) b r h).symm

end Cert.KernelIdeal.HandV

end
-- ==== Proof.lean ====
/-
  Causal attention whose query projection serves as query, key and value: the tiled kernel against the
  direct softmax.

  The kernel first projects, Q = x · Wqᵀ (16 row tiles), then for every batch and every tile of 256 query rows
  walks the key/value tiles 0 … 7 keeping, per query row, a running maximum m, a running sum l of
  exp (score - m) and a running weighted sum a of the values, rescaled by exp (m_old - m_new) at each tile;
  tiles above the diagonal are skipped, scores above the diagonal inside the diagonal tile are masked, and the
  last tile's step writes a · (1 / l). The reference computes softmax (mask (Q Qᵀ / √1024)) · Q directly.

  Over the extended reals the two agree when the inputs are finite: the recurrence's state after the tiles up
  to the diagonal's is the row maximum, the sum of the exponentials and their value-weighted sum over the
  unmasked columns (the masked ones contribute exp ⊥ = 0); the sum is at least 1, so dividing by it is
  multiplying by its real inverse, and a · l⁻¹ is the softmax-weighted sum term by term. The scale 1/32 the
  kernel multiplies by is the reference's division by √1024 = 32, and the kernel's finite mask value is named
  ⊥, the reference's -∞.

  The three frames: each kernel region's body is run once, generically in the float instance, over the
  pipeline's proof data (the attention region's invariant carries the three scratch buffers from point to
  point; its two input windows read one array, held in two halves); the reference's is its host run.
-/
import proofs.«418124_j83743272337485_3_alg».proof.Defs
import proofs.«418124_j83743272337485_3_alg».proof.Proof.Gen.Kernel
import proofs.«418124_j83743272337485_3_alg».proof.Proof.Gen.KernelIdeal
import proofs.«418124_j83743272337485_3_alg».proof.Proof.Gen.ReferenceIdeal
import proofs.«418124_j83743272337485_3_alg».proof.Proof.Gen.Pre_finite_inputs
import proofs.«418124_j83743272337485_3_alg».proof.Proof.Gen.ReferenceIdeal.Run
import proofs.«418124_j83743272337485_3_alg».proof.Proof.Gen.ReferenceIdeal.Read
import proofs.«418124_j83743272337485_3_alg».proof.Proof.K.Run
import proofs.«418124_j83743272337485_3_alg».proof.Proof.KI.Run
import proofs.«418124_j83743272337485_3_alg».proof.Proof.KI.Final
import proofs.«418124_j83743272337485_3_alg».proof.Proof.Bridge
import Idealize.ShloMosaic.PureOps.IdealRules
import Idealize.ShloMosaic.Adequacy
import Idealize.ShloMosaic.Init

noncomputable section

namespace Cert.Proof

open Idealize.ShloMosaic Idealize.ShloMosaic.TcCoe Idealize.SL.Sem

/-- The word-level kernel runs and leaves its arguments unchanged: its run, the result forgotten. -/
theorem frame_k : Cert.frame_Kernel := fun m ρ _ =>
  (θ_run Cert.Kernel.defs _ _).mono (fun _ h c => (h c).2) (Cert.Kernel.Hand.run_main (F := Bits) m ρ)

/-- The same of the idealized kernel. -/
theorem frame_ki : Cert.frame_KernelIdeal := fun m ρ _ =>
  (θ_run Cert.KernelIdeal.defs _ _).mono (fun _ h c => (h c).2) (Cert.KernelIdeal.Hand.run_main (F := Ideal) m ρ)

/-- The reference is host operations only: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the kernel's finite mask value is named ⊥. -/
theorem preserves : Cert.preserves_Kernel_KernelIdeal :=
  IdealRules.named_const.statement Cert.KernelIdeal.κ "neg_big" .f32 0xFF333332#32 ⊥ rfl

/-- From memories agreeing on finite inputs both programs run, and the kernel's result array — what the
    attention region's write-backs leave — is the reference's result, element by element. -/
theorem algebraic : Cert.algebraic_KernelIdeal_ReferenceIdeal := by
  intro m ρ m' ρ' hpre hagree
  refine ⟨fun c => Cert.KernelIdeal.Hand.out4 (F := Ideal) m c, Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, (hagree c).1, (hagree c).2]
  obtain ⟨h0, h1⟩ := Cert.Bridge.finite_of_pre _ _ (hpre c)
  exact (Cert.KernelIdeal.HandV.kernel_eq_ref m c h0 h1).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
